-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S8x512 : Shape := ⟨2, ![8, 512]⟩
abbrev S32000x2048 : Shape := ⟨2, ![32000, 2048]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S32000x2048 : S_.BroadcastsInDim S32000x2048 (![] : Fin 0 → Fin S32000x2048.rank)
  reducesTo_S32000x2048_S_d0_1 : S32000x2048.ReducesTo [0, 1] S_
  bcast_S_S8x512 : S_.BroadcastsInDim S8x512 (![] : Fin 0 → Fin S8x512.rank)
  reducesTo_S8x512_S_d0_1 : S8x512.ReducesTo [0, 1] S_

variable [Facts]

def fn_part1 {F : FTy → Type} [FloatOps F] (main_arg2 : IVec S8x512 32) (main_v13 : IVec S_ 1) (main_v16 : IVec S32000x2048 1) : IVec S_ 1 :=
  let main_c_5 : IVec S_ 1 := constantI S_ 1 1#1
  let main_v17 : IVec S_ 1 := (fun x v => Host.reduce IntOp.andi x v reducesTo_S32000x2048_S_d0_1 h_S_) main_v16 main_c_5
  let main_v18 : IVec S_ 1 := andi main_v13 main_v17
  let main_c_6 : IVec S_ 32 := constantI S_ 32 4294967196#32
  let main_v19 : IVec S8x512 32 := broadcastInDim S8x512 ![] bcast_S_S8x512 main_c_6
  let main_v20 : IVec S8x512 1 := cmpi .eq main_arg2 main_v19
  let main_c_7 : IVec S_ 32 := constantI S_ 32 0#32
  let main_v21 : IVec S8x512 32 := broadcastInDim S8x512 ![] bcast_S_S8x512 main_c_7
  let main_v22 : IVec S8x512 1 := cmpi .sge main_arg2 main_v21
  let main_c_8 : IVec S_ 32 := constantI S_ 32 32000#32
  let main_v23 : IVec S8x512 32 := broadcastInDim S8x512 ![] bcast_S_S8x512 main_c_8
  let main_v24 : IVec S8x512 1 := cmpi .slt main_arg2 main_v23
  let main_v25 : IVec S8x512 1 := andi main_v22 main_v24
  let main_v26 : IVec S8x512 1 := ori main_v20 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v18 main_v27
  main_v28

def fn {F : FTy → Type} [FloatOps F] (main_arg0 : FVec F S8x512x2048 .f32) (main_arg1 : FVec F S8x512x2048 .f32) (main_arg2 : IVec S8x512 32) (main_arg3 : FVec F S32000x2048 .f32) (main_arg4 : FVec F S32000x2048 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x512x2048 .f32 := Host.absf main_arg1
  let main_cst_0 : FVec F S_ .f32 := constant S_ .f32 0x7F800000#32
  let main_v5 : FVec F S8x512x2048 .f32 := broadcastInDim S8x512x2048 ![] bcast_S_S8x512x2048 main_cst_0
  let main_v6 : IVec S8x512x2048 1 := cmpf .olt main_v4 main_v5
  let main_c_1 : IVec S_ 1 := constantI S_ 1 1#1
  let main_v7 : IVec S_ 1 := (fun x v => Host.reduce IntOp.andi x v reducesTo_S8x512x2048_S_d0_1_2 h_S_) main_v6 main_c_1
  let main_v8 : IVec S_ 1 := andi main_v3 main_v7
  let main_v9 : FVec F S32000x2048 .f32 := Host.absf main_arg3
  let main_cst_2 : FVec F S_ .f32 := constant S_ .f32 0x7F800000#32
  let main_v10 : FVec F S32000x2048 .f32 := broadcastInDim S32000x2048 ![] bcast_S_S32000x2048 main_cst_2
  let main_v11 : IVec S32000x2048 1 := cmpf .olt main_v9 main_v10
  let main_c_3 : IVec S_ 1 := constantI S_ 1 1#1
  let main_v12 : IVec S_ 1 := (fun x v => Host.reduce IntOp.andi x v reducesTo_S32000x2048_S_d0_1 h_S_) main_v11 main_c_3
  let main_v13 : IVec S_ 1 := andi main_v8 main_v12
  let main_v14 : FVec F S32000x2048 .f32 := Host.absf main_arg4
  let main_cst_4 : FVec F S_ .f32 := constant S_ .f32 0x7F800000#32
  let main_v15 : FVec F S32000x2048 .f32 := broadcastInDim S32000x2048 ![] bcast_S_S32000x2048 main_cst_4
  let main_v16 : IVec S32000x2048 1 := cmpf .olt main_v14 main_v15
  fn_part1 (F := F) main_arg2 main_v13 main_v16
-- ==== Kernel.lean ====
abbrev S8x512x2048 : Shape := ⟨3, ![8, 512, 2048]⟩
abbrev S8x512 : Shape := ⟨2, ![8, 512]⟩
abbrev S32000x2048 : Shape := ⟨2, ![32000, 2048]⟩
abbrev S_ : Shape := ⟨0, ![]⟩
abbrev S4096 : Shape := ⟨1, ![4096]⟩
abbrev S4096x2048 : Shape := ⟨2, ![4096, 2048]⟩
abbrev S4096x1 : Shape := ⟨2, ![4096, 1]⟩
abbrev S2048x2048 : Shape := ⟨2, ![2048, 2048]⟩
abbrev S1280x2048 : Shape := ⟨2, ![1280, 2048]⟩
abbrev S2048x1 : Shape := ⟨2, ![2048, 1]⟩
abbrev S2048x1280 : Shape := ⟨2, ![2048, 1280]⟩
abbrev S1x1280 : Shape := ⟨2, ![1, 1280]⟩
abbrev S2048 : Shape := ⟨1, ![2048]⟩
abbrev S8 : Shape := ⟨1, ![8]⟩
abbrev S4 : Shape := ⟨1, ![4]⟩

abbrev nBuf : Space → Nat
  | .hbm => 78
  | .vmem => 20
  | .smem => 0
  | _ => 0

abbrev bufTy : (tb : Table) → Fin (tcTables nBuf tb) → BufTy
  | .hbm, ⟨0, _⟩ => ⟨S8x512x2048, .f32⟩
  | .hbm, ⟨1, _⟩ => ⟨S8x512x2048, .f32⟩
  | .hbm, ⟨2, _⟩ => ⟨S8x512, .i32⟩
  | .hbm, ⟨3, _⟩ => ⟨S32000x2048, .f32⟩
  | .hbm, ⟨4, _⟩ => ⟨S32000x2048, .f32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S_, .i32⟩
  | .hbm, ⟨10, _⟩ => ⟨S8x512, .i32⟩
  | .hbm, ⟨11, _⟩ => ⟨S8x512, .i32⟩
  | .hbm, ⟨12, _⟩ => ⟨S4096, .i32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S4096x1, .i32⟩
  | .hbm, ⟨17, _⟩ => ⟨S4096x1, .f32⟩
  | .hbm, ⟨18, _⟩ => ⟨S4096, .f32⟩
  | .hbm, ⟨19, _⟩ => ⟨S8x512, .f32⟩
  | .hbm, ⟨20, _⟩ => ⟨S4096x2048, .bf16⟩
  | .hbm, ⟨21, _⟩ => ⟨S4096x1, .i32⟩
  | .hbm, ⟨22, _⟩ => ⟨S4096x1, .f32⟩
  | .hbm, ⟨23, _⟩ => ⟨S4096, .f32⟩
  | .hbm, ⟨24, _⟩ => ⟨S8x512, .f32⟩
  | .hbm, ⟨25, _⟩ => ⟨S_, .f32⟩
  | .hbm, ⟨26, _⟩ => ⟨S_, .f32⟩
  | .hbm, ⟨27, _⟩ => ⟨S8x512, .f32⟩
  | .hbm, ⟨28, _⟩ => ⟨S8x512, .f32⟩
  | .hbm, ⟨29, _⟩ => ⟨S_, .f32⟩
  | .hbm, ⟨30, _⟩ => ⟨S_, .f32⟩
  | .hbm, ⟨31, _⟩ => ⟨S8x512, .f32⟩
  | .hbm, ⟨32, _⟩ => ⟨S8x512, .f32⟩
  | .hbm, ⟨33, _⟩ => ⟨S8x512, .i32⟩
  | .hbm, ⟨34, _⟩ => ⟨S_, .i32⟩
  | .hbm, ⟨35, _⟩ => ⟨S8, .i32⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S4, .f32⟩
  | .hbm, ⟨54, _⟩ => ⟨S_, .f32⟩
  | .hbm, ⟨55, _⟩ => ⟨S4, .f32⟩
  | .hbm, ⟨56, _⟩ => ⟨S4, .f32⟩
  | .hbm, ⟨57, _⟩ => ⟨S4, .f32⟩
  | .hbm, ⟨58, _⟩ => ⟨S_, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S4, .i1⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S2048x2048, .bf16⟩
  | .local _ .vmem, ⟨1, _⟩ => ⟨S2048x2048, .bf16⟩
  | .local _ .vmem, ⟨2, _⟩ => ⟨S1280x2048, .f32⟩
  | .local _ .vmem, ⟨3, _⟩ => ⟨S1280x2048, .f32⟩
  | .local _ .vmem, ⟨4, _⟩ => ⟨S2048x1, .i32⟩
  | .local _ .vmem, ⟨5, _⟩ => ⟨S2048x1, .i32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x2048, .bf16⟩
  | .local _ .vmem, ⟨11, _⟩ => ⟨S2048x2048, .bf16⟩
  | .local _ .vmem, ⟨12, _⟩ => ⟨S1280x2048, .f32⟩
  | .local _ .vmem, ⟨13, _⟩ => ⟨S1280x2048, .f32⟩
  | .local _ .vmem, ⟨14, _⟩ => ⟨S2048x1, .i32⟩
  | .local _ .vmem, ⟨15, _⟩ => ⟨S2048x1, .i32⟩
  | .local _ .vmem, ⟨16, _⟩ => ⟨S2048x1, .f32⟩
  | .local _ .vmem, ⟨17, _⟩ => ⟨S2048x1, .f32⟩
  | .local _ .vmem, ⟨18, _⟩ => ⟨S2048x1, .f32⟩
  | .local _ .vmem, ⟨19, _⟩ => ⟨S2048x1, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_v16 : Ref sig .tc := ⟨.hbm, 28, rfl⟩
abbrev main_cst_1 : Ref sig .tc := ⟨.hbm, 29, rfl⟩
abbrev main_call2_v0 : Ref sig .tc := ⟨.hbm, 30, rfl⟩
abbrev main_call2_v1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_call3_v0 : Ref sig .tc := ⟨.hbm, 57, rfl⟩
abbrev main_call3_call0_cst : Ref sig .tc := ⟨.hbm, 58, rfl⟩
abbrev main_call3_call0_v0 : Ref sig .tc := ⟨.hbm, 59, rfl⟩
abbrev main_call3_call0_v1 : Ref sig .tc := ⟨.hbm, 60, rfl⟩
abbrev main_call3_call0_v2 : Ref sig .tc := ⟨.hbm, 61, rfl⟩
abbrev main_call3_call0_v3 : Ref sig .tc := ⟨.hbm, 62, rfl⟩
abbrev main_call3_call0_v4 : Ref sig .tc := ⟨.hbm, 63, rfl⟩
abbrev main_call3_call0_v5 : Ref sig .tc := ⟨.hbm, 64, rfl⟩
abbrev main_call3_call0_v6 : Ref sig .tc := ⟨.hbm, 65, rfl⟩
abbrev main_call3_call0_v7 : Ref sig .tc := ⟨.hbm, 66, rfl⟩
abbrev main_call3_call0_v8 : Ref sig .tc := ⟨.hbm, 67, rfl⟩
abbrev main_call3_call0_v9 : Ref sig .tc := ⟨.hbm, 68, rfl⟩
abbrev main_call3_call0_v10 : Ref sig .tc := ⟨.hbm, 69, rfl⟩
abbrev main_call3_call0_v11 : Ref sig .tc := ⟨.hbm, 70, rfl⟩
abbrev main_call3_v1 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_cst_8 : Ref sig .tc := ⟨.hbm, 76, rfl⟩
abbrev main_v40 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v34 : BitVec 1 := Scalar.cmpi .eq arg1 c24_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v34 : BitVec 1 := Scalar.cmpi .eq arg1 c24_i32
  let v35 : BitVec 32 := Scalar.extui v34
  let c0_i32_17 : BitVec 32 := 0#32
  let v36 : BitVec 1 := Scalar.cmpi .ne v35 c0_i32_17
  v36

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1280x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S8x512 : S_.BroadcastsInDim S8x512 (![] : Fin 0 → Fin S8x512.rank)
  shapeCasts_S8x512_S4096 : S8x512.ShapeCasts S4096
  shapeCasts_S8x512x2048_S4096x2048 : S8x512x2048.ShapeCasts S4096x2048
  bitsLt_bf16_f32 : FTy.bits .bf16 < FTy.bits .f32
  bcast_S4096_S4096x1_0 : S4096.BroadcastsInDim S4096x1 (![0] : Fin 1 → Fin S4096x1.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1280x2048_S1280x2048_0_0 : ∀ a, (![0, 0] : Fin 2 → Nat) a + S1280x2048.size a ≤ S1280x2048.size a
  h_S1280x2048 : 0 < S1280x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  iota_S1x1280_d1_w32 : S1x1280.Iotas .tc 32 [1]
  broadcasts_S2048x1_S2048x1280 : S2048x1.Broadcasts S2048x1280
  broadcasts_S1x1280_S2048x1280 : S1x1280.Broadcasts S2048x1280
  reduces_S2048x1280_S2048 : S2048x1280.Reduces [1] S2048
  shapeCasts_S2048_S2048x1 : S2048.ShapeCasts S2048x1
  shapeCasts_S4096x1_S4096 : S4096x1.ShapeCasts S4096
  shapeCasts_S4096_S8x512 : S4096.ShapeCasts S8x512
  natLt_1_32 : 1 < 32
  reducesTo_S8x512_S8_d1 : S8x512.ReducesTo [1] S8
  h_S_ : 0 < S_.numel
  bcast_S_S8 : S_.BroadcastsInDim S8 (![] : Fin 0 → Fin S8.rank)
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S2048x2048_S1280x2048_S2048x1280_1_1_0_0_n_n_wf : DotDims.WF S2048x2048 S1280x2048 S2048x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x2048.size a
  hwx0_0 : ∀ i : grid0.Coords, EltTy.bits .bf16 = 32 ∨ (Rect.block (s := S4096x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x2048.size a ≤ S32000x2048.size a
  hwx0_1 : ∀ i : grid0.Coords, EltTy.bits .f32 = 32 ∨ (Rect.block (s := S32000x2048) S1280x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .i32 = 32 ∨ (Rect.block (s := S4096x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .f32 = 32 ∨ (Rect.block (s := S4096x1) S2048x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S4096x2048.size a
  hwx1_0 : ∀ i : grid1.Coords, EltTy.bits .bf16 = 32 ∨ (Rect.block (s := S4096x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x2048.size a ≤ S32000x2048.size a
  hwx1_1 : ∀ i : grid1.Coords, EltTy.bits .f32 = 32 ∨ (Rect.block (s := S32000x2048) S1280x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S4096x1.size a
  hwx1_2 : ∀ i : grid1.Coords, EltTy.bits .i32 = 32 ∨ (Rect.block (s := S4096x1) S2048x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S4096x1.size a
  hwx1_3 : ∀ i : grid1.Coords, EltTy.bits .f32 = 32 ∨ (Rect.block (s := S4096x1) S2048x1.size (cc1_transform_3 i) (hinb1_3 i)).WholeWords (EltTy.packing .f32)

variable [Facts₀]

def dot_S2048x2048_S1280x2048_S2048x1280_1_1_0_0_n_n : DotDims S2048x2048 S1280x2048 S2048x1280 where
  lhsContracting := [1]
  rhsContracting := [1]
  lhsNonContracting := [0]
  rhsNonContracting := [0]
  lhsBatch := []
  rhsBatch := []
  wf := dot_S2048x2048_S1280x2048_S2048x1280_1_1_0_0_n_n_wf

abbrev win0_0 : Pipeline.Window sig grid0 :=
  Pipeline.Window.ofSpec (Memref.whole main_v6) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1280x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v11) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1280x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2048x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x512x2048 : Shape := ⟨3, ![8, 512, 2048]⟩
abbrev S8x512 : Shape := ⟨2, ![8, 512]⟩
abbrev S32000x2048 : Shape := ⟨2, ![32000, 2048]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩

abbrev nBuf : Space → Nat
  | .hbm => 158
  | .vmem => 0
  | .smem => 0
  | _ => 0

abbrev hbmTy0_0 (i : Nat) : BufTy := match i % 128 with
  | 0 => ⟨S8x512x2048, .f32⟩
  | 1 => ⟨S8x512x2048, .f32⟩
  | 2 => ⟨S8x512, .i32⟩
  | 3 => ⟨S32000x2048, .f32⟩
  | 4 => ⟨S32000x2048, .f32⟩
  | 5 => ⟨S8x512x32000, .f32⟩
  | 6 => ⟨S_, .f32⟩
  | 7 => ⟨S8x512, .f32⟩
  | 8 => ⟨S_, .f32⟩
  | 9 => ⟨S8x512, .f32⟩
  | 10 => ⟨S8x512, .f32⟩
  | 11 => ⟨S8x512x1, .f32⟩
  | 12 => ⟨S8x512x32000, .f32⟩
  | 13 => ⟨S8x512x32000, .f32⟩
  | 14 => ⟨S8x512x32000, .f32⟩
  | 15 => ⟨S_, .f32⟩
  | 16 => ⟨S8x512, .f32⟩
  | 17 => ⟨S8x512x1, .f32⟩
  | 18 => ⟨S8x512x1, .f32⟩
  | 19 => ⟨S8x512x32000, .f32⟩
  | 20 => ⟨S8x512x32000, .f32⟩
  | 21 => ⟨S_, .i32⟩
  | 22 => ⟨S8x512, .i32⟩
  | 23 => ⟨S8x512, .i1⟩
  | 24 => ⟨S_, .i32⟩
  | 25 => ⟨S_, .i32⟩
  | 26 => ⟨S8x512, .i32⟩
  | 27 => ⟨S8x512, .i32⟩
  | 28 => ⟨S8x512x1, .i32⟩
  | 29 => ⟨S_, .i32⟩
  | 30 => ⟨S8x512x1, .i32⟩
  | 31 => ⟨S8x512x1, .i1⟩
  | 32 => ⟨S_, .i32⟩
  | 33 => ⟨S8x512x1, .i32⟩
  | 34 => ⟨S8x512x1, .i32⟩
  | 35 => ⟨S8x512x1, .i32⟩
  | 36 => ⟨S8x512x1x1, .i32⟩
  | 37 => ⟨S1, .i32⟩
  | 38 => ⟨S_, .i32⟩
  | 39 => ⟨S8x512x1x1, .i32⟩
  | 40 => ⟨S8x512x1x1, .i1⟩
  | 41 => ⟨S1x1x1x1, .i32⟩
  | 42 => ⟨S8x512x1x1, .i32⟩
  | 43 => ⟨S8x512x1x1, .i1⟩
  | 44 => ⟨S8x512x1x1, .i1⟩
  | 45 => ⟨S_, .i1⟩
  | 46 => ⟨S8x512x1, .i1⟩
  | 47 => ⟨S8x512x1, .f32⟩
  | 48 => ⟨S_, .f32⟩
  | 49 => ⟨S8x512x1, .f32⟩
  | 50 => ⟨S8x512x1, .f32⟩
  | 51 => ⟨S8x512, .f32⟩
  | 52 => ⟨S_, .f32⟩
  | 53 => ⟨S_, .f32⟩
  | 54 => ⟨S8x512, .f32⟩
  | 55 => ⟨S8x512, .f32⟩
  | 56 => ⟨S8x512, .i32⟩
  | 57 => ⟨S_, .i32⟩
  | 58 => ⟨S8, .i32⟩
  | 59 => ⟨S_, .i32⟩
  | 60 => ⟨S8, .i32⟩
  | 61 => ⟨S8, .i32⟩
  | 62 => ⟨S_, .f32⟩
  | 63 => ⟨S8, .f32⟩
  | 64 => ⟨S8, .f32⟩
  | 65 => ⟨S8, .f32⟩
  | 66 => ⟨S8x512x32000, .f32⟩
  | 67 => ⟨S_, .f32⟩
  | 68 => ⟨S8x512, .f32⟩
  | 69 => ⟨S_, .f32⟩
  | 70 => ⟨S8x512, .f32⟩
  | 71 => ⟨S8x512, .f32⟩
  | 72 => ⟨S8x512x1, .f32⟩
  | 73 => ⟨S8x512x32000, .f32⟩
  | 74 => ⟨S8x512x32000, .f32⟩
  | 75 => ⟨S8x512x32000, .f32⟩
  | 76 => ⟨S_, .f32⟩
  | 77 => ⟨S8x512, .f32⟩
  | 78 => ⟨S8x512x1, .f32⟩
  | 79 => ⟨S8x512x1, .f32⟩
  | 80 => ⟨S8x512x32000, .f32⟩
  | 81 => ⟨S8x512x32000, .f32⟩
  | 82 => ⟨S_, .i32⟩
  | 83 => ⟨S8x512, .i32⟩
  | 84 => ⟨S8x512, .i1⟩
  | 85 => ⟨S_, .i32⟩
  | 86 => ⟨S_, .i32⟩
  | 87 => ⟨S8x512, .i32⟩
  | 88 => ⟨S8x512, .i32⟩
  | 89 => ⟨S8x512x1, .i32⟩
  | 90 => ⟨S_, .i32⟩
  | 91 => ⟨S8x512x1, .i32⟩
  | 92 => ⟨S8x512x1, .i1⟩
  | 93 => ⟨S_, .i32⟩
  | 94 => ⟨S8x512x1, .i32⟩
  | 95 => ⟨S8x512x1, .i32⟩
  | 96 => ⟨S8x512x1, .i32⟩
  | 97 => ⟨S8x512x1x1, .i32⟩
  | 98 => ⟨S1, .i32⟩
  | 99 => ⟨S_, .i32⟩
  | 100 => ⟨S8x512x1x1, .i32⟩
  | 101 => ⟨S8x512x1x1, .i1⟩
  | 102 => ⟨S1x1x1x1, .i32⟩
  | 103 => ⟨S8x512x1x1, .i32⟩
  | 104 => ⟨S8x512x1x1, .i1⟩
  | 105 => ⟨S8x512x1x1, .i1⟩
  | 106 => ⟨S_, .i1⟩
  | 107 => ⟨S8x512x1, .i1⟩
  | 108 => ⟨S8x512x1, .f32⟩
  | 109 => ⟨S_, .f32⟩
  | 110 => ⟨S8x512x1, .f32⟩
  | 111 => ⟨S8x512x1, .f32⟩
  | 112 => ⟨S8x512, .f32⟩
  | 113 => ⟨S_, .f32⟩
  | 114 => ⟨S_, .f32⟩
  | 115 => ⟨S8x512, .f32⟩
  | 116 => ⟨S8x512, .f32⟩
  | 117 => ⟨S8x512, .i32⟩
  | 118 => ⟨S_, .i32⟩
  | 119 => ⟨S8, .i32⟩
  | 120 => ⟨S_, .i32⟩
  | 121 => ⟨S8, .i32⟩
  | 122 => ⟨S8, .i32⟩
  | 123 => ⟨S_, .f32⟩
  | 124 => ⟨S8, .f32⟩
  | 125 => ⟨S8, .f32⟩
  | 126 => ⟨S8, .f32⟩
  | 127 => ⟨S4, .f32⟩
  | _ => ⟨S8x512x2048, .f32⟩

abbrev hbmTy0_1 (i : Nat) : BufTy := match i % 128 with
  | 0 => ⟨S4, .f32⟩
  | 1 => ⟨S4, .f32⟩
  | 2 => ⟨S4, .f32⟩
  | 3 => ⟨S4, .f32⟩
  | 4 => ⟨S4, .f32⟩
  | 5 => ⟨S4, .f32⟩
  | 6 => ⟨S_, .f32⟩
  | 7 => ⟨S4, .f32⟩
  | 8 => ⟨S4, .f32⟩
  | 9 => ⟨S4, .f32⟩
  | 10 => ⟨S_, .f32⟩
  | 11 => ⟨S4, .f32⟩
  | 12 => ⟨S4, .f32⟩
  | 13 => ⟨S4, .f32⟩
  | 14 => ⟨S4, .f32⟩
  | 15 => ⟨S4, .i1⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S4, .f32⟩
  | 23 => ⟨S4, .f32⟩
  | 24 => ⟨S4, .f32⟩
  | 25 => ⟨S_, .f32⟩
  | 26 => ⟨S_, .f32⟩
  | 27 => ⟨S_, .f32⟩
  | 28 => ⟨S_, .f32⟩
  | 29 => ⟨S_, .f32⟩
  | _ => ⟨S8x512x2048, .f32⟩

abbrev hbmTy (i : Nat) : BufTy := match i / 128 with
  | 0 => hbmTy0_0 i
  | 1 => hbmTy0_1 i
  | _ => ⟨S8x512x2048, .f32⟩

abbrev bufTy : (tb : Table) → Fin (tcTables nBuf tb) → BufTy
  | .hbm, ⟨i, _⟩ => hbmTy i
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v4 : Ref sig .tc := ⟨.hbm, 27, rfl⟩
abbrev main_v5 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v6 : Ref sig .tc := ⟨.hbm, 50, rfl⟩
abbrev main_v7 : Ref sig .tc := ⟨.hbm, 51, rfl⟩
abbrev main_cst : Ref sig .tc := ⟨.hbm, 52, rfl⟩
abbrev main_call3_v0 : Ref sig .tc := ⟨.hbm, 53, rfl⟩
abbrev main_call3_v1 : Ref sig .tc := ⟨.hbm, 54, rfl⟩
abbrev main_v8 : Ref sig .tc := ⟨.hbm, 55, rfl⟩
abbrev main_v9 : Ref sig .tc := ⟨.hbm, 56, rfl⟩
abbrev main_c_1 : Ref sig .tc := ⟨.hbm, 57, rfl⟩
abbrev main_v10 : Ref sig .tc := ⟨.hbm, 58, rfl⟩
abbrev main_c_2 : Ref sig .tc := ⟨.hbm, 59, rfl⟩
abbrev main_v11 : Ref sig .tc := ⟨.hbm, 60, rfl⟩
abbrev main_v12 : Ref sig .tc := ⟨.hbm, 61, rfl⟩
abbrev main_cst_3 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_call4_cst : Ref sig .tc := ⟨.hbm, 67, rfl⟩
abbrev main_call4_v0 : Ref sig .tc := ⟨.hbm, 68, rfl⟩
abbrev main_call4_cst_0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_v5 : Ref sig .tc := ⟨.hbm, 74, rfl⟩
abbrev main_call4_v6 : Ref sig .tc := ⟨.hbm, 75, rfl⟩
abbrev main_call4_cst_1 : Ref sig .tc := ⟨.hbm, 76, rfl⟩
abbrev main_call4_v7 : Ref sig .tc := ⟨.hbm, 77, rfl⟩
abbrev main_call4_v8 : Ref sig .tc := ⟨.hbm, 78, rfl⟩
abbrev main_call4_v9 : Ref sig .tc := ⟨.hbm, 79, rfl⟩
abbrev main_call4_v10 : Ref sig .tc := ⟨.hbm, 80, rfl⟩
abbrev main_v17 : Ref sig .tc := ⟨.hbm, 81, rfl⟩
abbrev main_c_4 : Ref sig .tc := ⟨.hbm, 82, rfl⟩
abbrev main_v18 : Ref sig .tc := ⟨.hbm, 83, rfl⟩
abbrev main_v19 : Ref sig .tc := ⟨.hbm, 84, rfl⟩
abbrev main_c_5 : Ref sig .tc := ⟨.hbm, 85, rfl⟩
abbrev main_call5_v0 : Ref sig .tc := ⟨.hbm, 86, rfl⟩
abbrev main_call5_v1 : Ref sig .tc := ⟨.hbm, 87, rfl⟩
abbrev main_v20 : Ref sig .tc := ⟨.hbm, 88, rfl⟩
abbrev main_v21 : Ref sig .tc := ⟨.hbm, 89, rfl⟩
abbrev main_call6_c : Ref sig .tc := ⟨.hbm, 90, rfl⟩
abbrev main_call6_v0 : Ref sig .tc := ⟨.hbm, 91, rfl⟩
abbrev main_call6_v1 : Ref sig .tc := ⟨.hbm, 92, rfl⟩
abbrev main_call6_c_0 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_v5 : Ref sig .tc := ⟨.hbm, 97, rfl⟩
abbrev main_call6_c_1 : Ref sig .tc := ⟨.hbm, 98, rfl⟩
abbrev main_call6_c_2 : Ref sig .tc := ⟨.hbm, 99, rfl⟩
abbrev main_call6_v6 : Ref sig .tc := ⟨.hbm, 100, rfl⟩
abbrev main_call6_v7 : Ref sig .tc := ⟨.hbm, 101, rfl⟩
abbrev main_call6_v8 : Ref sig .tc := ⟨.hbm, 102, rfl⟩
abbrev main_call6_v9 : Ref sig .tc := ⟨.hbm, 103, rfl⟩
abbrev main_call6_v10 : Ref sig .tc := ⟨.hbm, 104, rfl⟩
abbrev main_call6_v11 : Ref sig .tc := ⟨.hbm, 105, rfl⟩
abbrev main_call6_c_3 : Ref sig .tc := ⟨.hbm, 106, rfl⟩
abbrev main_call6_v12 : Ref sig .tc := ⟨.hbm, 107, rfl⟩
abbrev main_call6_v13 : Ref sig .tc := ⟨.hbm, 108, rfl⟩
abbrev main_call6_cst : Ref sig .tc := ⟨.hbm, 109, rfl⟩
abbrev main_call6_v14 : Ref sig .tc := ⟨.hbm, 110, rfl⟩
abbrev main_v22 : Ref sig .tc := ⟨.hbm, 111, rfl⟩
abbrev main_v23 : Ref sig .tc := ⟨.hbm, 112, rfl⟩
abbrev main_cst_6 : Ref sig .tc := ⟨.hbm, 113, rfl⟩
abbrev main_call7_v0 : Ref sig .tc := ⟨.hbm, 114, rfl⟩
abbrev main_call7_v1 : Ref sig .tc := ⟨.hbm, 115, rfl⟩
abbrev main_v24 : Ref sig .tc := ⟨.hbm, 116, rfl⟩
abbrev main_v25 : Ref sig .tc := ⟨.hbm, 117, rfl⟩
abbrev main_c_7 : Ref sig .tc := ⟨.hbm, 118, rfl⟩
abbrev main_v26 : Ref sig .tc := ⟨.hbm, 119, rfl⟩
abbrev main_c_8 : Ref sig .tc := ⟨.hbm, 120, rfl⟩
abbrev main_v27 : Ref sig .tc := ⟨.hbm, 121, rfl⟩
abbrev main_v28 : Ref sig .tc := ⟨.hbm, 122, rfl⟩
abbrev main_cst_9 : Ref sig .tc := ⟨.hbm, 123, rfl⟩
abbrev main_v29 : Ref sig .tc := ⟨.hbm, 124, rfl⟩
abbrev main_v30 : Ref sig .tc := ⟨.hbm, 125, rfl⟩
abbrev main_v31 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩
abbrev main_v37 : Ref sig .tc := ⟨.hbm, 132, rfl⟩
abbrev main_v38 : Ref sig .tc := ⟨.hbm, 133, rfl⟩
abbrev main_cst_10 : Ref sig .tc := ⟨.hbm, 134, rfl⟩
abbrev main_v39 : Ref sig .tc := ⟨.hbm, 135, rfl⟩
abbrev main_v40 : Ref sig .tc := ⟨.hbm, 136, rfl⟩
abbrev main_call8_v0 : Ref sig .tc := ⟨.hbm, 137, rfl⟩
abbrev main_call8_call0_cst : Ref sig .tc := ⟨.hbm, 138, rfl⟩
abbrev main_call8_call0_v0 : Ref sig .tc := ⟨.hbm, 139, rfl⟩
abbrev main_call8_call0_v1 : Ref sig .tc := ⟨.hbm, 140, rfl⟩
abbrev main_call8_call0_v2 : Ref sig .tc := ⟨.hbm, 141, rfl⟩
abbrev main_call8_call0_v3 : Ref sig .tc := ⟨.hbm, 142, rfl⟩
abbrev main_call8_call0_v4 : Ref sig .tc := ⟨.hbm, 143, rfl⟩
abbrev main_call8_call0_v5 : Ref sig .tc := ⟨.hbm, 144, rfl⟩
abbrev main_call8_call0_v6 : Ref sig .tc := ⟨.hbm, 145, rfl⟩
abbrev main_call8_call0_v7 : Ref sig .tc := ⟨.hbm, 146, rfl⟩
abbrev main_call8_call0_v8 : Ref sig .tc := ⟨.hbm, 147, rfl⟩
abbrev main_call8_call0_v9 : Ref sig .tc := ⟨.hbm, 148, rfl⟩
abbrev main_call8_call0_v10 : Ref sig .tc := ⟨.hbm, 149, rfl⟩
abbrev main_call8_call0_v11 : Ref sig .tc := ⟨.hbm, 150, rfl⟩
abbrev main_call8_v1 : Ref sig .tc := ⟨.hbm, 151, rfl⟩
abbrev main_v41 : Ref sig .tc := ⟨.hbm, 152, rfl⟩
abbrev main_cst_11 : Ref sig .tc := ⟨.hbm, 153, rfl⟩
abbrev main_v42 : Ref sig .tc := ⟨.hbm, 154, rfl⟩
abbrev main_v43 : Ref sig .tc := ⟨.hbm, 155, rfl⟩
abbrev main_cst_12 : Ref sig .tc := ⟨.hbm, 156, rfl⟩
abbrev main_v44 : Ref sig .tc := ⟨.hbm, 157, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  natLt_1_32 : 1 < 32
  reducesTo_S8x512_S8_d1 : S8x512.ReducesTo [1] S8
  bcast_S_S8 : S_.BroadcastsInDim S8 (![] : Fin 0 → Fin S8.rank)
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S8x512x2048_S32000x2048_S8x512x32000_2_1_01_0_n_n_wf : DotDims.WF S8x512x2048 S32000x2048 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x2048_S32000x2048_S8x512x32000_2_1_01_0_n_n : DotDims S8x512x2048 S32000x2048 S8x512x32000 where
  lhsContracting := [2]
  rhsContracting := [1]
  lhsNonContracting := [0, 1]
  rhsNonContracting := [0]
  lhsBatch := []
  rhsBatch := []
  wf := dot_S8x512x2048_S32000x2048_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.BR0Runs.lean ====
/-
  Kernel region 0 (the policy pass: hidden rows against W), what its three control cases share.
  The grid is 2 row blocks by 25 vocabulary tiles, walked row block first: point t is row block t / 25, tile t % 25.
  At a row block's first tile the two accumulator columns (the running sum of exponentials and the running label
  logit) are reset to zero before the tile is added; at its last tile the output column is stored from them;
  in between the tile is only added. Stated here: a window's block as the region finds it, that an input's staging
  buffer holds that block at every point, the two branch conditions in closed form over the grid, where the output
  window is idle, and the region's invariant before its first point with the two accumulator columns named.
-/
import proofs.«407363_j58059367907835_3_alg».proof.Proof.Gen.Kernel.Launch
import proofs.«407363_j58059367907835_3_alg».proof.Proof.Gen.Kernel.Skeleton
import proofs.«407363_j58059367907835_3_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden rows' staging buffer holds the point's row block, fetched there or kept from the tile before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The vocabulary rows' staging buffer holds the point's tile of the matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The labels' staging buffer holds the row block's label column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the row block's first vocabulary tile": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is the row block's last vocabulary tile": the output column is stored. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row block's last tile nothing is stored into the output column and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a row block's last tile the output column is stored. -/
theorem liveAt0_3 : ∀ t : Fin cfg0.N, cond0_1 (grid0.coords t) → cfg0.idle 3 (grid0.coords t) = false := by decide +kernel

/-! ## The memrefs the body is called with -/

/-- One staging buffer of the output column, through which its contents are stated. -/
abbrev VO0_3 : View sig .tc .vmem S2048x1 .f32 := (Memref.whole cc0_stg3_0 : Memref sig .tc .vmem S2048x1 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The running sum of exponentials and the running label logit: two columns the kernel keeps between points. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The other kernel region's scoped buffers, each whole at some contents: this region never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's scoped buffers that no window stages: its two accumulator columns, then the other region's. -/
theorem scopedRest0_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ others0 c) := by
  unfold others0
  exact Pipeline.scopedRest_eq_of_list spec0 c [cc0_scratch0, cc0_scratch1, cc1_stg0_0, cc1_stg0_1, cc1_stg1_0, cc1_stg1_1, cc1_stg2_0, cc1_stg2_1, cc1_stg3_0, cc1_stg3_1, cc1_scratch0, cc1_scratch1] (by decide) (by decide)

/-- The region's invariant before its first point, with the two accumulator columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA; rw [scopedRest0_own]; simp only [scM0_0, scM0_1, owns_whole]; try rfl

end Cert.Kernel.Hand

end
-- ==== Proof.BR0RunA.lean ====
/-
  Kernel region 0, the body's run at a row block's FIRST vocabulary tile: the two accumulator columns are reset to zero, then the tile's masked label logit and its sum of exponentials are added; the output column is not touched.
-/
import proofs.«407363_j58059367907835_3_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun0_A (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x2048 .bf16) (x1 : Vec F S1280x2048 .f32) (x2 : Vec F S2048x1 .i32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__avg_logp_kernel i arg2 harg2 arg3 harg3 arg4 harg4 arg5 harg5 arg6 harg6 arg7 harg7) K } := by
  refine ⟨[], ?_, ?_, fun xi3 E K => ?run⟩
  case run =>
    simp only [cc0__avg_logp_kernel_eq_skeleton]; unfold cc0__avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BR0RunB.lean ====
/-
  Kernel region 0, the body's run at a vocabulary tile that is neither a row block's first nor its last: the tile's masked label logit and its sum of exponentials are added to the two accumulator columns; the output column is not touched.
-/
import proofs.«407363_j58059367907835_3_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun0_B (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__avg_logp_kernel i arg2 harg2 arg3 harg3 arg4 harg4 arg5 harg5 arg6 harg6 arg7 harg7) K } := by
  refine ⟨[], ?_, ?_, fun xi3 E K => ?run⟩
  case run =>
    simp only [cc0__avg_logp_kernel_eq_skeleton]; unfold cc0__avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BR0RunC.lean ====
/-
  Kernel region 0, the body's run at a row block's LAST vocabulary tile: the tile is added to the two accumulator columns and the output column is stored: the label logit minus the logarithm of the sum of exponentials.
-/
import proofs.«407363_j58059367907835_3_alg».proof.Proof.BR0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun0_C (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__avg_logp_kernel i arg2 harg2 arg3 harg3 arg4 harg4 arg5 harg5 arg6 harg6 arg7 harg7) K } := by
  refine ⟨?_, ?_, ?_, fun E K => ?run⟩
  case run =>
    simp only [cc0__avg_logp_kernel_eq_skeleton]; unfold cc0__avg_logp_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.BR0Frame.lean ====
/-
  Kernel region 0: what its output column and its two accumulator columns hold after each grid point, the proof
  data of its pipeline, and the body obligation at every point.
  After point t the accumulator columns hold, for each of the row block's 2048 rows, the sum over the row block's
  vocabulary tiles up to t of the tile's exponentials, and of its label-matching logits; the recursion below says
  exactly that, one tile at a time, through the three control cases.
-/
import proofs.«407363_j58059367907835_3_alg».proof.Proof.BR0RunA
import proofs.«407363_j58059367907835_3_alg».proof.Proof.BR0RunB
import proofs.«407363_j58059367907835_3_alg».proof.Proof.BR0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into the sum-of-exponentials column tile it. -/
theorem scover0_A_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) (y : S2048x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S2048x1.size (by sl_kernel_rfl) y
/-- Case A: what the sum-of-exponentials column holds afterwards. -/
def sout0_A_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- Case A: the pieces stored into the label-logit column tile it. -/
theorem scover0_A_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) (y : S2048x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x1.size (by sl_kernel_rfl) y
/-- Case A: what the label-logit column holds afterwards. -/
def sout0_A_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)
/-- Case A: what the output column's staging buffer holds afterwards (nothing is stored: a placeholder nobody consults, the window being idle and not written back there). -/
def out0_A_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) : Vec F S2048x1 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case B: the pieces stored into the sum-of-exponentials column tile it. -/
theorem scover0_B_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S2048x1.size (by sl_kernel_rfl) y
/-- Case B: what the sum-of-exponentials column holds afterwards. -/
def sout0_B_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- Case B: the pieces stored into the label-logit column tile it. -/
theorem scover0_B_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S2048x1.size (by sl_kernel_rfl) y
/-- Case B: what the label-logit column holds afterwards. -/
def sout0_B_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)
/-- Case B: what the output column's staging buffer holds afterwards (nothing is stored: a placeholder nobody consults, the window being idle and not written back there). -/
def out0_B_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) : Vec F S2048x1 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case C: the pieces stored into the sum-of-exponentials column tile it. -/
theorem scover0_C_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S2048x1.size (by sl_kernel_rfl) y
/-- Case C: what the sum-of-exponentials column holds afterwards. -/
def sout0_C_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
/-- Case C: the pieces stored into the label-logit column tile it. -/
theorem scover0_C_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S2048x1.size (by sl_kernel_rfl) y
/-- Case C: what the label-logit column holds afterwards. -/
def sout0_C_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)
/-- Case C: what the output column's staging buffer holds afterwards. -/
def out0_C_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
/-- Case C: the piece stored into the output column covers it. -/
theorem cover0_C_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S2048x1.size (by sl_kernel_rfl) y

/-! ## What the columns hold after each point -/

theorem r0_nc1_of_c0 (t : Fin cfg0.N) (h0 : t.val % 25 = 0) : ¬cond0_1 (grid0.coords t) :=
  fun h => by have := (hcond0_1 t).mp h; omega
theorem r0_nc0_of_n0 (t : Fin cfg0.N) (h0 : ¬t.val % 25 = 0) : ¬cond0_0 (grid0.coords t) :=
  fun h => h0 ((hcond0_0 t).mp h)
theorem r0_nc1_of_n1 (t : Fin cfg0.N) (h1 : ¬t.val % 25 = 24) : ¬cond0_1 (grid0.coords t) :=
  fun h => h1 ((hcond0_1 t).mp h)

/-- The output column's staging buffer, the sum-of-exponentials column and the label-logit column after the body at
    position n: the case the position is in, run at the point's blocks, the accumulators taken from what position
    n - 1 left (at a row block's first tile they are reset, so nothing is taken). -/
def outsAt0 (c : Dev nD) : (n : ℕ) → n < cfg0.N → Vec F S2048x1 .f32 × Vec F S2048x1 .f32 × Vec F S2048x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (r0_nc1_of_c0 ⟨0, hn⟩ (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (r0_nc1_of_c0 ⟨0, hn⟩ (Nat.zero_mod _)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (r0_nc1_of_c0 ⟨0, hn⟩ (Nat.zero_mod _)) (iblk0 V c 0 ⟨0, hn⟩) (iblk0 V c 1 ⟨0, hn⟩) (iblk0 V c 2 ⟨0, hn⟩))
  | n + 1, hn =>
    if h0 : (n + 1) % 25 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (r0_nc1_of_c0 ⟨n + 1, hn⟩ h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (r0_nc1_of_c0 ⟨n + 1, hn⟩ h0) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (r0_nc1_of_c0 ⟨n + 1, hn⟩ h0) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) (r0_nc1_of_n1 ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) (r0_nc1_of_n1 ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) (r0_nc1_of_n1 ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 25 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: before the first point the region's scoped buffers at anything; afterwards the two accumulator
    columns at what position n - 1 left in them, the other region's buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-! ## The pipeline's proof data -/

/-- The arrays as the region finds them; after the body at point t each input's buffer at its block, the output
    column's at the recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.BR0Body.lean ====
/-
  Kernel region 0: the body obligation at every grid point, and what the region's invariant is entered from and
  gives back. The point's position in its row block says which control case it is in; the invariant hands the body
  the two accumulator columns at what the point before left (at anything before the first point) and takes them back
  at this point's contents.
-/
import proofs.«407363_j58059367907835_3_alg».proof.Proof.BR0Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  by_cases h0 : t.val % 25 = 0
  · have hc0 : cond0_0 (grid0.coords t) := (hcond0_0 t).mpr h0
    have hc1 : ¬cond0_1 (grid0.coords t) := r0_nc1_of_c0 t h0
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t hc1) (noFlush0_3 t hc1)]
    rw [outsAt0_A V c t h0]
    unfold sout0_A_0 sout0_A_1; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond0_0 (grid0.coords t) := r0_nc0_of_n0 t h0
    by_cases h1 : t.val % 25 = 24
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold out0_C_3 sout0_C_0 sout0_C_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · have hc1 : ¬cond0_1 (grid0.coords t) := r0_nc1_of_n1 t h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t hc1) (noFlush0_3 t hc1)]
      rw [outsAt0_B V c t h0 h1]
      unfold sout0_B_0 sout0_B_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back at anything: the accumulators' named contents
    are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Hand

end
-- ==== Proof.BR1Runs.lean ====
/-
  kernel region 1 (the reference-model pass: ref_x rows against ref_W), what its three control cases share.
  The grid is 2 row blocks by 25 vocabulary tiles, walked row block first: point t is row block t / 25, tile t % 25.
  At a row block's first tile the two accumulator columns (the running sum of exponentials and the running label
  logit) are reset to zero before the tile is added; at its last tile the output column is stored from them;
  in between the tile is only added. Stated here: a window's block as the region finds it, that an input's staging
  buffer holds that block at every point, the two branch conditions in closed form over the grid, where the output
  window is idle, and the region's invariant before its first point with the two accumulator columns named.
-/
import proofs.«407363_j58059367907835_3_alg».proof.Proof.Gen.Kernel.Launch
import proofs.«407363_j58059367907835_3_alg».proof.Proof.Gen.Kernel.Skeleton
import proofs.«407363_j58059367907835_3_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden rows' staging buffer holds the point's row block, fetched there or kept from the tile before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The vocabulary rows' staging buffer holds the point's tile of the matrix. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The labels' staging buffer holds the row block's label column. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "This is the row block's first vocabulary tile": the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- "This is the row block's last vocabulary tile": the output column is stored. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row block's last tile nothing is stored into the output column and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a row block's last tile the output column is stored. -/
theorem liveAt1_3 : ∀ t : Fin cfg1.N, cond1_1 (grid1.coords t) → cfg1.idle 3 (grid1.coords t) = false := by decide +kernel

/-! ## The memrefs the body is called with -/

/-- One staging buffer of the output column, through which its contents are stated. -/
abbrev VO1_3 : View sig .tc .vmem S2048x1 .f32 := (Memref.whole cc1_stg3_0 : Memref sig .tc .vmem S2048x1 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The running sum of exponentials and the running label logit: two columns the kernel keeps between points. -/
abbrev scM1_0 : Memref sig .tc .vmem S2048x1 .f32 := Memref.whole cc1_scratch0
abbrev scM1_1 : Memref sig .tc .vmem S2048x1 .f32 := Memref.whole cc1_scratch1
abbrev VS1_0 : View sig .tc .vmem S2048x1 .f32 := scM1_0.view
abbrev VS1_1 : View sig .tc .vmem S2048x1 .f32 := scM1_1.view

/-- The other kernel region's scoped buffers, each whole at some contents: this region never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's scoped buffers that no window stages: its two accumulator columns, then the other region's. -/
theorem scopedRest1_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ others1 c) := by
  unfold others1
  exact Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_scratch0, cc0_scratch1] (by decide) (by decide)

/-- The region's invariant before its first point, with the two accumulator columns as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA; rw [scopedRest1_own]; simp only [scM1_0, scM1_1, owns_whole]; try rfl

end Cert.Kernel.Hand

end
-- ==== Proof.BR1RunA.lean ====
/-
  kernel region 1, the body's run at a row block's FIRST vocabulary tile: the two accumulator columns are reset to zero, then the tile's masked label logit and its sum of exponentials are added; the output column is not touched.
-/
import proofs.«407363_j58059367907835_3_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun1_A (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i)
    (x0 : Vec F S2048x2048 .bf16) (x1 : Vec F S1280x2048 .f32) (x2 : Vec F S2048x1 .i32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__avg_logp_kernel i arg2 harg2 arg3 harg3 arg4 harg4 arg5 harg5 arg6 harg6 arg7 harg7) K } := by
  refine ⟨[], ?_, ?_, fun xi3 E K => ?run⟩
  case run =>
    simp only [cc1__avg_logp_kernel_eq_skeleton]; unfold cc1__avg_logp_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BR1RunB.lean ====
/-
  kernel region 1, the body's run at a vocabulary tile that is neither a row block's first nor its last: the tile's masked label logit and its sum of exponentials are added to the two accumulator columns; the output column is not touched.
-/
import proofs.«407363_j58059367907835_3_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun1_B (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__avg_logp_kernel i arg2 harg2 arg3 harg3 arg4 harg4 arg5 harg5 arg6 harg6 arg7 harg7) K } := by
  refine ⟨[], ?_, ?_, fun xi3 E K => ?run⟩
  case run =>
    simp only [cc1__avg_logp_kernel_eq_skeleton]; unfold cc1__avg_logp_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.BR1RunC.lean ====
/-
  kernel region 1, the body's run at a row block's LAST vocabulary tile: the tile is added to the two accumulator columns and the output column is stored: the label logit minus the logarithm of the sum of exponentials.
-/
import proofs.«407363_j58059367907835_3_alg».proof.Proof.BR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun1_C (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__avg_logp_kernel i arg2 harg2 arg3 harg3 arg4 harg4 arg5 harg5 arg6 harg6 arg7 harg7) K } := by
  refine ⟨?_, ?_, ?_, fun E K => ?run⟩
  case run =>
    simp only [cc1__avg_logp_kernel_eq_skeleton]; unfold cc1__avg_logp_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.BR1Frame.lean ====
/-
  kernel region 1: what its output column and its two accumulator columns hold after each grid point, the proof
  data of its pipeline, and the body obligation at every point.
  After point t the accumulator columns hold, for each of the row block's 2048 rows, the sum over the row block's
  vocabulary tiles up to t of the tile's exponentials, and of its label-matching logits; the recursion below says
  exactly that, one tile at a time, through the three control cases.
-/
import proofs.«407363_j58059367907835_3_alg».proof.Proof.BR1RunA
import proofs.«407363_j58059367907835_3_alg».proof.Proof.BR1RunB
import proofs.«407363_j58059367907835_3_alg».proof.Proof.BR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into the sum-of-exponentials column tile it. -/
theorem scover1_A_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) (y : S2048x1.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S2048x1.size (by sl_kernel_rfl) y
/-- Case A: what the sum-of-exponentials column holds afterwards. -/
def sout1_A_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) : Vec F S2048x1 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)
/-- Case A: the pieces stored into the label-logit column tile it. -/
theorem scover1_A_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) (y : S2048x1.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S2048x1.size (by sl_kernel_rfl) y
/-- Case A: what the label-logit column holds afterwards. -/
def sout1_A_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) : Vec F S2048x1 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)
/-- Case A: what the output column's staging buffer holds afterwards (nothing is stored: a placeholder nobody consults, the window being idle and not written back there). -/
def out1_A_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) : Vec F S2048x1 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- Case B: the pieces stored into the sum-of-exponentials column tile it. -/
theorem scover1_B_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S2048x1.size (by sl_kernel_rfl) y
/-- Case B: what the sum-of-exponentials column holds afterwards. -/
def sout1_B_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) : Vec F S2048x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)
/-- Case B: the pieces stored into the label-logit column tile it. -/
theorem scover1_B_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S2048x1.size (by sl_kernel_rfl) y
/-- Case B: what the label-logit column holds afterwards. -/
def sout1_B_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)
/-- Case B: what the output column's staging buffer holds afterwards (nothing is stored: a placeholder nobody consults, the window being idle and not written back there). -/
def out1_B_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) : Vec F S2048x1 .f32 :=
  VO1_3.read (Elt F) (VO1_3.writes (Elt F) VO1_3.junk (kernelRun1_B c i arg2 harg2 arg3 harg3 arg4 harg4 arg5 harg5 arg6 harg6 arg7 harg7 hc0 hc1 x0 x1 x2 xs0 xs1).1)

/-- Case C: the pieces stored into the sum-of-exponentials column tile it. -/
theorem scover1_C_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S2048x1.size (by sl_kernel_rfl) y
/-- Case C: what the sum-of-exponentials column holds afterwards. -/
def sout1_C_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) : Vec F S2048x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)
/-- Case C: the pieces stored into the label-logit column tile it. -/
theorem scover1_C_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S2048x1.size (by sl_kernel_rfl) y
/-- Case C: what the label-logit column holds afterwards. -/
def sout1_C_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)
/-- Case C: what the output column's staging buffer holds afterwards. -/
def out1_C_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) : Vec F S2048x1 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)
/-- Case C: the piece stored into the output column covers it. -/
theorem cover1_C_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S2048x1.size (by sl_kernel_rfl) y

/-! ## What the columns hold after each point -/

theorem r1_nc1_of_c0 (t : Fin cfg1.N) (h0 : t.val % 25 = 0) : ¬cond1_1 (grid1.coords t) :=
  fun h => by have := (hcond1_1 t).mp h; omega
theorem r1_nc0_of_n0 (t : Fin cfg1.N) (h0 : ¬t.val % 25 = 0) : ¬cond1_0 (grid1.coords t) :=
  fun h => h0 ((hcond1_0 t).mp h)
theorem r1_nc1_of_n1 (t : Fin cfg1.N) (h1 : ¬t.val % 25 = 24) : ¬cond1_1 (grid1.coords t) :=
  fun h => h1 ((hcond1_1 t).mp h)

/-- The output column's staging buffer, the sum-of-exponentials column and the label-logit column after the body at
    position n: the case the position is in, run at the point's blocks, the accumulators taken from what position
    n - 1 left (at a row block's first tile they are reset, so nothing is taken). -/
def outsAt1 (c : Dev nD) : (n : ℕ) → n < cfg1.N → Vec F S2048x1 .f32 × Vec F S2048x1 .f32 × Vec F S2048x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (r1_nc1_of_c0 ⟨0, hn⟩ (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (r1_nc1_of_c0 ⟨0, hn⟩ (Nat.zero_mod _)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (r1_nc1_of_c0 ⟨0, hn⟩ (Nat.zero_mod _)) (iblk1 V c 0 ⟨0, hn⟩) (iblk1 V c 1 ⟨0, hn⟩) (iblk1 V c 2 ⟨0, hn⟩))
  | n + 1, hn =>
    if h0 : (n + 1) % 25 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (r1_nc1_of_c0 ⟨n + 1, hn⟩ h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (r1_nc1_of_c0 ⟨n + 1, hn⟩ h0) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (r1_nc1_of_c0 ⟨n + 1, hn⟩ h0) (iblk1 V c 0 ⟨n + 1, hn⟩) (iblk1 V c 1 ⟨n + 1, hn⟩) (iblk1 V c 2 ⟨n + 1, hn⟩))
    else
      if h1 : (n + 1) % 25 = 24 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) (r1_nc1_of_n1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) (r1_nc1_of_n1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) (r1_nc1_of_n1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 25 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 25 = 0) (h1 : ¬t.val % 25 = 24) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 25 = 0) (h1 : t.val % 25 = 24) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: before the first point the region's scoped buffers at anything; afterwards the two accumulator
    columns at what position n - 1 left in them, the other region's buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ others1 c) ∗ (∃ r, prngReg c r)) := by
  cases n with
  | zero => exact absurd rfl hz
  | succ n => rfl

/-! ## The pipeline's proof data -/

/-- The arrays as the region finds them; after the body at point t each input's buffer at its block, the output
    column's at the recursion's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Hand

end
-- ==== Proof.BR1Body.lean ====
/-
  kernel region 1: the body obligation at every grid point, and what the region's invariant is entered from and
  gives back. The point's position in its row block says which control case it is in; the invariant hands the body
  the two accumulator columns at what the point before left (at anything before the first point) and takes them back
  at this point's contents.
-/
import proofs.«407363_j58059367907835_3_alg».proof.Proof.BR1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases h0 : t.val % 25 = 0
  · have hc0 : cond1_0 (grid1.coords t) := (hcond1_0 t).mpr h0
    have hc1 : ¬cond1_1 (grid1.coords t) := r1_nc1_of_c0 t h0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t hc1) (noFlush1_3 t hc1)]
    rw [outsAt1_A V c t h0]
    unfold sout1_A_0 sout1_A_1; (try dsimp only)
    by_cases hz : t.val = 0
    · rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond1_0 (grid1.coords t) := r1_nc0_of_n0 t h0
    by_cases h1 : t.val % 25 = 24
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C_3 sout1_C_0 sout1_C_1; (try dsimp only)
      rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩⟩
      iapply ((kernelRun1_C c (grid1.coords t) _ _ _ _ _ _ _ _ _ _ _ _ hc0 hc1 (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _)
    · have hc1 : ¬cond1_1 (grid1.coords t) := r1_nc1_of_n1 t h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [outsAt1_B V c t h0 h1]
      unfold sout1_B_0 sout1_B_1; (try dsimp only)
      rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩⟩
      iapply ((kernelRun1_B c (grid1.coords t) _ _ _ _ _ _ _ _ _ _ _ _ hc0 hc1 (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything: the accumulators' named contents
    are forgotten. -/
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Hand

end
-- ==== Proof.BKSeg.lean ====
/-
  The kernel's program as its two kernel regions between stretches of host operations: what each region is entered
  from and what it leaves, over the contents of the core's buffers between @main's items. Region 0 leaves in main_v8
  the column its pipeline writes back (its proof data's final array), region 1 likewise in main_v13; every other
  buffer passes a region unchanged.
-/
import proofs.«407363_j58059367907835_3_alg».proof.Proof.BR0Body
import proofs.«407363_j58059367907835_3_alg».proof.Proof.BR1Body
import proofs.«407363_j58059367907835_3_alg».proof.Proof.Gen.Kernel.Regions
import Idealize.ShloMosaic.Lib.Pipeline.Kit
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Dat Seg HostSeg RegionSeg)

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)

/-! ## The contents between the items -/

/-- Before region 0: the launch contents after the first three host stretches. -/
abbrev W3 : Dev nD → Valuation τ sig (Elt F) := fun c => V3 m c
abbrev E3 : (c : Dev nD) → (b : Ref sig .tc) → Buf (Elt F) ((c : Thread nD τ).loc b) := fun c b => V3 m c b
/-- What region 0 leaves in its output array. -/
def o8 (c : Dev nD) : Buf (Elt F) ((c : Thread nD τ).loc main_v8) := (dat0 (E3 m) c).arrAt 3 cfg0.N
/-- The regions' results so far: region 0's. -/
def outs4 : Outs (F := F) := fun _ r c =>
  Function.update (β := fun r : Ref sig .tc => Buf (Elt F) ((c : Thread nD τ).loc r)) (fun r => m ((c : Thread nD τ).loc r)) main_v8 (o8 m c) r
theorem outs4_v8 (J : ℕ) (c : Dev nD) : outs4 m J main_v8 c = o8 m c := by
  unfold outs4; exact Function.update_self _ _ _
/-- After region 0, and before region 1 (after the host stretch between them). -/
abbrev W4 : Dev nD → Valuation τ sig (Elt F) := fun c => V4 m (outs4 m) c
abbrev E4 : (c : Dev nD) → (b : Ref sig .tc) → Buf (Elt F) ((c : Thread nD τ).loc b) := fun c b => V4 m (outs4 m) c b
abbrev W5 : Dev nD → Valuation τ sig (Elt F) := fun c => V5 m (outs4 m) c
abbrev E5 : (c : Dev nD) → (b : Ref sig .tc) → Buf (Elt F) ((c : Thread nD τ).loc b) := fun c b => V5 m (outs4 m) c b
/-- What region 1 leaves in its output array. -/
def o13 (c : Dev nD) : Buf (Elt F) ((c : Thread nD τ).loc main_v13) := (dat1 (E5 m) c).arrAt 3 cfg1.N
/-- Both regions' results. -/
def outsK : Outs (F := F) := fun J r c =>
  if J = 6 then Function.update (β := fun r : Ref sig .tc => Buf (Elt F) ((c : Thread nD τ).loc r)) (fun r => m ((c : Thread nD τ).loc r)) main_v13 (o13 m c) r
  else outs4 m J r c
theorem outsK_4 (c : Dev nD) : outsK m 4 main_v8 c = o8 m c := by
  unfold outsK; rw [if_neg (by decide)]; exact outs4_v8 m 4 c
theorem outsK_6 (c : Dev nD) : outsK m 6 main_v13 c = o13 m c := by
  unfold outsK; rw [if_pos rfl]; exact Function.update_self _ _ _
theorem V4_outsK (c : Dev nD) : V4 m (outsK m) c = V4 m (outs4 m) c := by
  unfold V4; rw [outsK_4, outs4_v8]
theorem V5_outsK (c : Dev nD) : V5 m (outsK m) c = V5 m (outs4 m) c := by
  unfold V5; rw [V4_outsK]
abbrev W6 : Dev nD → Valuation τ sig (Elt F) := fun c => V6 m (outsK m) c
abbrev E6 : (c : Dev nD) → (b : Ref sig .tc) → Buf (Elt F) ((c : Thread nD τ).loc b) := fun c b => V6 m (outsK m) c b

/-! ## The proof data of the two pipelines -/

def pdats : (p : Fin 2) → (c : Dev nD) → Dat τ (Elt F) Unit ℕ (UR sig nD τ) ℕ (cfgs p) c
  | ⟨0, _⟩ => fun c => dat0 (E3 m) c
  | ⟨1, _⟩ => fun c => dat1 (E5 m) c

/-- At region 0's exit each of its arrays holds what the pipeline leaves, -/
theorem hF0 (c : Dev nD) (w : Fin cfg0.W) : (pdats m 0 c).arrAt w cfg0.N = E4 m c (Pipeline.arrRef spec0 w) := by
  fin_cases w
  · exact ((pdats m 0 c).arrAt_in 0 rfl _).trans ((A_eq0 (E3 m) c 0).trans (V4_of m (outs4 m) c main_v6 (by decide)).symm)
  · exact ((pdats m 0 c).arrAt_in 1 rfl _).trans ((A_eq0 (E3 m) c 1).trans (V4_of m (outs4 m) c main_arg3 (by decide)).symm)
  · exact ((pdats m 0 c).arrAt_in 2 rfl _).trans ((A_eq0 (E3 m) c 2).trans (V4_of m (outs4 m) c main_v7 (by decide)).symm)
  · show o8 m c = V4 m (outs4 m) c main_v8
    simp only [V4, outs4_v8, Function.update_self]
/-- and every other buffer what it held at entry. -/
theorem hrest0 (c : Dev nD) : ∀ b, b ∉ Finset.univ.image (Pipeline.arrRef spec0) → E4 m c b = E3 m c b :=
  fun b hb => V4_of m (outs4 m) c b (by
    intro h; rw [List.mem_singleton] at h; subst h
    exact hb (Finset.mem_image.mpr ⟨3, Finset.mem_univ _, rfl⟩))

theorem hF1 (c : Dev nD) (w : Fin cfg1.W) : (pdats m 1 c).arrAt w cfg1.N = E6 m c (Pipeline.arrRef spec1 w) := by
  have h5 : ∀ b : Ref sig .tc, V5 m (outsK m) c b = E5 m c b := fun b => by rw [V5_outsK]
  fin_cases w
  · exact ((pdats m 1 c).arrAt_in 0 rfl _).trans ((A_eq1 (E5 m) c 0).trans ((V6_of m (outsK m) c main_v11 (by decide)).trans (h5 _)).symm)
  · exact ((pdats m 1 c).arrAt_in 1 rfl _).trans ((A_eq1 (E5 m) c 1).trans ((V6_of m (outsK m) c main_arg4 (by decide)).trans (h5 _)).symm)
  · exact ((pdats m 1 c).arrAt_in 2 rfl _).trans ((A_eq1 (E5 m) c 2).trans ((V6_of m (outsK m) c main_v12 (by decide)).trans (h5 _)).symm)
  · show o13 m c = V6 m (outsK m) c main_v13
    simp only [V6, outsK_6, Function.update_self]
theorem hrest1 (c : Dev nD) : ∀ b, b ∉ Finset.univ.image (Pipeline.arrRef spec1) → E6 m c b = E5 m c b :=
  fun b hb => (V6_of m (outsK m) c b (by
    intro h; rw [List.mem_singleton] at h; subst h
    exact hb (Finset.mem_image.mpr ⟨3, Finset.mem_univ _, rfl⟩))).trans (by rw [V5_outsK])

/-! ## The regions as segments -/

set_option backward.isDefEq.respectTransparency.types false in
/-- Kernel region 0 over the thread state: entered with every unscoped buffer at the contents before it, left with
    them at the contents after it; its four arrays are split out of the unscoped buffers and put back at what the
    pipeline leaves; the generator register goes into the region's invariant and comes back; nothing is owed. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Lz lvz 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at the contents before it, left with
    them at the contents after it; its four arrays are split out of the unscoped buffers and put back at what the
    pipeline leaves; the generator register goes into the region's invariant and comes back; nothing is owed. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E5 m) c)
    unfold Pipeline.ΦA
    iintro ⟨Hp, -, Hr⟩
    isplitl [Hr]; · iexact Hr
    iexact Hp
  hout c := by
    rw [Pipeline.ownSems0_none]
    refine BIBase.Entails.trans (hout1 (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BKRun.lean ====
/-
  The kernel's program run from launch to return: @main is its list of items — host stretches and the two kernel
  regions — each entered from the thread state the one before leaves; at the end every unscoped buffer of every core
  holds the fold of the items over the launch memory, the regions' output arrays at what their pipelines write back.
  The frame claim (the five arguments end as launched) and the result's value are read off that.
-/
import proofs.«407363_j58059367907835_3_alg».proof.Proof.BKSeg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Dat Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, and in every final memory every
    unscoped buffer of every core holds the last valuation of the fold through @main's items. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V13 m (outsK m) c b) := by
  refine Pipeline.θ_run_regions_kit_dev (pcfgs (F := F)) adm (pdats m) () cellOf_inj emb₁ defs₀ Variants.none Lz lvz m ρ main
    (segs m (outsK m) Variants.none Lz lvz (fun _ c => Rr c) () (pdats m) (reg0 m) (reg1 m))
    (fun c Q => by
      rewrite [main_chain c, Seg.run_eq_chain,
        show (segs m (outsK m) Variants.none Lz lvz (fun _ c => Rr c) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V13 m (outsK m) c))
    (hch := fun c => ⟨.rfl, .rfl, .rfl, .rfl, (by
        show iprop(StableHlo.held (c : Thread nD τ) (Pipeline.ucRefs τ sig) (V4 m (outs4 m) c) ∗ Rr c) ⊢ iprop(StableHlo.held (c : Thread nD τ) (Pipeline.ucRefs τ sig) (V4 m (outsK m) c) ∗ Rr c)
        rw [V4_outsK]),
      (by
        show iprop(StableHlo.held (c : Thread nD τ) (Pipeline.ucRefs τ sig) (V5 m (outsK m) c) ∗ Rr c) ⊢ iprop(StableHlo.held (c : Thread nD τ) (Pipeline.ucRefs τ sig) (V5 m (outs4 m) c) ∗ Rr c)
        rw [V5_outsK]), .rfl, .rfl, .rfl, .rfl, .rfl, .rfl, .rfl,
      sep_mono .rfl (by iintro ⟨-, HO⟩; iexact HO)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outsK m) c b)
    (hfin := fun c s' => by
      iintro ⟨Hh, HSI⟩
      unfold StableHlo.held
      imodintro
      iapply (pointsTo_read_all (Pipeline.ucRefs τ sig) (fun b => (((c : Thread nD τ)).1, b)) (V13 m (outsK m) c) s')
      isplitl [Hh] <;> iassumption)
    (hQ := fun s h c => h c)

/-- The frame claim's post: the five argument arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V13_main_arg0 m (outsK m) c),
     (h c _ (mem_uc main_arg1 (by decide))).trans (V13_main_arg1 m (outsK m) c),
     (h c _ (mem_uc main_arg2 (by decide))).trans (V13_main_arg2 m (outsK m) c),
     (h c _ (mem_uc main_arg3 (by decide))).trans (V13_main_arg3 m (outsK m) c),
     (h c _ (mem_uc main_arg4 (by decide))).trans (V13_main_arg4 m (outsK m) c)⟩) (run_all m ρ)

/-- The same run with the result named: the scalar result buffer ends at the last valuation's entry. -/
theorem value_run : θ_run defs (onTc (τ := τ) (main (F := F))) ⟨m, fun _ => 0, ρ⟩ (fun r => ∀ c : Dev nD,
      r.2.mem ((c.tc : Thread nD τ).loc main_v40) = V13 m (outsK m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v40 (by decide)),
     (h c _ (mem_uc main_arg0 (by decide))).trans (V13_main_arg0 m (outsK m) c),
     (h c _ (mem_uc main_arg1 (by decide))).trans (V13_main_arg1 m (outsK m) c),
     (h c _ (mem_uc main_arg2 (by decide))).trans (V13_main_arg2 m (outsK m) c),
     (h c _ (mem_uc main_arg3 (by decide))).trans (V13_main_arg3 m (outsK m) c),
     (h c _ (mem_uc main_arg4 (by decide))).trans (V13_main_arg4 m (outsK m) c)⟩) (run_all m ρ)

end Cert.Kernel.Hand

end
-- ==== Proof.R0Runs.lean ====
/-
  Kernel region 0 (the policy pass: hidden rows against W), what its three control cases share.
  The grid is 2 row blocks by 25 vocabulary tiles, walked row block first: point t is row block t / 25, tile t % 25.
  At a row block's first tile the two accumulator columns (the running sum of exponentials and the running label
  logit) are reset to zero before the tile is added; at its last tile the output column is stored from them;
  in between the tile is only added. Stated here: a window's block as the region finds it, that an input's staging
  buffer holds that block at every point, the two branch conditions in closed form over the grid, where the output
  window is idle, and the region's invariant before its first point with the two accumulator columns named.
-/
import proofs.«407363_j58059367907835_3_alg».proof.Proof.Gen.KernelIdeal.Launch
import proofs.«407363_j58059367907835_3_alg».proof.Proof.Gen.KernelIdeal.Skeleton
import proofs.«407363_j58059367907835_3_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The hidden rows' staging buffer holds the point's row block, fetched there or kept from the tile before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The vocabulary rows' staging buffer holds the point's tile of the matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The labels' staging buffer holds the row block's label column. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the row block's first vocabulary tile": the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 25 = 0 :=
  (by decide +kernel : ∀ t : Fin grid0.N, cond0_0 (grid0.coords t) ↔ t.val % 25 = 0)

/-- "This is the row block's last vocabulary tile": the output column is stored. -/
abbrev cond0_1 (i : grid0.Coords) : Prop := k0_cond2 i = 1#1
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a row block's last tile nothing is stored into the output column and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At a row block's last tile the output column is stored. -/
theorem liveAt0_3 : ∀ t : Fin cfg0.N, cond0_1 (grid0.coords t) → cfg0.idle 3 (grid0.coords t) = false := by decide +kernel

/-! ## The memrefs the body is called with -/

/-- One staging buffer of the output column, through which its contents are stated. -/
abbrev VO0_3 : View sig .tc .vmem S2048x1 .f32 := (Memref.whole cc0_stg3_0 : Memref sig .tc .vmem S2048x1 .f32).view
abbrev ms0_0 (t : Fin cfg0.N) : Memref sig .tc .vmem S2048x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1 .f32 := win0_3.stage (cfg0.slots t 3)
abbrev hs0_3 (t : Fin cfg0.N) : (ms0_3 t).IsWhole := hstage0_3 ((cfg0.slots t 3).cast nbuf0_3)
/-- The running sum of exponentials and the running label logit: two columns the kernel keeps between points. -/
abbrev scM0_0 : Memref sig .tc .vmem S2048x1 .f32 := Memref.whole cc0_scratch0
abbrev scM0_1 : Memref sig .tc .vmem S2048x1 .f32 := Memref.whole cc0_scratch1
abbrev VS0_0 : View sig .tc .vmem S2048x1 .f32 := scM0_0.view
abbrev VS0_1 : View sig .tc .vmem S2048x1 .f32 := scM0_1.view

/-- The other kernel region's scoped buffers, each whole at some contents: this region never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's scoped buffers that no window stages: its two accumulator columns, then the other region's. -/
theorem scopedRest0_own (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ others0 c) := by
  unfold others0
  exact Pipeline.scopedRest_eq_of_list spec0 c [cc0_scratch0, cc0_scratch1, cc1_stg0_0, cc1_stg0_1, cc1_stg1_0, cc1_stg1_1, cc1_stg2_0, cc1_stg2_1, cc1_stg3_0, cc1_stg3_1, cc1_scratch0, cc1_scratch1] (by decide) (by decide)

/-- The region's invariant before its first point, with the two accumulator columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA; rw [scopedRest0_own]; simp only [scM0_0, scM0_1, owns_whole]; try rfl

end Cert.KernelIdeal.Hand

end
-- ==== Proof.R0RunA.lean ====
/-
  Kernel region 0, the body's run at a row block's FIRST vocabulary tile: the two accumulator columns are reset to zero, then the tile's masked label logit and its sum of exponentials are added; the output column is not touched.
-/
import proofs.«407363_j58059367907835_3_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun0_A (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i)
    (x0 : Vec F S2048x2048 .bf16) (x1 : Vec F S1280x2048 .f32) (x2 : Vec F S2048x1 .i32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__avg_logp_kernel i arg2 harg2 arg3 harg3 arg4 harg4 arg5 harg5 arg6 harg6 arg7 harg7) K } := by
  refine ⟨[], ?_, ?_, fun xi3 E K => ?run⟩
  case run =>
    simp only [cc0__avg_logp_kernel_eq_skeleton]; unfold cc0__avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.R0RunB.lean ====
/-
  Kernel region 0, the body's run at a vocabulary tile that is neither a row block's first nor its last: the tile's masked label logit and its sum of exponentials are added to the two accumulator columns; the output column is not touched.
-/
import proofs.«407363_j58059367907835_3_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun0_B (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__avg_logp_kernel i arg2 harg2 arg3 harg3 arg4 harg4 arg5 harg5 arg6 harg6 arg7 harg7) K } := by
  refine ⟨[], ?_, ?_, fun xi3 E K => ?run⟩
  case run =>
    simp only [cc0__avg_logp_kernel_eq_skeleton]; unfold cc0__avg_logp_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.R0RunC.lean ====
/-
  Kernel region 0, the body's run at a row block's LAST vocabulary tile: the tile is added to the two accumulator columns and the output column is stored: the label logit minus the logarithm of the sum of exponentials.
-/
import proofs.«407363_j58059367907835_3_alg».proof.Proof.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun0_C (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__avg_logp_kernel i arg2 harg2 arg3 harg3 arg4 harg4 arg5 harg5 arg6 harg6 arg7 harg7) K } := by
  refine ⟨?_, ?_, ?_, fun E K => ?run⟩
  case run =>
    simp only [cc0__avg_logp_kernel_eq_skeleton]; unfold cc0__avg_logp_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.R0Frame.lean ====
/-
  Kernel region 0: what its output column and its two accumulator columns hold after each grid point, the proof
  data of its pipeline, and the body obligation at every point.
  After point t the accumulator columns hold, for each of the row block's 2048 rows, the sum over the row block's
  vocabulary tiles up to t of the tile's exponentials, and of its label-matching logits; the recursion below says
  exactly that, one tile at a time, through the three control cases.
-/
import proofs.«407363_j58059367907835_3_alg».proof.Proof.R0RunA
import proofs.«407363_j58059367907835_3_alg».proof.Proof.R0RunB
import proofs.«407363_j58059367907835_3_alg».proof.Proof.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into the sum-of-exponentials column tile it. -/
theorem scover0_A_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) (y : S2048x1.Idx) :
    ∃ pc ∈ (kernelRun0_A c i arg2 harg2 arg3 harg3 arg4 harg4 arg5 harg5 arg6 harg6 arg7 harg7 hc0 hc1 x0 x1 x2).2.1, y ∈ pc.1.set :=
  View.cover_of_tiledL (kernelRun0_A c i arg2 harg2 arg3 harg3 arg4 harg4 arg5 harg5 arg6 harg6 arg7 harg7 hc0 hc1 x0 x1 x2).2.1 S2048x1.size (by sl_kernel_rfl) y
/-- Case A: what the sum-of-exponentials column holds afterwards. -/
def sout0_A_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) : Vec F S2048x1 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)
/-- Case A: the pieces stored into the label-logit column tile it. -/
theorem scover0_A_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) (y : S2048x1.Idx) :
    ∃ pc ∈ (kernelRun0_A c i arg2 harg2 arg3 harg3 arg4 harg4 arg5 harg5 arg6 harg6 arg7 harg7 hc0 hc1 x0 x1 x2).2.2.1, y ∈ pc.1.set :=
  View.cover_of_tiledL (kernelRun0_A c i arg2 harg2 arg3 harg3 arg4 harg4 arg5 harg5 arg6 harg6 arg7 harg7 hc0 hc1 x0 x1 x2).2.2.1 S2048x1.size (by sl_kernel_rfl) y
/-- Case A: what the label-logit column holds afterwards. -/
def sout0_A_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) : Vec F S2048x1 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)
/-- Case A: what the output column's staging buffer holds afterwards (nothing is stored: a placeholder nobody consults, the window being idle and not written back there). -/
def out0_A_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) : Vec F S2048x1 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case B: the pieces stored into the sum-of-exponentials column tile it. -/
theorem scover0_B_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_tiledL (kernelRun0_B c i arg2 harg2 arg3 harg3 arg4 harg4 arg5 harg5 arg6 harg6 arg7 harg7 hc0 hc1 x0 x1 x2 xs0 xs1).2.1 S2048x1.size (by sl_kernel_rfl) y
/-- Case B: what the sum-of-exponentials column holds afterwards. -/
def sout0_B_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) : Vec F S2048x1 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)
/-- Case B: the pieces stored into the label-logit column tile it. -/
theorem scover0_B_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_tiledL (kernelRun0_B c i arg2 harg2 arg3 harg3 arg4 harg4 arg5 harg5 arg6 harg6 arg7 harg7 hc0 hc1 x0 x1 x2 xs0 xs1).2.2.1 S2048x1.size (by sl_kernel_rfl) y
/-- Case B: what the label-logit column holds afterwards. -/
def sout0_B_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) : Vec F S2048x1 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)
/-- Case B: what the output column's staging buffer holds afterwards (nothing is stored: a placeholder nobody consults, the window being idle and not written back there). -/
def out0_B_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) : Vec F S2048x1 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case C: the pieces stored into the sum-of-exponentials column tile it. -/
theorem scover0_C_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_tiledL (kernelRun0_C c i arg2 harg2 arg3 harg3 arg4 harg4 arg5 harg5 arg6 harg6 arg7 harg7 hc0 hc1 x0 x1 x2 xs0 xs1).2.1 S2048x1.size (by sl_kernel_rfl) y
/-- Case C: what the sum-of-exponentials column holds afterwards. -/
def sout0_C_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) : Vec F S2048x1 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)
/-- Case C: the pieces stored into the label-logit column tile it. -/
theorem scover0_C_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_tiledL (kernelRun0_C c i arg2 harg2 arg3 harg3 arg4 harg4 arg5 harg5 arg6 harg6 arg7 harg7 hc0 hc1 x0 x1 x2 xs0 xs1).2.2.1 S2048x1.size (by sl_kernel_rfl) y
/-- Case C: what the label-logit column holds afterwards. -/
def sout0_C_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) : Vec F S2048x1 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)
/-- Case C: what the output column's staging buffer holds afterwards. -/
def out0_C_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) : Vec F S2048x1 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)
/-- Case C: the piece stored into the output column covers it. -/
theorem cover0_C_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) (y : S2048x1.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_tiledL (kernelRun0_C c i arg2 harg2 arg3 harg3 arg4 harg4 arg5 harg5 arg6 harg6 arg7 harg7 hc0 hc1 x0 x1 x2 xs0 xs1).1 S2048x1.size (by sl_kernel_rfl) y

/-! ## What the columns hold after each point -/

theorem r0_nc1_of_c0 (t : Fin cfg0.N) (h0 : t.val % 25 = 0) : ¬cond0_1 (grid0.coords t) :=
  fun h => by have := (hcond0_1 t).mp h; omega
theorem r0_nc0_of_n0 (t : Fin cfg0.N) (h0 : ¬t.val % 25 = 0) : ¬cond0_0 (grid0.coords t) :=
  fun h => h0 ((hcond0_0 t).mp h)
theorem r0_nc1_of_n1 (t : Fin cfg0.N) (h1 : ¬t.val % 25 = 24) : ¬cond0_1 (grid0.coords t) :=
  fun h => h1 ((hcond0_1 t).mp h)

/-- The output column's staging buffer, the sum-of-exponentials column and the label-logit column after the body at
    position n: the case the position is in, run at the point's blocks, the accumulators taken from what position
    n - 1 left (at a row block's first tile they are reset, so nothing is taken). -/
def outsAt0 (c : Dev nD) : (n : ℕ) → n < cfg0.N → Vec F S2048x1 .f32 × Vec F S2048x1 .f32 × Vec F S2048x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (r0_nc1_of_c0 ⟨0, hn⟩ (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (r0_nc1_of_c0 ⟨0, hn⟩ (Nat.zero_mod _)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (r0_nc1_of_c0 ⟨0, hn⟩ (Nat.zero_mod _)) (iblk0 V c 0 ⟨0, hn⟩) (iblk0 V c 1 ⟨0, hn⟩) (iblk0 V c 2 ⟨0, hn⟩))
  | n + 1, hn =>
    if h0 : (n + 1) % 25 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (r0_nc1_of_c0 ⟨n + 1, hn⟩ h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (r0_nc1_of_c0 ⟨n + 1, hn⟩ h0) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (r0_nc1_of_c0 ⟨n + 1, hn⟩ h0) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) (r0_nc1_of_n1 ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) (r0_nc1_of_n1 ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (r0_nc0_of_n0 ⟨n + 1, hn⟩ h0) (r0_nc1_of_n1 ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 25 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t)) := by
  obtain ⟨n, hn⟩ := t
  cases n with
  | zero => exact rfl
  | succ n => exact (dif_pos h0).trans rfl

theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: before the first point the region's scoped buffers at anything; afterwards the two accumulator
    columns at what position n - 1 left in them, the other region's buffers at anything, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ others0 c) ∗ (∃ r, prngReg c r)) := by
  cases n with
  | zero => exact absurd rfl hz
  | succ n => rfl

/-! ## The pipeline's proof data -/

/-- The arrays as the region finds them; after the body at point t each input's buffer at its block, the output
    column's at the recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.R0Body.lean ====
/-
  Kernel region 0: the body obligation at every grid point, and what the region's invariant is entered from and
  gives back. The point's position in its row block says which control case it is in; the invariant hands the body
  the two accumulator columns at what the point before left (at anything before the first point) and takes them back
  at this point's contents.
-/
import proofs.«407363_j58059367907835_3_alg».proof.Proof.R0Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  by_cases h0 : t.val % 25 = 0
  · have hc0 : cond0_0 (grid0.coords t) := (hcond0_0 t).mpr h0
    have hc1 : ¬cond0_1 (grid0.coords t) := r0_nc1_of_c0 t h0
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1 t], after0_1]
    rw [show (dat0 V c).leavesExact 2 t = owns (c : Thread nD τ) (ms0_2 t) fullShare ((dat0 V c).after 2 t) from by
      unfold Dat.leavesExact; rw [liveAt0_2 t], after0_2]
    rw [Dat.leavesExact_idle (dat0 V c) 3 t (idleAt0_3 t hc1) (noFlush0_3 t hc1)]
    rw [outsAt0_A V c t h0]
    unfold sout0_A_0 sout0_A_1; (try dsimp only)
    by_cases hz : t.val = 0
    · rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_A_0 c _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond0_0 (grid0.coords t) := r0_nc0_of_n0 t h0
    by_cases h1 : t.val % 25 = 24
    · have hc1 : cond0_1 (grid0.coords t) := (hcond0_1 t).mpr h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t hc1], after0_3]
      rw [outsAt0_C V c t h0 h1]
      unfold out0_C_3 sout0_C_0 sout0_C_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · have hc1 : ¬cond0_1 (grid0.coords t) := r0_nc1_of_n1 t h1
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [Dat.leavesExact_idle (dat0 V c) 3 t (idleAt0_3 t hc1) (noFlush0_3 t hc1)]
      rw [outsAt0_B V c t h0 h1]
      unfold sout0_B_0 sout0_B_1; (try dsimp only)
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped buffers back at anything: the accumulators' named contents
    are forgotten. -/
theorem hout0 (c : Dev nD) : (dat0 V c).Φ (Fin.last cfg0.N) ⊢ Pipeline.ΦA spec0 c := by
  have ht : (Fin.last cfg0.N).val ≠ 0 := by rw [Fin.val_last]; have : cfg0.N = 50 := N_0; omega
  rw [show (dat0 V c).Φ (Fin.last cfg0.N) = PhiS0 V c (Fin.last cfg0.N).val (Nat.le_of_lt_succ (Fin.last cfg0.N).isLt) from rfl, PhiS0_pos V c _ _ ht, PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Hand

end
-- ==== Proof.R1Runs.lean ====
/-
  kernel region 1 (the reference-model pass: ref_x rows against ref_W), what its three control cases share.
  The grid is 2 row blocks by 25 vocabulary tiles, walked row block first: point t is row block t / 25, tile t % 25.
  At a row block's first tile the two accumulator columns (the running sum of exponentials and the running label
  logit) are reset to zero before the tile is added; at its last tile the output column is stored from them;
  in between the tile is only added. Stated here: a window's block as the region finds it, that an input's staging
  buffer holds that block at every point, the two branch conditions in closed form over the grid, where the output
  window is idle, and the region's invariant before its first point with the two accumulator columns named.
-/
import proofs.«407363_j58059367907835_3_alg».proof.Proof.Gen.KernelIdeal.Launch
import proofs.«407363_j58059367907835_3_alg».proof.Proof.Gen.KernelIdeal.Skeleton
import proofs.«407363_j58059367907835_3_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The hidden rows' staging buffer holds the point's row block, fetched there or kept from the tile before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The vocabulary rows' staging buffer holds the point's tile of the matrix. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The labels' staging buffer holds the row block's label column. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two branch conditions -/

/-- "This is the row block's first vocabulary tile": the accumulators are reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- "This is the row block's last vocabulary tile": the output column is stored. -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row block's last tile nothing is stored into the output column and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At a row block's last tile the output column is stored. -/
theorem liveAt1_3 : ∀ t : Fin cfg1.N, cond1_1 (grid1.coords t) → cfg1.idle 3 (grid1.coords t) = false := by decide +kernel

/-! ## The memrefs the body is called with -/

/-- One staging buffer of the output column, through which its contents are stated. -/
abbrev VO1_3 : View sig .tc .vmem S2048x1 .f32 := (Memref.whole cc1_stg3_0 : Memref sig .tc .vmem S2048x1 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1280x2048 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1 .f32 := win1_3.stage (cfg1.slots t 3)
abbrev hs1_3 (t : Fin cfg1.N) : (ms1_3 t).IsWhole := hstage1_3 ((cfg1.slots t 3).cast nbuf1_3)
/-- The running sum of exponentials and the running label logit: two columns the kernel keeps between points. -/
abbrev scM1_0 : Memref sig .tc .vmem S2048x1 .f32 := Memref.whole cc1_scratch0
abbrev scM1_1 : Memref sig .tc .vmem S2048x1 .f32 := Memref.whole cc1_scratch1
abbrev VS1_0 : View sig .tc .vmem S2048x1 .f32 := scM1_0.view
abbrev VS1_1 : View sig .tc .vmem S2048x1 .f32 := scM1_1.view

/-- The other kernel region's scoped buffers, each whole at some contents: this region never touches them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's scoped buffers that no window stages: its two accumulator columns, then the other region's. -/
theorem scopedRest1_own (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ others1 c) := by
  unfold others1
  exact Pipeline.scopedRest_eq_of_list spec1 c [cc1_scratch0, cc1_scratch1, cc0_stg0_0, cc0_stg0_1, cc0_stg1_0, cc0_stg1_1, cc0_stg2_0, cc0_stg2_1, cc0_stg3_0, cc0_stg3_1, cc0_scratch0, cc0_scratch1] (by decide) (by decide)

/-- The region's invariant before its first point, with the two accumulator columns as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA; rw [scopedRest1_own]; simp only [scM1_0, scM1_1, owns_whole]; try rfl

end Cert.KernelIdeal.Hand

end
-- ==== Proof.R1RunA.lean ====
/-
  kernel region 1, the body's run at a row block's FIRST vocabulary tile: the two accumulator columns are reset to zero, then the tile's masked label logit and its sum of exponentials are added; the output column is not touched.
-/
import proofs.«407363_j58059367907835_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun1_A (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i)
    (x0 : Vec F S2048x2048 .bf16) (x1 : Vec F S1280x2048 .f32) (x2 : Vec F S2048x1 .i32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__avg_logp_kernel i arg2 harg2 arg3 harg3 arg4 harg4 arg5 harg5 arg6 harg6 arg7 harg7) K } := by
  refine ⟨[], ?_, ?_, fun xi3 E K => ?run⟩
  case run =>
    simp only [cc1__avg_logp_kernel_eq_skeleton]; unfold cc1__avg_logp_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.R1RunB.lean ====
/-
  kernel region 1, the body's run at a vocabulary tile that is neither a row block's first nor its last: the tile's masked label logit and its sum of exponentials are added to the two accumulator columns; the output column is not touched.
-/
import proofs.«407363_j58059367907835_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun1_B (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (xi3 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__avg_logp_kernel i arg2 harg2 arg3 harg3 arg4 harg4 arg5 harg5 arg6 harg6 arg7 harg7) K } := by
  refine ⟨[], ?_, ?_, fun xi3 E K => ?run⟩
  case run =>
    simp only [cc1__avg_logp_kernel_eq_skeleton]; unfold cc1__avg_logp_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.R1RunC.lean ====
/-
  kernel region 1, the body's run at a row block's LAST vocabulary tile: the tile is added to the two accumulator columns and the output column is stored: the label logit minus the logarithm of the sum of exponentials.
-/
import proofs.«407363_j58059367907835_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the point's hidden rows, vocabulary tile and labels, the body runs to its
    return, hands the three inputs back as they were and leaves the buffers it stored into with its stores written
    (as lists of pieces, last first: the witness the run finds). -/
noncomputable def kernelRun1_C (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i)
    (x0 : Vec F S2048x2048 .bf16) (x1 : Vec F S1280x2048 .f32) (x2 : Vec F S2048x1 .i32) (xs0 xs1 : Vec F S2048x1 .f32) :
    Σ' (L3 : List (View.Piece (Elt F) S2048x1 .f32)) (LS0 : List (View.Piece (Elt F) S2048x1 .f32)), { LS1 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc1__avg_logp_kernel i arg2 harg2 arg3 harg3 arg4 harg4 arg5 harg5 arg6 harg6 arg7 harg7) K } := by
  refine ⟨?_, ?_, ?_, fun E K => ?run⟩
  case run =>
    simp only [cc1__avg_logp_kernel_eq_skeleton]; unfold cc1__avg_logp_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.R1Frame.lean ====
/-
  kernel region 1: what its output column and its two accumulator columns hold after each grid point, the proof
  data of its pipeline, and the body obligation at every point.
  After point t the accumulator columns hold, for each of the row block's 2048 rows, the sum over the row block's
  vocabulary tiles up to t of the tile's exponentials, and of its label-matching logits; the recursion below says
  exactly that, one tile at a time, through the three control cases.
-/
import proofs.«407363_j58059367907835_3_alg».proof.Proof.R1RunA
import proofs.«407363_j58059367907835_3_alg».proof.Proof.R1RunB
import proofs.«407363_j58059367907835_3_alg».proof.Proof.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A: the pieces stored into the sum-of-exponentials column tile it. -/
theorem scover1_A_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) (y : S2048x1.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S2048x1.size (by sl_kernel_rfl) y
/-- Case A: what the sum-of-exponentials column holds afterwards. -/
def sout1_A_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) : Vec F S2048x1 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)
/-- Case A: the pieces stored into the label-logit column tile it. -/
theorem scover1_A_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) (y : S2048x1.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S2048x1.size (by sl_kernel_rfl) y
/-- Case A: what the label-logit column holds afterwards. -/
def sout1_A_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) : Vec F S2048x1 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)
/-- Case A: what the output column's staging buffer holds afterwards (nothing is stored: a placeholder nobody consults, the window being idle and not written back there). -/
def out1_A_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) : Vec F S2048x1 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- Case B: the pieces stored into the sum-of-exponentials column tile it. -/
theorem scover1_B_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_B c i arg2 harg2 arg3 harg3 arg4 harg4 arg5 harg5 arg6 harg6 arg7 harg7 hc0 hc1 x0 x1 x2 xs0 xs1).2.1, y ∈ pc.1.set :=
  View.cover_of_tiledL (kernelRun1_B c i arg2 harg2 arg3 harg3 arg4 harg4 arg5 harg5 arg6 harg6 arg7 harg7 hc0 hc1 x0 x1 x2 xs0 xs1).2.1 S2048x1.size (by sl_kernel_rfl) y
/-- Case B: what the sum-of-exponentials column holds afterwards. -/
def sout1_B_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) : Vec F S2048x1 .f32 :=
  VS1_0.read (Elt F) (VS1_0.writes (Elt F) VS1_0.junk (kernelRun1_B c i arg2 harg2 arg3 harg3 arg4 harg4 arg5 harg5 arg6 harg6 arg7 harg7 hc0 hc1 x0 x1 x2 xs0 xs1).2.1)
/-- Case B: the pieces stored into the label-logit column tile it. -/
theorem scover1_B_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_B c i arg2 harg2 arg3 harg3 arg4 harg4 arg5 harg5 arg6 harg6 arg7 harg7 hc0 hc1 x0 x1 x2 xs0 xs1).2.2.1, y ∈ pc.1.set :=
  View.cover_of_tiledL (kernelRun1_B c i arg2 harg2 arg3 harg3 arg4 harg4 arg5 harg5 arg6 harg6 arg7 harg7 hc0 hc1 x0 x1 x2 xs0 xs1).2.2.1 S2048x1.size (by sl_kernel_rfl) y
/-- Case B: what the label-logit column holds afterwards. -/
def sout1_B_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) : Vec F S2048x1 .f32 :=
  VS1_1.read (Elt F) (VS1_1.writes (Elt F) VS1_1.junk (kernelRun1_B c i arg2 harg2 arg3 harg3 arg4 harg4 arg5 harg5 arg6 harg6 arg7 harg7 hc0 hc1 x0 x1 x2 xs0 xs1).2.2.1)
/-- Case B: what the output column's staging buffer holds afterwards (nothing is stored: a placeholder nobody consults, the window being idle and not written back there). -/
def out1_B_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) : Vec F S2048x1 .f32 :=
  VO1_3.read (Elt F) (VO1_3.writes (Elt F) VO1_3.junk (kernelRun1_B c i arg2 harg2 arg3 harg3 arg4 harg4 arg5 harg5 arg6 harg6 arg7 harg7 hc0 hc1 x0 x1 x2 xs0 xs1).1)

/-- Case C: the pieces stored into the sum-of-exponentials column tile it. -/
theorem scover1_C_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S2048x1.size (by sl_kernel_rfl) y
/-- Case C: what the sum-of-exponentials column holds afterwards. -/
def sout1_C_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) : Vec F S2048x1 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)
/-- Case C: the pieces stored into the label-logit column tile it. -/
theorem scover1_C_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S2048x1.size (by sl_kernel_rfl) y
/-- Case C: what the label-logit column holds afterwards. -/
def sout1_C_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) : Vec F S2048x1 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)
/-- Case C: what the output column's staging buffer holds afterwards. -/
def out1_C_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) : Vec F S2048x1 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)
/-- Case C: the piece stored into the output column covers it. -/
theorem cover1_C_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) (y : S2048x1.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S2048x1.size (by sl_kernel_rfl) y

/-! ## What the columns hold after each point -/

theorem r1_nc1_of_c0 (t : Fin cfg1.N) (h0 : t.val % 25 = 0) : ¬cond1_1 (grid1.coords t) :=
  fun h => by have := (hcond1_1 t).mp h; omega
theorem r1_nc0_of_n0 (t : Fin cfg1.N) (h0 : ¬t.val % 25 = 0) : ¬cond1_0 (grid1.coords t) :=
  fun h => h0 ((hcond1_0 t).mp h)
theorem r1_nc1_of_n1 (t : Fin cfg1.N) (h1 : ¬t.val % 25 = 24) : ¬cond1_1 (grid1.coords t) :=
  fun h => h1 ((hcond1_1 t).mp h)

/-- The output column's staging buffer, the sum-of-exponentials column and the label-logit column after the body at
    position n: the case the position is in, run at the point's blocks, the accumulators taken from what position
    n - 1 left (at a row block's first tile they are reset, so nothing is taken). -/
def outsAt1 (c : Dev nD) : (n : ℕ) → n < cfg1.N → Vec F S2048x1 .f32 × Vec F S2048x1 .f32 × Vec F S2048x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (r1_nc1_of_c0 ⟨0, hn⟩ (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (r1_nc1_of_c0 ⟨0, hn⟩ (Nat.zero_mod _)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr (Nat.zero_mod _)) (r1_nc1_of_c0 ⟨0, hn⟩ (Nat.zero_mod _)) (iblk1 V c 0 ⟨0, hn⟩) (iblk1 V c 1 ⟨0, hn⟩) (iblk1 V c 2 ⟨0, hn⟩))
  | n + 1, hn =>
    if h0 : (n + 1) % 25 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (r1_nc1_of_c0 ⟨n + 1, hn⟩ h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (r1_nc1_of_c0 ⟨n + 1, hn⟩ h0) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) ((hcond1_0 ⟨n + 1, hn⟩).mpr h0) (r1_nc1_of_c0 ⟨n + 1, hn⟩ h0) (iblk1 V c 0 ⟨n + 1, hn⟩) (iblk1 V c 1 ⟨n + 1, hn⟩) (iblk1 V c 2 ⟨n + 1, hn⟩))
    else
      if h1 : (n + 1) % 25 = 24 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) (r1_nc1_of_n1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) (r1_nc1_of_n1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (r1_nc0_of_n0 ⟨n + 1, hn⟩ h0) (r1_nc1_of_n1 ⟨n + 1, hn⟩ h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

theorem outsAt1_A (c : Dev nD) (t : Fin cfg1.N) (h0 : t.val % 25 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 25 = 0) (h1 : ¬t.val % 25 = 24) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 25 = 0) (h1 : t.val % 25 = 24) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: before the first point the region's scoped buffers at anything; afterwards the two accumulator
    columns at what position n - 1 left in them, the other region's buffers at anything, the generator register at
    some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2) ∗ others1 c) ∗ (∃ r, prngReg c r)) := by
  cases n with
  | zero => exact absurd rfl hz
  | succ n => rfl

/-! ## The pipeline's proof data -/

/-- The arrays as the region finds them; after the body at point t each input's buffer at its block, the output
    column's at the recursion's first component; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Hand

end
-- ==== Proof.R1Body.lean ====
/-
  kernel region 1: the body obligation at every grid point, and what the region's invariant is entered from and
  gives back. The point's position in its row block says which control case it is in; the invariant hands the body
  the two accumulator columns at what the point before left (at anything before the first point) and takes them back
  at this point's contents.
-/
import proofs.«407363_j58059367907835_3_alg».proof.Proof.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 50 := lt_of_lt_of_eq t.isLt (show cfg1.N = 50 from N_1)
  by_cases h0 : t.val % 25 = 0
  · have hc0 : cond1_0 (grid1.coords t) := (hcond1_0 t).mpr h0
    have hc1 : ¬cond1_1 (grid1.coords t) := r1_nc1_of_c0 t h0
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [Dat.leavesExact_idle (dat1 V c) 3 t (idleAt1_3 t hc1) (noFlush1_3 t hc1)]
    rw [outsAt1_A V c t h0]
    unfold sout1_A_0 sout1_A_1; (try dsimp only)
    by_cases hz : t.val = 0
    · rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩⟩
      iapply ((kernelRun1_A c (grid1.coords t) _ _ _ _ _ _ _ _ _ _ _ _ hc0 hc1 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_A_0 c _ _ _ _ _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond1_0 (grid1.coords t) := r1_nc0_of_n0 t h0
    by_cases h1 : t.val % 25 = 24
    · have hc1 : cond1_1 (grid1.coords t) := (hcond1_1 t).mpr h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t hc1], after1_3]
      rw [outsAt1_C V c t h0 h1]
      unfold out1_C_3 sout1_C_0 sout1_C_1; (try dsimp only)
      rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩⟩
      iapply ((kernelRun1_C c (grid1.coords t) _ _ _ _ _ _ _ _ _ _ _ _ hc0 hc1 (iblk1 V c 0 t) (iblk1 V c 1 t) (iblk1 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _ _ _ _)
    · have hc1 : ¬cond1_1 (grid1.coords t) := r1_nc1_of_n1 t h1
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t hc1) (noFlush1_3 t hc1)]
      rw [outsAt1_B V c t h0 h1]
      unfold sout1_B_0 sout1_B_1; (try dsimp only)
      rw [PhiS1_castSucc V c t, PhiS1_pos V c _ _ hz]
      iintro ⟨⟨⟨HS0, HS1, Hoth⟩, Hg⟩, Ho, ⟨%d0, H0⟩, ⟨%d1, H1⟩, ⟨%d2, H2⟩, ⟨%d3, H3⟩⟩
      iapply ((kernelRun1_B c (grid1.coords t) _ _ _ _ _ _ _ _ _ _ _ _ hc0 hc1 (iblk1 V c 0 t) (iblk1 V c 1 t) (iblk1 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_B_0 c _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers back at anything: the accumulators' named contents
    are forgotten. -/
theorem hout1 (c : Dev nD) : (dat1 V c).Φ (Fin.last cfg1.N) ⊢ Pipeline.ΦA spec1 c := by
  have ht : (Fin.last cfg1.N).val ≠ 0 := by rw [Fin.val_last]; have : cfg1.N = 50 := N_1; omega
  rw [show (dat1 V c).Φ (Fin.last cfg1.N) = PhiS1 V c (Fin.last cfg1.N).val (Nat.le_of_lt_succ (Fin.last cfg1.N).isLt) from rfl, PhiS1_pos V c _ _ ht, PhiA1_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Hand

end
-- ==== Proof.KSeg.lean ====
/-
  The kernel's program as its two kernel regions between stretches of host operations: what each region is entered
  from and what it leaves, over the contents of the core's buffers between @main's items. Region 0 leaves in main_v8
  the column its pipeline writes back (its proof data's final array), region 1 likewise in main_v13; every other
  buffer passes a region unchanged.
-/
import proofs.«407363_j58059367907835_3_alg».proof.Proof.R0Body
import proofs.«407363_j58059367907835_3_alg».proof.Proof.R1Body
import proofs.«407363_j58059367907835_3_alg».proof.Proof.Gen.KernelIdeal.Regions
import Idealize.ShloMosaic.Lib.Pipeline.Kit
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Dat Seg HostSeg RegionSeg)

variable (m : (ℓ : Loc nD τ sig) → Buf (Elt F) ℓ)

/-- No core owes another anything: no level is assigned. -/
abbrev Lz : GSem nD τ sig → Finset Unit := fun _ => ∅
abbrev lvz : GSem nD τ sig → Unit → ℕ := fun _ _ => 0
/-- What rides beside the buffers through every item: the generator register at some state, and the core owing nothing. -/
abbrev Rr (c : Dev nD) : sProp 𝕄 := iprop((∃ r, prngReg c r) ∗ ∃ W, owes (c : Thread nD τ) (0 : CellTallies nD τ sig Unit) W)

/-! ## The contents between the items -/

/-- Before region 0: the launch contents after the first three host stretches. -/
abbrev W3 : Dev nD → Valuation τ sig (Elt F) := fun c => V3 m c
abbrev E3 : (c : Dev nD) → (b : Ref sig .tc) → Buf (Elt F) ((c : Thread nD τ).loc b) := fun c b => V3 m c b
/-- What region 0 leaves in its output array. -/
def o8 (c : Dev nD) : Buf (Elt F) ((c : Thread nD τ).loc main_v8) := (dat0 (E3 m) c).arrAt 3 cfg0.N
/-- The regions' results so far: region 0's. -/
def outs4 : Outs (F := F) := fun _ r c =>
  Function.update (β := fun r : Ref sig .tc => Buf (Elt F) ((c : Thread nD τ).loc r)) (fun r => m ((c : Thread nD τ).loc r)) main_v8 (o8 m c) r
theorem outs4_v8 (J : ℕ) (c : Dev nD) : outs4 m J main_v8 c = o8 m c := by
  unfold outs4; exact Function.update_self _ _ _
/-- After region 0, and before region 1 (after the host stretch between them). -/
abbrev W4 : Dev nD → Valuation τ sig (Elt F) := fun c => V4 m (outs4 m) c
abbrev E4 : (c : Dev nD) → (b : Ref sig .tc) → Buf (Elt F) ((c : Thread nD τ).loc b) := fun c b => V4 m (outs4 m) c b
abbrev W5 : Dev nD → Valuation τ sig (Elt F) := fun c => V5 m (outs4 m) c
abbrev E5 : (c : Dev nD) → (b : Ref sig .tc) → Buf (Elt F) ((c : Thread nD τ).loc b) := fun c b => V5 m (outs4 m) c b
/-- What region 1 leaves in its output array. -/
def o13 (c : Dev nD) : Buf (Elt F) ((c : Thread nD τ).loc main_v13) := (dat1 (E5 m) c).arrAt 3 cfg1.N
/-- Both regions' results. -/
def outsK : Outs (F := F) := fun J r c =>
  if J = 6 then Function.update (β := fun r : Ref sig .tc => Buf (Elt F) ((c : Thread nD τ).loc r)) (fun r => m ((c : Thread nD τ).loc r)) main_v13 (o13 m c) r
  else outs4 m J r c
theorem outsK_4 (c : Dev nD) : outsK m 4 main_v8 c = o8 m c := by
  unfold outsK; rw [if_neg (by decide)]; exact outs4_v8 m 4 c
theorem outsK_6 (c : Dev nD) : outsK m 6 main_v13 c = o13 m c := by
  unfold outsK; rw [if_pos rfl]; exact Function.update_self _ _ _
theorem V4_outsK (c : Dev nD) : V4 m (outsK m) c = V4 m (outs4 m) c := by
  unfold V4; rw [outsK_4, outs4_v8]
theorem V5_outsK (c : Dev nD) : V5 m (outsK m) c = V5 m (outs4 m) c := by
  unfold V5; rw [V4_outsK]
abbrev W6 : Dev nD → Valuation τ sig (Elt F) := fun c => V6 m (outsK m) c
abbrev E6 : (c : Dev nD) → (b : Ref sig .tc) → Buf (Elt F) ((c : Thread nD τ).loc b) := fun c b => V6 m (outsK m) c b

/-! ## The proof data of the two pipelines -/

def pdats : (p : Fin 2) → (c : Dev nD) → Dat τ (Elt F) Unit ℕ (UR sig nD τ) ℕ (cfgs p) c
  | ⟨0, _⟩ => fun c => dat0 (E3 m) c
  | ⟨1, _⟩ => fun c => dat1 (E5 m) c

/-- At region 0's exit each of its arrays holds what the pipeline leaves, -/
theorem hF0 (c : Dev nD) (w : Fin cfg0.W) : (pdats m 0 c).arrAt w cfg0.N = E4 m c (Pipeline.arrRef spec0 w) := by
  fin_cases w
  · exact ((pdats m 0 c).arrAt_in 0 rfl _).trans ((A_eq0 (E3 m) c 0).trans (V4_of m (outs4 m) c main_v6 (by decide)).symm)
  · exact ((pdats m 0 c).arrAt_in 1 rfl _).trans ((A_eq0 (E3 m) c 1).trans (V4_of m (outs4 m) c main_arg3 (by decide)).symm)
  · exact ((pdats m 0 c).arrAt_in 2 rfl _).trans ((A_eq0 (E3 m) c 2).trans (V4_of m (outs4 m) c main_v7 (by decide)).symm)
  · show o8 m c = V4 m (outs4 m) c main_v8
    simp only [V4, outs4_v8, Function.update_self]
/-- and every other buffer what it held at entry. -/
theorem hrest0 (c : Dev nD) : ∀ b, b ∉ Finset.univ.image (Pipeline.arrRef spec0) → E4 m c b = E3 m c b :=
  fun b hb => V4_of m (outs4 m) c b (by
    intro h; rw [List.mem_singleton] at h; subst h
    exact hb (Finset.mem_image.mpr ⟨3, Finset.mem_univ _, rfl⟩))

theorem hF1 (c : Dev nD) (w : Fin cfg1.W) : (pdats m 1 c).arrAt w cfg1.N = E6 m c (Pipeline.arrRef spec1 w) := by
  have h5 : ∀ b : Ref sig .tc, V5 m (outsK m) c b = E5 m c b := fun b => by rw [V5_outsK]
  fin_cases w
  · exact ((pdats m 1 c).arrAt_in 0 rfl _).trans ((A_eq1 (E5 m) c 0).trans ((V6_of m (outsK m) c main_v11 (by decide)).trans (h5 _)).symm)
  · exact ((pdats m 1 c).arrAt_in 1 rfl _).trans ((A_eq1 (E5 m) c 1).trans ((V6_of m (outsK m) c main_arg4 (by decide)).trans (h5 _)).symm)
  · exact ((pdats m 1 c).arrAt_in 2 rfl _).trans ((A_eq1 (E5 m) c 2).trans ((V6_of m (outsK m) c main_v12 (by decide)).trans (h5 _)).symm)
  · show o13 m c = V6 m (outsK m) c main_v13
    simp only [V6, outsK_6, Function.update_self]
theorem hrest1 (c : Dev nD) : ∀ b, b ∉ Finset.univ.image (Pipeline.arrRef spec1) → E6 m c b = E5 m c b :=
  fun b hb => (V6_of m (outsK m) c b (by
    intro h; rw [List.mem_singleton] at h; subst h
    exact hb (Finset.mem_image.mpr ⟨3, Finset.mem_univ _, rfl⟩))).trans (by rw [V5_outsK])

/-! ## The regions as segments -/

set_option backward.isDefEq.respectTransparency.types false in
/-- Kernel region 0 over the thread state: entered with every unscoped buffer at the contents before it, left with
    them at the contents after it; its four arrays are split out of the unscoped buffers and put back at what the
    pipeline leaves; the generator register goes into the region's invariant and comes back; nothing is owed. -/
def reg0 : Pipeline.RegionSeg (pcfgs (F := F)) adm (pdats m) () defs₀ Variants.none Lz lvz 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ Lz lvz 0 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E3 m) c)
    unfold Pipeline.ΦA
    iintro ⟨Hp, -, Hr⟩
    isplitl [Hr]; · iexact Hr
    iexact Hp
  hout c := by
    rw [Pipeline.ownSems0_none]
    refine BIBase.Entails.trans (hout0 (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered with every unscoped buffer at the contents before it, left with
    them at the contents after it; its four arrays are split out of the unscoped buffers and put back at what the
    pipeline leaves; the generator register goes into the region's invariant and comes back; nothing is owed. -/
def reg1 : Pipeline.RegionSeg (pcfgs (F := F)) adm (pdats m) () defs₀ Variants.none Lz lvz 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ Lz lvz 1 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E5 m) c)
    unfold Pipeline.ΦA
    iintro ⟨Hp, -, Hr⟩
    isplitl [Hr]; · iexact Hr
    iexact Hp
  hout c := by
    rw [Pipeline.ownSems0_none]
    refine BIBase.Entails.trans (hout1 (E5 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KRun.lean ====
/-
  The kernel's program run from launch to return: @main is its list of items — host stretches and the two kernel
  regions — each entered from the thread state the one before leaves; at the end every unscoped buffer of every core
  holds the fold of the items over the launch memory, the regions' output arrays at what their pipelines write back.
  The frame claim (the five arguments end as launched) and the result's value are read off that.
-/
import proofs.«407363_j58059367907835_3_alg».proof.Proof.KSeg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Dat Seg HostSeg RegionSeg)

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of @main from memory m with zero counters terminates, and in every final memory every
    unscoped buffer of every core holds the last valuation of the fold through @main's items. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = V13 m (outsK m) c b) := by
  refine Pipeline.θ_run_regions_kit_dev (pcfgs (F := F)) adm (pdats m) () cellOf_inj emb₁ defs₀ Variants.none Lz lvz m ρ main
    (segs m (outsK m) Variants.none Lz lvz (fun _ c => Rr c) () (pdats m) (reg0 m) (reg1 m))
    (fun c Q => by
      rewrite [main_chain c, Seg.run_eq_chain,
        show (segs m (outsK m) Variants.none Lz lvz (fun _ c => Rr c) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rr c))
    (Tₙ := fun c => StableHlo.held (c : Thread nD τ) (Pipeline.ucRefs τ sig) (V13 m (outsK m) c))
    (hch := fun c => ⟨.rfl, .rfl, .rfl, .rfl, (by
        show iprop(StableHlo.held (c : Thread nD τ) (Pipeline.ucRefs τ sig) (V4 m (outs4 m) c) ∗ Rr c) ⊢ iprop(StableHlo.held (c : Thread nD τ) (Pipeline.ucRefs τ sig) (V4 m (outsK m) c) ∗ Rr c)
        rw [V4_outsK]),
      (by
        show iprop(StableHlo.held (c : Thread nD τ) (Pipeline.ucRefs τ sig) (V5 m (outsK m) c) ∗ Rr c) ⊢ iprop(StableHlo.held (c : Thread nD τ) (Pipeline.ucRefs τ sig) (V5 m (outs4 m) c) ∗ Rr c)
        rw [V5_outsK]), .rfl, .rfl, .rfl, .rfl, .rfl, .rfl, .rfl,
      sep_mono .rfl (by iintro ⟨-, HO⟩; iexact HO)⟩)
    (hinit := by
      refine Pipeline.initEach Lz lvz fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V13 m (outsK m) c b)
    (hfin := fun c s' => by
      iintro ⟨Hh, HSI⟩
      unfold StableHlo.held
      imodintro
      iapply (pointsTo_read_all (Pipeline.ucRefs τ sig) (fun b => (((c : Thread nD τ)).1, b)) (V13 m (outsK m) c) s')
      isplitl [Hh] <;> iassumption)
    (hQ := fun s h c => h c)

/-- The frame claim's post: the five argument arrays end as launched. -/
theorem frame_run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (V13_main_arg0 m (outsK m) c),
     (h c _ (mem_uc main_arg1 (by decide))).trans (V13_main_arg1 m (outsK m) c),
     (h c _ (mem_uc main_arg2 (by decide))).trans (V13_main_arg2 m (outsK m) c),
     (h c _ (mem_uc main_arg3 (by decide))).trans (V13_main_arg3 m (outsK m) c),
     (h c _ (mem_uc main_arg4 (by decide))).trans (V13_main_arg4 m (outsK m) c)⟩) (run_all m ρ)

/-- The same run with the result named: the scalar result buffer ends at the last valuation's entry. -/
theorem value_run : θ_run defs (onTc (τ := τ) (main (F := F))) ⟨m, fun _ => 0, ρ⟩ (fun r => ∀ c : Dev nD,
      r.2.mem ((c.tc : Thread nD τ).loc main_v40) = V13 m (outsK m) c main_v40
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v40 (by decide)),
     (h c _ (mem_uc main_arg0 (by decide))).trans (V13_main_arg0 m (outsK m) c),
     (h c _ (mem_uc main_arg1 (by decide))).trans (V13_main_arg1 m (outsK m) c),
     (h c _ (mem_uc main_arg2 (by decide))).trans (V13_main_arg2 m (outsK m) c),
     (h c _ (mem_uc main_arg3 (by decide))).trans (V13_main_arg3 m (outsK m) c),
     (h c _ (mem_uc main_arg4 (by decide))).trans (V13_main_arg4 m (outsK m) c)⟩) (run_all m ρ)

end Cert.KernelIdeal.Hand

end
-- ==== Proof.RefTerm.lean ====
/-
  The reference program's value, as terms of its arguments.
  A token's log-probability is read off in three steps: the row-wise log-softmax of the logits (each row shifted by its
  maximum, then by the logarithm of the sum of the exponentials of the shifted row), the gather of the label's entry
  along the vocabulary axis (a negative label wrapped by 32000, an out-of-range one answered by the fill value), and the
  reshape to one entry per token. The loss is then a function of the mask and the two per-token arrays: per batch row the
  masked mean of each, the difference of the chosen and rejected halves of the batch, its scaling by 0.1, the logarithm
  of the logistic function, and minus the mean over the four pairs.
-/
import proofs.«407363_j58059367907835_3_alg».proof.ReferenceIdeal
import proofs.«407363_j58059367907835_3_alg».proof.Proof.Gen.ReferenceIdeal

noncomputable section

namespace Cert.ReferenceIdeal.Hand

open Cert.ReferenceIdeal Cert.ReferenceIdeal.Gen Idealize.ShloMosaic

variable {F : FTy → Type} [FloatOps F]

/-- Which tokens count: the label differs from the ignore marker -100. -/
def maskOf (y : (⟨S8x512, .i32⟩ : BufTy).Contents (Elt F)) : (⟨S8x512, .i1⟩ : BufTy).Contents (Elt F) :=
  cmpi .ne y (broadcastInDim S8x512 ![] bcast_S_S8x512 (constantI S_ 32 4294967196#32))

/-- The logits with each row's maximum (taken against minus infinity) subtracted. -/
def lsmShift (z : (⟨S8x512x32000, .f32⟩ : BufTy).Contents (Elt F)) : (⟨S8x512x32000, .f32⟩ : BufTy).Contents (Elt F) :=
  subf z (broadcastInDim S8x512x32000 ![0, 1, 2] bcast_S8x512x1_S8x512x32000_0_1_2
    (broadcastInDim S8x512x1 ![0, 1] bcast_S8x512_S8x512x1_0_1
      (maximumf (broadcastInDim S8x512 ![] bcast_S_S8x512 (constant S_ .f32 0xFF800000#32))
        (Host.reduce FloatOps.maximumf z (constant S_ .f32 0xFF800000#32) reducesTo_S8x512x32000_S8x512_d2 h_S_))))

/-- The row-wise log-softmax: the shifted logits minus the logarithm of the sum of their exponentials. -/
def lsmOf (z : (⟨S8x512x32000, .f32⟩ : BufTy).Contents (Elt F)) : (⟨S8x512x32000, .f32⟩ : BufTy).Contents (Elt F) :=
  subf (lsmShift z) (broadcastInDim S8x512x32000 ![0, 1, 2] bcast_S8x512x1_S8x512x32000_0_1_2
    (Host.log (broadcastInDim S8x512x1 ![0, 1] bcast_S8x512_S8x512x1_0_1
      (Host.reduceAdd (Host.exp (lsmShift z)) (constant S_ .f32 0x00000000#32) reducesTo_S8x512x32000_S8x512_d2 h_S_))))

/-- The gather's start indices: a negative index wrapped by the axis length 32000, one more unit axis appended. -/
def takeIdx (i : (⟨S8x512x1, .i32⟩ : BufTy).Contents (Elt F)) : (⟨S8x512x1x1, .i32⟩ : BufTy).Contents (Elt F) :=
  shapeCast S8x512x1x1
    (select (cmpi .slt i (broadcastInDim S8x512x1 ![] bcast_S_S8x512x1 (constantI S_ 32 0#32)))
      (addi i (broadcastInDim S8x512x1 ![] bcast_S_S8x512x1 (constantI S_ 32 32000#32))) i)
    shapeCasts_S8x512x1_S8x512x1x1

/-- The entry of each row at its index along the vocabulary axis; the fill value where the index is outside [0, 31999]. -/
def takeOf (l : (⟨S8x512x32000, .f32⟩ : BufTy).Contents (Elt F)) (i : (⟨S8x512x1, .i32⟩ : BufTy).Contents (Elt F)) :
    (⟨S8x512x1, .f32⟩ : BufTy).Contents (Elt F) :=
  select
    (Host.reduce IntOp.andi
      (andi (cmpi .sge (takeIdx (F := F) i) (broadcastInDim S8x512x1x1 ![] bcast_S_S8x512x1x1 (constantI S_ 32 0#32)))
        (cmpi .sle (takeIdx (F := F) i) (broadcastInDim S8x512x1x1 ![0, 1, 2, 3] bcast_S1x1x1x1_S8x512x1x1_0_1_2_3
          (broadcastInDim S1x1x1x1 ![3] bcast_S1_S1x1x1x1_3 (constantI S1 32 31999#32)))))
      (constantI S_ 1 1#1) reducesTo_S8x512x1x1_S8x512x1_d3 h_S_)
    (Host.gather gather_S8x512x32000_S8x512x1x1_S8x512x1_n_2_01_01_2_3_111 l (takeIdx (F := F) i))
    (broadcastInDim S8x512x1 ![] bcast_S_S8x512x1 (constant S_ .f32 0x7FC00000#32))

/-- The per-token log-probability of the label: logits, log-softmax, gather at the label (0 where ignored), reshape. -/
def refTok (x : (⟨S8x512x2048, .f32⟩ : BufTy).Contents (Elt F)) (w : (⟨S32000x2048, .f32⟩ : BufTy).Contents (Elt F))
    (y : (⟨S8x512, .i32⟩ : BufTy).Contents (Elt F)) : (⟨S8x512, .f32⟩ : BufTy).Contents (Elt F) :=
  shapeCast S8x512
    (takeOf (lsmOf (Host.dotGeneral dot_S8x512x2048_S32000x2048_S8x512x32000_2_1_01_0_n_n none x w))
      (broadcastInDim S8x512x1 ![0, 1] bcast_S8x512_S8x512x1_0_1
        (select (maskOf (F := F) y) y (broadcastInDim S8x512 ![] bcast_S_S8x512 (id (constantI S_ 32 0#32))))))
    shapeCasts_S8x512x1_S8x512

/-- Per batch row, the sum of the counted tokens' entries over the number of counted tokens (at least one). -/
def meanOf (mask : (⟨S8x512, .i1⟩ : BufTy).Contents (Elt F)) (t : (⟨S8x512, .f32⟩ : BufTy).Contents (Elt F)) :
    (⟨S8, .f32⟩ : BufTy).Contents (Elt F) :=
  Host.divf
    (Host.reduceAdd (select mask t (broadcastInDim S8x512 ![] bcast_S_S8x512 (id (constant S_ .f32 0x00000000#32))))
      (constant S_ .f32 0x00000000#32) reducesTo_S8x512_S8_d1 h_S_)
    (sitofp .f32 (maxsi (Host.reduce IntOp.addi (extui 32 mask natLt_1_32) (constantI S_ 32 0#32) reducesTo_S8x512_S8_d1 h_S_)
      (broadcastInDim S8 ![] bcast_S_S8 (constantI S_ 32 1#32))))

/-- The softplus of four values, as the program spells it: where the value is a number,
    max(a, 0) + log1p(exp(-|a|)); otherwise a + 0. -/
def softplusOf (a : (⟨S4, .f32⟩ : BufTy).Contents (Elt F)) : (⟨S4, .f32⟩ : BufTy).Contents (Elt F) :=
  select
    (cmpf .une (subf a (broadcastInDim S4 ![] bcast_S_S4 (constant S_ .f32 0x00000000#32)))
      (subf a (broadcastInDim S4 ![] bcast_S_S4 (constant S_ .f32 0x00000000#32))))
    (addf a (broadcastInDim S4 ![] bcast_S_S4 (constant S_ .f32 0x00000000#32)))
    (addf (maximumf a (broadcastInDim S4 ![] bcast_S_S4 (constant S_ .f32 0x00000000#32)))
      (Host.log1p (Host.exp (Host.negf (Host.absf
        (subf a (broadcastInDim S4 ![] bcast_S_S4 (constant S_ .f32 0x00000000#32))))))))

/-- The loss from the two per-row means: the chosen half minus the rejected half of each, their difference scaled by
    0.1, the logarithm of the logistic function of that, and minus the mean over the four pairs. -/
def lossOf (p r : (⟨S8, .f32⟩ : BufTy).Contents (Elt F)) : (⟨S_, .f32⟩ : BufTy).Contents (Elt F) :=
  Host.divf
    (Host.negf (Host.reduceAdd
      (Host.negf (softplusOf (F := F) (Host.negf
        (mulf (broadcastInDim S4 ![] bcast_S_S4 (constant S_ .f32 0x3DCCCCCD#32))
          (subf
            (subf (extractStridedSlice S4 ![0] p slices_S8_S4_0) (extractStridedSlice S4 ![0] r slices_S8_S4_0))
            (subf (extractStridedSlice S4 ![4] p slices_S8_S4_4) (extractStridedSlice S4 ![4] r slices_S8_S4_4)))))))
      (constant S_ .f32 0x00000000#32) reducesTo_S4_S_d0 h_S_))
    (constant S_ .f32 0x40800000#32)

/-- The loss from the mask and the two per-token arrays. -/
def tailOf (mask : (⟨S8x512, .i1⟩ : BufTy).Contents (Elt F)) (tp tr : (⟨S8x512, .f32⟩ : BufTy).Contents (Elt F)) :
    (⟨S_, .f32⟩ : BufTy).Contents (Elt F) :=
  lossOf (F := F) (meanOf (F := F) mask tp) (meanOf (F := F) mask tr)

end Cert.ReferenceIdeal.Hand

end
-- ==== Proof.RefRun.lean ====
/-
  The reference program's run, read back: @main with its eight calls unfolded is one straight line of 153 host
  operations; every weakly fair execution of it terminates with the result buffer at the loss term of the arguments and
  the arguments unchanged. The line is read in nine stretches — for each operand pair the logits with their
  log-softmax, the mask with the gather's index, the gather with its reshape; after each pair the masked row means; last
  the loss from the two means — each stretch from an arbitrary valuation, so that no stretch's lemma opens another's
  term. A called function moves a value between a buffer's own contents type and the tensor type it carries; at the
  two log-softmax stretches, whose reductions run over 32000 entries, those two moves are kept in the statement at the
  stretch's input and output and removed afterwards, where the value they wrap is a variable.
-/
import proofs.«407363_j58059367907835_3_alg».proof.ReferenceIdeal
import proofs.«407363_j58059367907835_3_alg».proof.Proof.Gen.ReferenceIdeal
import proofs.«407363_j58059367907835_3_alg».proof.Proof.RefTerm
import Idealize.ShloMosaic.Lib.StableHlo.Run
import Idealize.ShloMosaic.Lib.Pipeline.Frame
import Mathlib.Logic.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `s` and element type `e`. -/
abbrev C (F : FTy → Type) (s : Shape) (e : EltTy) : Type := (⟨s, e⟩ : BufTy).Contents (Elt F)

/-! ## The called functions' operations, over a call's arguments and buffers -/

/-- @log_softmax's fifteen operations. -/
abbrev lsmOps (a : TRef sig ⟨S8x512x32000, .f32⟩) (φ : fn_log_softmax.Bufs) : List (HloOp τ sig (Elt F)) :=
  [ TRef.nullary φ.cst (constant S_ .f32 0xFF800000#32),
    TRef.binary a φ.cst φ.v0 (fun x v => Host.reduce FloatOps.maximumf x v reducesTo_S8x512x32000_S8x512_d2 h_S_),
    TRef.nullary φ.cst_0 (constant S_ .f32 0xFF800000#32),
    TRef.unary φ.cst_0 φ.v1 (broadcastInDim S8x512 ![] bcast_S_S8x512),
    TRef.binary φ.v1 φ.v0 φ.v2 maximumf,
    TRef.unary φ.v2 φ.v3 (broadcastInDim S8x512x1 ![0, 1] bcast_S8x512_S8x512x1_0_1),
    TRef.unary φ.v3 φ.v4 (broadcastInDim S8x512x32000 ![0, 1, 2] bcast_S8x512x1_S8x512x32000_0_1_2),
    TRef.binary a φ.v4 φ.v5 subf,
    TRef.unary φ.v5 φ.v6 Host.exp,
    TRef.nullary φ.cst_1 (constant S_ .f32 0x00000000#32),
    TRef.binary φ.v6 φ.cst_1 φ.v7 (fun x v => Host.reduceAdd x v reducesTo_S8x512x32000_S8x512_d2 h_S_),
    TRef.unary φ.v7 φ.v8 (broadcastInDim S8x512x1 ![0, 1] bcast_S8x512_S8x512x1_0_1),
    TRef.unary φ.v8 φ.v9 Host.log,
    TRef.unary φ.v9 φ.v10 (broadcastInDim S8x512x32000 ![0, 1, 2] bcast_S8x512x1_S8x512x32000_0_1_2),
    TRef.binary φ.v5 φ.v10 φ.v11 subf ]

/-- @_where's three operations (integer entries). -/
abbrev whereOps (c : TRef sig ⟨S8x512, .i1⟩) (a : TRef sig ⟨S8x512, .i32⟩) (z : TRef sig ⟨S_, .i32⟩) (φ : fn_where.Bufs) :
    List (HloOp τ sig (Elt F)) :=
  [ TRef.unary z φ.v0 id,
    TRef.unary φ.v0 φ.v1 (broadcastInDim S8x512 ![] bcast_S_S8x512),
    TRef.ternary c a φ.v1 φ.v2 select ]

/-- @_where_0's three operations (float entries). -/
abbrev where0Ops (c : TRef sig ⟨S8x512, .i1⟩) (a : TRef sig ⟨S8x512, .f32⟩) (z : TRef sig ⟨S_, .f32⟩) (φ : fn_where_0.Bufs) :
    List (HloOp τ sig (Elt F)) :=
  [ TRef.unary z φ.v0 id,
    TRef.unary φ.v0 φ.v1 (broadcastInDim S8x512 ![] bcast_S_S8x512),
    TRef.ternary c a φ.v1 φ.v2 select ]

/-- @take_along_axis's twenty-two operations. -/
abbrev takeOps (l : TRef sig ⟨S8x512x32000, .f32⟩) (i : TRef sig ⟨S8x512x1, .i32⟩) (φ : fn_take_along_axis.Bufs) :
    List (HloOp τ sig (Elt F)) :=
  [ TRef.nullary φ.c (constantI S_ 32 0#32),
    TRef.unary φ.c φ.v0 (broadcastInDim S8x512x1 ![] bcast_S_S8x512x1),
    TRef.binary i φ.v0 φ.v1 (cmpi .slt),
    TRef.nullary φ.c_0 (constantI S_ 32 32000#32),
    TRef.unary φ.c_0 φ.v2 (broadcastInDim S8x512x1 ![] bcast_S_S8x512x1),
    TRef.binary i φ.v2 φ.v3 addi,
    TRef.ternary φ.v1 φ.v3 i φ.v4 select,
    TRef.reshape φ.v4 φ.v5 rfl shapeCasts_S8x512x1_S8x512x1x1,
    TRef.nullary φ.c_1 (constantI S1 32 31999#32),
    TRef.nullary φ.c_2 (constantI S_ 32 0#32),
    TRef.unary φ.c_2 φ.v6 (broadcastInDim S8x512x1x1 ![] bcast_S_S8x512x1x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S8x512x1x1 ![0, 1, 2, 3] bcast_S1x1x1x1_S8x512x1x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S8x512x1x1_S8x512x1_d3 h_S_),
    TRef.binary l φ.v5 φ.v13 (fun x i => Host.gather gather_S8x512x32000_S8x512x1x1_S8x512x1_n_2_01_01_2_3_111 x i),
    TRef.nullary φ.cst (constant S_ .f32 0x7FC00000#32),
    TRef.unary φ.cst φ.v14 (broadcastInDim S8x512x1 ![] bcast_S_S8x512x1),
    TRef.ternary φ.v12 φ.v13 φ.v14 φ.v15 select ]

/-- @softplus's fourteen operations. -/
abbrev softplusOps (a : TRef sig ⟨S4, .f32⟩) (φ : fn_softplus.Bufs) : List (HloOp τ sig (Elt F)) :=
  [ TRef.nullary φ.cst (constant S_ .f32 0x00000000#32),
    TRef.unary φ.cst φ.v0 (broadcastInDim S4 ![] bcast_S_S4),
    TRef.binary a φ.v0 φ.v1 maximumf,
    TRef.unary φ.cst φ.v2 (broadcastInDim S4 ![] bcast_S_S4),
    TRef.binary a φ.v2 φ.v3 subf,
    TRef.binary φ.v3 φ.v3 φ.v4 (cmpf .une),
    TRef.unary φ.cst φ.v5 (broadcastInDim S4 ![] bcast_S_S4),
    TRef.binary a φ.v5 φ.v6 addf,
    TRef.unary φ.v3 φ.v7 Host.absf,
    TRef.unary φ.v7 φ.v8 Host.negf,
    TRef.unary φ.v8 φ.v9 Host.exp,
    TRef.unary φ.v9 φ.v10 Host.log1p,
    TRef.binary φ.v1 φ.v10 φ.v11 addf,
    TRef.ternary φ.v4 φ.v6 φ.v11 φ.v12 select ]

/-- @log_sigmoid's sixteen operations: a negation, @softplus, a negation. -/
abbrev logSigmoidOps (a : TRef sig ⟨S4, .f32⟩) (φ : fn_log_sigmoid.Bufs) : List (HloOp τ sig (Elt F)) :=
  TRef.unary a φ.v0 Host.negf :: (softplusOps φ.v0 φ.call0 ++ [TRef.unary φ.call0.v12 φ.v2 Host.negf])

/-! ## @main's operations, in nine stretches -/

/-- The first operand pair's logits and their row-wise log-softmax (16 operations). -/
abbrev opsA1 : List (HloOp τ sig (Elt F)) :=
  [ binary main_arg0 main_arg3 main_v0 ((fun l r => Host.dotGeneral dot_S8x512x2048_S32000x2048_S8x512x32000_2_1_01_0_n_n none l r) : C F S8x512x2048 .f32 → C F S32000x2048 .f32 → C F S8x512x32000 .f32) ]
  ++ lsmOps (.of main_v0) main_call0

/-- The mask of the labels and the gather's index, the label or 0 where it is ignored (8 operations). -/
abbrev opsA2 : List (HloOp τ sig (Elt F)) :=
  [ nullary main_c (constantI S_ 32 4294967196#32),
    unary main_c main_v2 (broadcastInDim S8x512 ![] bcast_S_S8x512 : C F S_ .i32 → C F S8x512 .i32),
    binary main_arg2 main_v2 main_v3 (cmpi .ne : C F S8x512 .i32 → C F S8x512 .i32 → C F S8x512 .i1),
    nullary main_c_0 (constantI S_ 32 0#32) ]
  ++ whereOps (.of main_v3) (.of main_arg2) (.of main_c_0) main_call1
  ++ [ unary main_v4 main_v5 (broadcastInDim S8x512x1 ![0, 1] bcast_S8x512_S8x512x1_0_1 : C F S8x512 .i32 → C F S8x512x1 .i32) ]

/-- The gather along the vocabulary axis and the reshape to one entry per token (23 operations). -/
abbrev opsA3 : List (HloOp τ sig (Elt F)) :=
  takeOps (.of main_v1) (.of main_v5) main_call2
  ++ [ reshape main_v6 main_v7 rfl shapeCasts_S8x512x1_S8x512 ]

/-- The first pair's masked row means (14 operations). -/
abbrev opsB : List (HloOp τ sig (Elt F)) :=
  [ nullary main_cst (constant S_ .f32 0x00000000#32) ]
  ++ where0Ops (.of main_v3) (.of main_v7) (.of main_cst) main_call3
  ++ [ unary main_v3 main_v9 ((extui 32 · natLt_1_32) : C F S8x512 .i1 → C F S8x512 .i32),
       nullary main_c_1 (constantI S_ 32 0#32),
       binary main_v9 main_c_1 main_v10 ((fun x v => Host.reduce IntOp.addi x v reducesTo_S8x512_S8_d1 h_S_) : C F S8x512 .i32 → C F S_ .i32 → C F S8 .i32),
       nullary main_c_2 (constantI S_ 32 1#32),
       unary main_c_2 main_v11 (broadcastInDim S8 ![] bcast_S_S8 : C F S_ .i32 → C F S8 .i32),
       binary main_v10 main_v11 main_v12 (maxsi : C F S8 .i32 → C F S8 .i32 → C F S8 .i32),
       nullary main_cst_3 (constant S_ .f32 0x00000000#32),
       binary main_v8 main_cst_3 main_v13 ((fun x v => Host.reduceAdd x v reducesTo_S8x512_S8_d1 h_S_) : C F S8x512 .f32 → C F S_ .f32 → C F S8 .f32),
       unary main_v12 main_v14 (sitofp .f32 : C F S8 .i32 → C F S8 .f32),
       binary main_v13 main_v14 main_v15 (Host.divf : C F S8 .f32 → C F S8 .f32 → C F S8 .f32) ]

/-- The second operand pair's logits and their row-wise log-softmax (16 operations). -/
abbrev opsC1 : List (HloOp τ sig (Elt F)) :=
  [ binary main_arg1 main_arg4 main_v16 ((fun l r => Host.dotGeneral dot_S8x512x2048_S32000x2048_S8x512x32000_2_1_01_0_n_n none l r) : C F S8x512x2048 .f32 → C F S32000x2048 .f32 → C F S8x512x32000 .f32) ]
  ++ lsmOps (.of main_v16) main_call4

/-- The mask of the labels and the gather's index once more (8 operations). -/
abbrev opsC2 : List (HloOp τ sig (Elt F)) :=
  [ nullary main_c_4 (constantI S_ 32 4294967196#32),
    unary main_c_4 main_v18 (broadcastInDim S8x512 ![] bcast_S_S8x512 : C F S_ .i32 → C F S8x512 .i32),
    binary main_arg2 main_v18 main_v19 (cmpi .ne : C F S8x512 .i32 → C F S8x512 .i32 → C F S8x512 .i1),
    nullary main_c_5 (constantI S_ 32 0#32) ]
  ++ whereOps (.of main_v19) (.of main_arg2) (.of main_c_5) main_call5
  ++ [ unary main_v20 main_v21 (broadcastInDim S8x512x1 ![0, 1] bcast_S8x512_S8x512x1_0_1 : C F S8x512 .i32 → C F S8x512x1 .i32) ]

/-- The second gather and reshape (23 operations). -/
abbrev opsC3 : List (HloOp τ sig (Elt F)) :=
  takeOps (.of main_v17) (.of main_v21) main_call6
  ++ [ reshape main_v22 main_v23 rfl shapeCasts_S8x512x1_S8x512 ]

/-- The second pair's masked row means (14 operations). -/
abbrev opsD : List (HloOp τ sig (Elt F)) :=
  [ nullary main_cst_6 (constant S_ .f32 0x00000000#32) ]
  ++ where0Ops (.of main_v19) (.of main_v23) (.of main_cst_6) main_call7
  ++ [ unary main_v19 main_v25 ((extui 32 · natLt_1_32) : C F S8x512 .i1 → C F S8x512 .i32),
       nullary main_c_7 (constantI S_ 32 0#32),
       binary main_v25 main_c_7 main_v26 ((fun x v => Host.reduce IntOp.addi x v reducesTo_S8x512_S8_d1 h_S_) : C F S8x512 .i32 → C F S_ .i32 → C F S8 .i32),
       nullary main_c_8 (constantI S_ 32 1#32),
       unary main_c_8 main_v27 (broadcastInDim S8 ![] bcast_S_S8 : C F S_ .i32 → C F S8 .i32),
       binary main_v26 main_v27 main_v28 (maxsi : C F S8 .i32 → C F S8 .i32 → C F S8 .i32),
       nullary main_cst_9 (constant S_ .f32 0x00000000#32),
       binary main_v24 main_cst_9 main_v29 ((fun x v => Host.reduceAdd x v reducesTo_S8x512_S8_d1 h_S_) : C F S8x512 .f32 → C F S_ .f32 → C F S8 .f32),
       unary main_v28 main_v30 (sitofp .f32 : C F S8 .i32 → C F S8 .f32),
       binary main_v29 main_v30 main_v31 (Host.divf : C F S8 .f32 → C F S8 .f32 → C F S8 .f32) ]

/-- The loss from the two means: the halves' differences, the scaling, the log-sigmoid, the mean (31 operations). -/
abbrev opsE : List (HloOp τ sig (Elt F)) :=
  [ unary main_v15 main_v32 ((extractStridedSlice S4 ![0] · slices_S8_S4_0) : C F S8 .f32 → C F S4 .f32),
    unary main_v15 main_v33 ((extractStridedSlice S4 ![4] · slices_S8_S4_4) : C F S8 .f32 → C F S4 .f32),
    unary main_v31 main_v34 ((extractStridedSlice S4 ![0] · slices_S8_S4_0) : C F S8 .f32 → C F S4 .f32),
    unary main_v31 main_v35 ((extractStridedSlice S4 ![4] · slices_S8_S4_4) : C F S8 .f32 → C F S4 .f32),
    binary main_v32 main_v34 main_v36 (subf : C F S4 .f32 → C F S4 .f32 → C F S4 .f32),
    binary main_v33 main_v35 main_v37 (subf : C F S4 .f32 → C F S4 .f32 → C F S4 .f32),
    binary main_v36 main_v37 main_v38 (subf : C F S4 .f32 → C F S4 .f32 → C F S4 .f32),
    nullary main_cst_10 (constant S_ .f32 0x3DCCCCCD#32),
    unary main_cst_10 main_v39 (broadcastInDim S4 ![] bcast_S_S4 : C F S_ .f32 → C F S4 .f32),
    binary main_v39 main_v38 main_v40 (mulf : C F S4 .f32 → C F S4 .f32 → C F S4 .f32) ]
  ++ logSigmoidOps (.of main_v40) main_call8
  ++ [ nullary main_cst_11 (constant S_ .f32 0x00000000#32),
       binary main_v41 main_cst_11 main_v42 ((fun x v => Host.reduceAdd x v reducesTo_S4_S_d0 h_S_) : C F S4 .f32 → C F S_ .f32 → C F S_ .f32),
       unary main_v42 main_v43 (Host.negf : C F S_ .f32 → C F S_ .f32),
       nullary main_cst_12 (constant S_ .f32 0x40800000#32),
       binary main_v43 main_cst_12 main_v44 (Host.divf : C F S_ .f32 → C F S_ .f32 → C F S_ .f32) ]

/-- @main's 153 operations, in order. -/
abbrev ops : List (HloOp τ sig (Elt F)) :=
  opsA1 ++ (opsA2 ++ (opsA3 ++ (opsB ++ (opsC1 ++ (opsC2 ++ (opsC3 ++ (opsD ++ opsE)))))))

set_option maxRecDepth 8192 in
set_option maxHeartbeats 4000000 in
/-- @main is that straight line: the called functions' definitions unfolded at their calls, both sides are one chain
    of operation steps once sequencing is reassociated. -/
theorem main_eq (c : Dev nD) : main (F := F) c = seq ops := by
  simp only [main, main_part0, main_part1, fn_log_softmax.body, fn_where.body, fn_take_along_axis.body, fn_where_0.body,
    fn_softplus.body, fn_log_sigmoid.body, ops, opsA1, opsA2, opsA3, opsB, opsC1, opsC2, opsC3, opsD, opsE, lsmOps, whereOps,
    where0Ops, takeOps, softplusOps, logSigmoidOps, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
/-- Every operation touches TensorCore buffers only. -/
theorem ops_sub : (ops : List (HloOp τ sig (Elt F))).Forall fun op => op.bufs ⊆ tcRefs τ sig := by
  simp only [ops, opsA1, opsA2, opsA3, opsB, opsC1, opsC2, opsC3, opsD, opsE, lsmOps, whereOps, where0Ops, takeOps,
    softplusOps, logSigmoidOps, List.cons_append, List.nil_append, List.Forall, nullary_bufs_sub, unary_bufs_sub,
    binary_bufs_sub, ternary_bufs_sub, reshape_bufs_sub, and_self]

set_option maxRecDepth 8192 in
set_option maxHeartbeats 4000000 in
/-- Every operation determines the contents of what it writes. -/
theorem ops_fresh : ∀ op ∈ (ops : List (HloOp τ sig (Elt F))), op.fresh = ∅ := by
  intro op h
  simp only [ops, opsA1, opsA2, opsA3, opsB, opsC1, opsC2, opsC3, opsD, opsE, lsmOps, whereOps, where0Ops, takeOps,
    softplusOps, logSigmoidOps, List.cons_append, List.nil_append] at h
  repeat (cases h with | head => rfl | tail _ h => ?_)
  exact nomatch h

/-! ## The stretches' written buffers -/

/-- The buffers the first log-softmax stretch writes. -/
abbrev opsA1_W : List (Ref sig .tc) :=
  [ main_v0, main_call0_cst, main_call0_v0, main_call0_cst_0, main_call0_v1, main_call0_v2, main_call0_v3, main_call0_v4,
    main_call0_v5, main_call0_v6, main_call0_cst_1, main_call0_v7, main_call0_v8, main_call0_v9, main_call0_v10, main_v1 ]

set_option maxRecDepth 8192 in
theorem opsA1_writes : (opsA1 : List (HloOp τ sig (Elt F))).Forall fun op =>
    op.writes ⊆ (opsA1_W.map (Proc.devRef (τ := τ) .tc)).toFinset := by
  simp only [opsA1, lsmOps, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the first log-softmax stretch does not write keeps its contents through it. -/
theorem A1_keep (W : Valuation τ sig (Elt F)) (r : Ref sig .tc) (h : r ∉ opsA1_W) :
    after opsA1 W (Proc.devRef .tc r) = W (Proc.devRef .tc r) :=
  after_of_writes_sub opsA1 W opsA1_writes h

/-- The buffers the first mask-and-index stretch writes. -/
abbrev opsA2_W : List (Ref sig .tc) :=
  [ main_c, main_v2, main_v3, main_c_0, main_call1_v0, main_call1_v1, main_v4, main_v5 ]

set_option maxRecDepth 8192 in
theorem opsA2_writes : (opsA2 : List (HloOp τ sig (Elt F))).Forall fun op =>
    op.writes ⊆ (opsA2_W.map (Proc.devRef (τ := τ) .tc)).toFinset := by
  simp only [opsA2, whereOps, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the first mask-and-index stretch does not write keeps its contents through it. -/
theorem A2_keep (W : Valuation τ sig (Elt F)) (r : Ref sig .tc) (h : r ∉ opsA2_W) :
    after opsA2 W (Proc.devRef .tc r) = W (Proc.devRef .tc r) :=
  after_of_writes_sub opsA2 W opsA2_writes h

/-- The buffers the first gather stretch writes. -/
abbrev opsA3_W : List (Ref sig .tc) :=
  [ main_call2_c, main_call2_v0, main_call2_v1, main_call2_c_0, main_call2_v2, main_call2_v3, main_call2_v4, main_call2_v5,
    main_call2_c_1, main_call2_c_2, main_call2_v6, main_call2_v7, main_call2_v8, main_call2_v9, main_call2_v10,
    main_call2_v11, main_call2_c_3, main_call2_v12, main_call2_v13, main_call2_cst, main_call2_v14, main_v6, main_v7 ]

set_option maxRecDepth 8192 in
theorem opsA3_writes : (opsA3 : List (HloOp τ sig (Elt F))).Forall fun op =>
    op.writes ⊆ (opsA3_W.map (Proc.devRef (τ := τ) .tc)).toFinset := by
  simp only [opsA3, takeOps, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the first gather stretch does not write keeps its contents through it. -/
theorem A3_keep (W : Valuation τ sig (Elt F)) (r : Ref sig .tc) (h : r ∉ opsA3_W) :
    after opsA3 W (Proc.devRef .tc r) = W (Proc.devRef .tc r) :=
  after_of_writes_sub opsA3 W opsA3_writes h

/-- The buffers the first row-means stretch writes. -/
abbrev opsB_W : List (Ref sig .tc) :=
  [ main_cst, main_call3_v0, main_call3_v1, main_v8, main_v9, main_c_1, main_v10, main_c_2, main_v11, main_v12, main_cst_3,
    main_v13, main_v14, main_v15 ]

set_option maxRecDepth 8192 in
theorem opsB_writes : (opsB : List (HloOp τ sig (Elt F))).Forall fun op =>
    op.writes ⊆ (opsB_W.map (Proc.devRef (τ := τ) .tc)).toFinset := by
  simp only [opsB, where0Ops, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the first row-means stretch does not write keeps its contents through it. -/
theorem B_keep (W : Valuation τ sig (Elt F)) (r : Ref sig .tc) (h : r ∉ opsB_W) :
    after opsB W (Proc.devRef .tc r) = W (Proc.devRef .tc r) :=
  after_of_writes_sub opsB W opsB_writes h

/-- The buffers the second log-softmax stretch writes. -/
abbrev opsC1_W : List (Ref sig .tc) :=
  [ main_v16, main_call4_cst, main_call4_v0, main_call4_cst_0, main_call4_v1, main_call4_v2, main_call4_v3, main_call4_v4,
    main_call4_v5, main_call4_v6, main_call4_cst_1, main_call4_v7, main_call4_v8, main_call4_v9, main_call4_v10, main_v17 ]

set_option maxRecDepth 8192 in
theorem opsC1_writes : (opsC1 : List (HloOp τ sig (Elt F))).Forall fun op =>
    op.writes ⊆ (opsC1_W.map (Proc.devRef (τ := τ) .tc)).toFinset := by
  simp only [opsC1, lsmOps, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the second log-softmax stretch does not write keeps its contents through it. -/
theorem C1_keep (W : Valuation τ sig (Elt F)) (r : Ref sig .tc) (h : r ∉ opsC1_W) :
    after opsC1 W (Proc.devRef .tc r) = W (Proc.devRef .tc r) :=
  after_of_writes_sub opsC1 W opsC1_writes h

/-- The buffers the second mask-and-index stretch writes. -/
abbrev opsC2_W : List (Ref sig .tc) :=
  [ main_c_4, main_v18, main_v19, main_c_5, main_call5_v0, main_call5_v1, main_v20, main_v21 ]

set_option maxRecDepth 8192 in
theorem opsC2_writes : (opsC2 : List (HloOp τ sig (Elt F))).Forall fun op =>
    op.writes ⊆ (opsC2_W.map (Proc.devRef (τ := τ) .tc)).toFinset := by
  simp only [opsC2, whereOps, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the second mask-and-index stretch does not write keeps its contents through it. -/
theorem C2_keep (W : Valuation τ sig (Elt F)) (r : Ref sig .tc) (h : r ∉ opsC2_W) :
    after opsC2 W (Proc.devRef .tc r) = W (Proc.devRef .tc r) :=
  after_of_writes_sub opsC2 W opsC2_writes h

/-- The buffers the second gather stretch writes. -/
abbrev opsC3_W : List (Ref sig .tc) :=
  [ main_call6_c, main_call6_v0, main_call6_v1, main_call6_c_0, main_call6_v2, main_call6_v3, main_call6_v4, main_call6_v5,
    main_call6_c_1, main_call6_c_2, main_call6_v6, main_call6_v7, main_call6_v8, main_call6_v9, main_call6_v10,
    main_call6_v11, main_call6_c_3, main_call6_v12, main_call6_v13, main_call6_cst, main_call6_v14, main_v22, main_v23 ]

set_option maxRecDepth 8192 in
theorem opsC3_writes : (opsC3 : List (HloOp τ sig (Elt F))).Forall fun op =>
    op.writes ⊆ (opsC3_W.map (Proc.devRef (τ := τ) .tc)).toFinset := by
  simp only [opsC3, takeOps, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the second gather stretch does not write keeps its contents through it. -/
theorem C3_keep (W : Valuation τ sig (Elt F)) (r : Ref sig .tc) (h : r ∉ opsC3_W) :
    after opsC3 W (Proc.devRef .tc r) = W (Proc.devRef .tc r) :=
  after_of_writes_sub opsC3 W opsC3_writes h

/-- The buffers the second row-means stretch writes. -/
abbrev opsD_W : List (Ref sig .tc) :=
  [ main_cst_6, main_call7_v0, main_call7_v1, main_v24, main_v25, main_c_7, main_v26, main_c_8, main_v27, main_v28,
    main_cst_9, main_v29, main_v30, main_v31 ]

set_option maxRecDepth 8192 in
theorem opsD_writes : (opsD : List (HloOp τ sig (Elt F))).Forall fun op =>
    op.writes ⊆ (opsD_W.map (Proc.devRef (τ := τ) .tc)).toFinset := by
  simp only [opsD, where0Ops, List.cons_append, List.nil_append, List.Forall, nullary_writes, unary_writes, binary_writes,
    ternary_writes, reshape_writes, Finset.singleton_subset_iff, List.mem_toFinset]
  repeat' apply And.intro
  all_goals exact List.mem_map_of_mem (by decide)

/-- A buffer the second row-means stretch does not write keeps its contents through it. -/
theorem D_keep (W : Valuation τ sig (Elt F)) (r : Ref sig .tc) (h : r ∉ opsD_W) :
    after opsD W (Proc.devRef .tc r) = W (Proc.devRef .tc r) :=
  after_of_writes_sub opsD W opsD_writes h

/-- The buffers the loss stretch writes. -/
abbrev opsE_W : List (Ref sig .tc) :=
  [ main_v32, main_v33, main_v34, main_v35, main_v36, main_v37, main_v38, main_cst_10, main_v39, main_v40, main_call8_v0,
    main_call8_call0_cst, main_call8_call0_v0, main_call8_call0_v1, main_call8_call0_v2, main_call8_call0_v3,
    main_call8_call0_v4, main_call8_call0_v5, main_call8_call0_v6, main_call8_call0_v7, main_call8_call0_v8,
    main_call8_call0_v9, main_call8_call0_v10, main_call8_call0_v11, main_call8_v1, main_v41, main_cst_11, main_v42,
    main_v43, main_cst_12, main_v44 ]

set_option maxRecDepth 8192 in
theorem opsE_writes : (opsE : List (HloOp τ sig (Elt F))).Forall fun op =>
    op.writes ⊆ (opsE_W.map (Proc.devRef (τ := τ) .tc)).toFinset := by
  simp only [opsE, softplusOps, logSigmoidOps, List.cons_append, List.nil_append, List.Forall, nullary_writes, unary_writes,
    binary_writes, ternary_writes, reshape_writes, Finset.singleton_subset_iff, List.mem_toFinset]
  repeat' apply And.intro
  all_goals exact List.mem_map_of_mem (by decide)

/-- A buffer the loss stretch does not write keeps its contents through it. -/
theorem E_keep (W : Valuation τ sig (Elt F)) (r : Ref sig .tc) (h : r ∉ opsE_W) :
    after opsE W (Proc.devRef .tc r) = W (Proc.devRef .tc r) :=
  after_of_writes_sub opsE W opsE_writes h

/-! ## Each stretch's results, from any contents -/

/-- The move from a log-softmax result buffer's own contents type to the tensor type, and back, is the identity. -/
theorem toBuf_v1_eq (t : C F S8x512x32000 .f32) : (.of main_v1 : TRef sig ⟨S8x512x32000, .f32⟩).toBuf (Val := Elt F) t = t := rfl
theorem ofBuf_v0_eq (t : C F S8x512x32000 .f32) : (.of main_v0 : TRef sig ⟨S8x512x32000, .f32⟩).ofBuf (Val := Elt F) t = t := rfl
theorem toBuf_v17_eq (t : C F S8x512x32000 .f32) : (.of main_v17 : TRef sig ⟨S8x512x32000, .f32⟩).toBuf (Val := Elt F) t = t := rfl
theorem ofBuf_v16_eq (t : C F S8x512x32000 .f32) : (.of main_v16 : TRef sig ⟨S8x512x32000, .f32⟩).ofBuf (Val := Elt F) t = t := rfl

/-- @log_softmax's operations in three pieces: the row maxima; the shifted logits; the log-softmax from the shifted logits. -/
abbrev lsmP1 (a : TRef sig ⟨S8x512x32000, .f32⟩) (φ : fn_log_softmax.Bufs) : List (HloOp τ sig (Elt F)) :=
  [ TRef.nullary φ.cst (constant S_ .f32 0xFF800000#32),
    TRef.binary a φ.cst φ.v0 (fun x v => Host.reduce FloatOps.maximumf x v reducesTo_S8x512x32000_S8x512_d2 h_S_) ]
abbrev lsmP2 (a : TRef sig ⟨S8x512x32000, .f32⟩) (φ : fn_log_softmax.Bufs) : List (HloOp τ sig (Elt F)) :=
  [ TRef.nullary φ.cst_0 (constant S_ .f32 0xFF800000#32),
    TRef.unary φ.cst_0 φ.v1 (broadcastInDim S8x512 ![] bcast_S_S8x512),
    TRef.binary φ.v1 φ.v0 φ.v2 maximumf,
    TRef.unary φ.v2 φ.v3 (broadcastInDim S8x512x1 ![0, 1] bcast_S8x512_S8x512x1_0_1),
    TRef.unary φ.v3 φ.v4 (broadcastInDim S8x512x32000 ![0, 1, 2] bcast_S8x512x1_S8x512x32000_0_1_2),
    TRef.binary a φ.v4 φ.v5 subf ]
abbrev lsmP3 (φ : fn_log_softmax.Bufs) : List (HloOp τ sig (Elt F)) :=
  [ TRef.unary φ.v5 φ.v6 Host.exp,
    TRef.nullary φ.cst_1 (constant S_ .f32 0x00000000#32),
    TRef.binary φ.v6 φ.cst_1 φ.v7 (fun x v => Host.reduceAdd x v reducesTo_S8x512x32000_S8x512_d2 h_S_),
    TRef.unary φ.v7 φ.v8 (broadcastInDim S8x512x1 ![0, 1] bcast_S8x512_S8x512x1_0_1),
    TRef.unary φ.v8 φ.v9 Host.log,
    TRef.unary φ.v9 φ.v10 (broadcastInDim S8x512x32000 ![0, 1, 2] bcast_S8x512x1_S8x512x32000_0_1_2),
    TRef.binary φ.v5 φ.v10 φ.v11 subf ]

/-! ### The log-softmax stretch of main_v0, in three pieces -/

/-- The logits main_v0 are not written by the first two operations. -/
theorem lsm0_P1_a (W : Valuation τ sig (Elt F)) :
    after (lsmP1 (.of main_v0) main_call0) W (Proc.devRef .tc main_v0) = W (Proc.devRef .tc main_v0) := by
  simp only [lsmP1]
  after_results

attribute [local irreducible] Host.reduce Host.reduceAdd in
set_option maxRecDepth 8192 in
set_option maxHeartbeats 1000000 in
/-- The row maxima against minus infinity (the moves between the buffers' contents types and the tensor types kept). -/
theorem lsm0_P1_v0 (W : Valuation τ sig (Elt F)) :
    after (lsmP1 (.of main_v0) main_call0) W (Proc.devRef .tc main_call0_v0)
      = (main_call0.v0).toBuf (Host.reduce FloatOps.maximumf ((.of main_v0 : TRef sig ⟨S8x512x32000, .f32⟩).ofBuf (W (Proc.devRef .tc main_v0)))
          ((main_call0.cst).ofBuf ((main_call0.cst).toBuf (constant S_ .f32 0xFF800000#32))) reducesTo_S8x512x32000_S8x512_d2 h_S_) := by
  simp only [lsmP1]
  after_results_simp <;> rfl

theorem toBuf_c0_v0_eq (t : C F S8x512 .f32) : (main_call0.v0).toBuf (Val := Elt F) t = t := rfl
theorem ofBuf_c0_cst_eq (t : C F S_ .f32) : (main_call0.cst).ofBuf (Val := Elt F) t = t := rfl
theorem toBuf_c0_cst_eq (t : C F S_ .f32) : (main_call0.cst).toBuf (Val := Elt F) t = t := rfl

attribute [local irreducible] Host.reduce Host.reduceAdd in
set_option maxRecDepth 8192 in
set_option maxHeartbeats 1000000 in
/-- The shifted logits, from the logits and the row maxima. -/
theorem lsm0_P2_v5 (W : Valuation τ sig (Elt F)) :
    after (lsmP2 (.of main_v0) main_call0) W (Proc.devRef .tc main_call0_v5)
      = subf (W (Proc.devRef .tc main_v0) : C F S8x512x32000 .f32) (broadcastInDim S8x512x32000 ![0, 1, 2] bcast_S8x512x1_S8x512x32000_0_1_2
          (broadcastInDim S8x512x1 ![0, 1] bcast_S8x512_S8x512x1_0_1
            (maximumf (broadcastInDim S8x512 ![] bcast_S_S8x512 (constant S_ .f32 0xFF800000#32))
              (W (Proc.devRef .tc main_call0_v0) : C F S8x512 .f32)))) := by
  simp only [lsmP2]
  after_results_simp <;> (try simp only [TRef.ofBuf, TRef.toBuf, cast_eq]) <;> rfl

attribute [local irreducible] Host.reduce Host.reduceAdd in
set_option maxRecDepth 8192 in
set_option maxHeartbeats 1000000 in
/-- The log-softmax, from the shifted logits. -/
theorem lsm0_P3_v11 (W : Valuation τ sig (Elt F)) :
    after (lsmP3 main_call0) W (Proc.devRef .tc main_v1)
      = subf (W (Proc.devRef .tc main_call0_v5) : C F S8x512x32000 .f32) (broadcastInDim S8x512x32000 ![0, 1, 2] bcast_S8x512x1_S8x512x32000_0_1_2
          (Host.log (broadcastInDim S8x512x1 ![0, 1] bcast_S8x512_S8x512x1_0_1
            (Host.reduceAdd (Host.exp (W (Proc.devRef .tc main_call0_v5) : C F S8x512x32000 .f32)) (constant S_ .f32 0x00000000#32)
              reducesTo_S8x512x32000_S8x512_d2 h_S_)))) := by
  simp only [lsmP3]
  after_results_simp <;> (try simp only [TRef.ofBuf, TRef.toBuf, cast_eq]) <;> rfl

/-- The logits, from the operand pair. -/
theorem dot0_v (W : Valuation τ sig (Elt F)) :
    after ([ binary main_arg0 main_arg3 main_v0 ((fun l r => Host.dotGeneral dot_S8x512x2048_S32000x2048_S8x512x32000_2_1_01_0_n_n none l r) : C F S8x512x2048 .f32 → C F S32000x2048 .f32 → C F S8x512x32000 .f32) ] : List (HloOp τ sig (Elt F))) W (Proc.devRef .tc main_v0)
      = Host.dotGeneral dot_S8x512x2048_S32000x2048_S8x512x32000_2_1_01_0_n_n none (W (Proc.devRef .tc main_arg0)) (W (Proc.devRef .tc main_arg3)) := by
  after_results

attribute [local irreducible] Host.reduce Host.reduceAdd in
set_option maxRecDepth 8192 in
set_option maxHeartbeats 1000000 in
/-- After the log-softmax stretch its result buffer holds the log-softmax of the pair's logits. -/
theorem A1_v1_plain (W : Valuation τ sig (Elt F)) :
    after opsA1 W (Proc.devRef .tc main_v1)
      = lsmOf (F := F) (Host.dotGeneral dot_S8x512x2048_S32000x2048_S8x512x32000_2_1_01_0_n_n none
          (W (Proc.devRef .tc main_arg0)) (W (Proc.devRef .tc main_arg3))) := by
  show after ([ binary main_arg0 main_arg3 main_v0 ((fun l r => Host.dotGeneral dot_S8x512x2048_S32000x2048_S8x512x32000_2_1_01_0_n_n none l r) : C F S8x512x2048 .f32 → C F S32000x2048 .f32 → C F S8x512x32000 .f32) ]
      ++ (lsmP1 (.of main_v0) main_call0 ++ (lsmP2 (.of main_v0) main_call0 ++ lsmP3 main_call0))) W (Proc.devRef .tc main_v1) = _
  rw [after_append, after_append, after_append, lsm0_P3_v11, lsm0_P2_v5, lsm0_P1_a, lsm0_P1_v0, dot0_v,
    toBuf_c0_v0_eq, ofBuf_c0_cst_eq, toBuf_c0_cst_eq, ofBuf_v0_eq]
  rfl

/-! ### The log-softmax stretch of main_v16, in three pieces -/

/-- The logits main_v16 are not written by the first two operations. -/
theorem lsm4_P1_a (W : Valuation τ sig (Elt F)) :
    after (lsmP1 (.of main_v16) main_call4) W (Proc.devRef .tc main_v16) = W (Proc.devRef .tc main_v16) := by
  simp only [lsmP1]
  after_results

attribute [local irreducible] Host.reduce Host.reduceAdd in
set_option maxRecDepth 8192 in
set_option maxHeartbeats 1000000 in
/-- The row maxima against minus infinity (the moves between the buffers' contents types and the tensor types kept). -/
theorem lsm4_P1_v0 (W : Valuation τ sig (Elt F)) :
    after (lsmP1 (.of main_v16) main_call4) W (Proc.devRef .tc main_call4_v0)
      = (main_call4.v0).toBuf (Host.reduce FloatOps.maximumf ((.of main_v16 : TRef sig ⟨S8x512x32000, .f32⟩).ofBuf (W (Proc.devRef .tc main_v16)))
          ((main_call4.cst).ofBuf ((main_call4.cst).toBuf (constant S_ .f32 0xFF800000#32))) reducesTo_S8x512x32000_S8x512_d2 h_S_) := by
  simp only [lsmP1]
  after_results_simp <;> rfl

theorem toBuf_c4_v0_eq (t : C F S8x512 .f32) : (main_call4.v0).toBuf (Val := Elt F) t = t := rfl
theorem ofBuf_c4_cst_eq (t : C F S_ .f32) : (main_call4.cst).ofBuf (Val := Elt F) t = t := rfl
theorem toBuf_c4_cst_eq (t : C F S_ .f32) : (main_call4.cst).toBuf (Val := Elt F) t = t := rfl

attribute [local irreducible] Host.reduce Host.reduceAdd in
set_option maxRecDepth 8192 in
set_option maxHeartbeats 1000000 in
/-- The shifted logits, from the logits and the row maxima. -/
theorem lsm4_P2_v5 (W : Valuation τ sig (Elt F)) :
    after (lsmP2 (.of main_v16) main_call4) W (Proc.devRef .tc main_call4_v5)
      = subf (W (Proc.devRef .tc main_v16) : C F S8x512x32000 .f32) (broadcastInDim S8x512x32000 ![0, 1, 2] bcast_S8x512x1_S8x512x32000_0_1_2
          (broadcastInDim S8x512x1 ![0, 1] bcast_S8x512_S8x512x1_0_1
            (maximumf (broadcastInDim S8x512 ![] bcast_S_S8x512 (constant S_ .f32 0xFF800000#32))
              (W (Proc.devRef .tc main_call4_v0) : C F S8x512 .f32)))) := by
  simp only [lsmP2]
  after_results_simp <;> (try simp only [TRef.ofBuf, TRef.toBuf, cast_eq]) <;> rfl

attribute [local irreducible] Host.reduce Host.reduceAdd in
set_option maxRecDepth 8192 in
set_option maxHeartbeats 1000000 in
/-- The log-softmax, from the shifted logits. -/
theorem lsm4_P3_v11 (W : Valuation τ sig (Elt F)) :
    after (lsmP3 main_call4) W (Proc.devRef .tc main_v17)
      = subf (W (Proc.devRef .tc main_call4_v5) : C F S8x512x32000 .f32) (broadcastInDim S8x512x32000 ![0, 1, 2] bcast_S8x512x1_S8x512x32000_0_1_2
          (Host.log (broadcastInDim S8x512x1 ![0, 1] bcast_S8x512_S8x512x1_0_1
            (Host.reduceAdd (Host.exp (W (Proc.devRef .tc main_call4_v5) : C F S8x512x32000 .f32)) (constant S_ .f32 0x00000000#32)
              reducesTo_S8x512x32000_S8x512_d2 h_S_)))) := by
  simp only [lsmP3]
  after_results_simp <;> (try simp only [TRef.ofBuf, TRef.toBuf, cast_eq]) <;> rfl

/-- The logits, from the operand pair. -/
theorem dot4_v (W : Valuation τ sig (Elt F)) :
    after ([ binary main_arg1 main_arg4 main_v16 ((fun l r => Host.dotGeneral dot_S8x512x2048_S32000x2048_S8x512x32000_2_1_01_0_n_n none l r) : C F S8x512x2048 .f32 → C F S32000x2048 .f32 → C F S8x512x32000 .f32) ] : List (HloOp τ sig (Elt F))) W (Proc.devRef .tc main_v16)
      = Host.dotGeneral dot_S8x512x2048_S32000x2048_S8x512x32000_2_1_01_0_n_n none (W (Proc.devRef .tc main_arg1)) (W (Proc.devRef .tc main_arg4)) := by
  after_results

attribute [local irreducible] Host.reduce Host.reduceAdd in
set_option maxRecDepth 8192 in
set_option maxHeartbeats 1000000 in
/-- After the log-softmax stretch its result buffer holds the log-softmax of the pair's logits. -/
theorem C1_v17_plain (W : Valuation τ sig (Elt F)) :
    after opsC1 W (Proc.devRef .tc main_v17)
      = lsmOf (F := F) (Host.dotGeneral dot_S8x512x2048_S32000x2048_S8x512x32000_2_1_01_0_n_n none
          (W (Proc.devRef .tc main_arg1)) (W (Proc.devRef .tc main_arg4))) := by
  show after ([ binary main_arg1 main_arg4 main_v16 ((fun l r => Host.dotGeneral dot_S8x512x2048_S32000x2048_S8x512x32000_2_1_01_0_n_n none l r) : C F S8x512x2048 .f32 → C F S32000x2048 .f32 → C F S8x512x32000 .f32) ]
      ++ (lsmP1 (.of main_v16) main_call4 ++ (lsmP2 (.of main_v16) main_call4 ++ lsmP3 main_call4))) W (Proc.devRef .tc main_v17) = _
  rw [after_append, after_append, after_append, lsm4_P3_v11, lsm4_P2_v5, lsm4_P1_a, lsm4_P1_v0, dot4_v,
    toBuf_c4_v0_eq, ofBuf_c4_cst_eq, toBuf_c4_cst_eq, ofBuf_v16_eq]
  rfl

set_option maxRecDepth 8192 in
set_option maxHeartbeats 1000000 in
/-- After the first log-softmax stretch its result buffer holds the log-softmax of the first pair's logits (the moves
    between the buffers' contents types and the tensor type kept at the stretch's input and output). -/
theorem A1_v1 (W : Valuation τ sig (Elt F)) :
    after opsA1 W (Proc.devRef .tc main_v1)
      = (.of main_v1 : TRef sig ⟨S8x512x32000, .f32⟩).toBuf
          (lsmOf (F := F) ((.of main_v0 : TRef sig ⟨S8x512x32000, .f32⟩).ofBuf
            (Host.dotGeneral dot_S8x512x2048_S32000x2048_S8x512x32000_2_1_01_0_n_n none
              (W (Proc.devRef .tc main_arg0)) (W (Proc.devRef .tc main_arg3))))) := by
  rw [toBuf_v1_eq, ofBuf_v0_eq]
  exact A1_v1_plain W

set_option maxRecDepth 8192 in
set_option maxHeartbeats 1000000 in
/-- After the second log-softmax stretch its result buffer holds the log-softmax of the second pair's logits. -/
theorem C1_v17 (W : Valuation τ sig (Elt F)) :
    after opsC1 W (Proc.devRef .tc main_v17)
      = (.of main_v17 : TRef sig ⟨S8x512x32000, .f32⟩).toBuf
          (lsmOf (F := F) ((.of main_v16 : TRef sig ⟨S8x512x32000, .f32⟩).ofBuf
            (Host.dotGeneral dot_S8x512x2048_S32000x2048_S8x512x32000_2_1_01_0_n_n none
              (W (Proc.devRef .tc main_arg1)) (W (Proc.devRef .tc main_arg4))))) := by
  rw [toBuf_v17_eq, ofBuf_v16_eq]
  exact C1_v17_plain W

attribute [local irreducible] Host.reduce Host.reduceAdd Host.gather in
set_option maxRecDepth 8192 in
set_option maxHeartbeats 1000000 in
/-- After the first mask-and-index stretch the mask buffer holds the mask of the labels. -/
theorem A2_v3 (W : Valuation τ sig (Elt F)) :
    after opsA2 W (Proc.devRef .tc main_v3) = maskOf (F := F) (W (Proc.devRef .tc main_arg2)) := by
  simp only [opsA2, whereOps, List.cons_append, List.nil_append]
  after_results_simp <;> (try simp only [TRef.ofBuf, TRef.toBuf, cast_eq]) <;> rfl

attribute [local irreducible] Host.reduce Host.reduceAdd Host.gather in
set_option maxRecDepth 8192 in
set_option maxHeartbeats 1000000 in
/-- After the first mask-and-index stretch the index buffer holds the label, 0 where it is ignored, with a unit axis. -/
theorem A2_v5 (W : Valuation τ sig (Elt F)) :
    after opsA2 W (Proc.devRef .tc main_v5)
      = broadcastInDim S8x512x1 ![0, 1] bcast_S8x512_S8x512x1_0_1
          (select (maskOf (F := F) (W (Proc.devRef .tc main_arg2))) (W (Proc.devRef .tc main_arg2) : C F S8x512 .i32)
            (broadcastInDim S8x512 ![] bcast_S_S8x512 (id (constantI S_ 32 0#32)))) := by
  simp only [opsA2, whereOps, List.cons_append, List.nil_append]
  after_results_simp <;> (try simp only [TRef.ofBuf, TRef.toBuf, cast_eq]) <;> rfl

attribute [local irreducible] Host.reduce Host.reduceAdd Host.gather in
set_option maxRecDepth 8192 in
set_option maxHeartbeats 1000000 in
/-- After the first gather stretch the per-token buffer holds the gathered entries, one per token. -/
theorem A3_v7 (W : Valuation τ sig (Elt F)) :
    after opsA3 W (Proc.devRef .tc main_v7)
      = shapeCast S8x512 (takeOf (F := F) (W (Proc.devRef .tc main_v1)) (W (Proc.devRef .tc main_v5)))
          shapeCasts_S8x512x1_S8x512 := by
  simp only [opsA3, takeOps, List.cons_append, List.nil_append]
  after_results_simp <;> (try simp only [TRef.ofBuf, TRef.toBuf, cast_eq]) <;> rfl

attribute [local irreducible] Host.reduce Host.reduceAdd in
set_option maxRecDepth 8192 in
set_option maxHeartbeats 1000000 in
/-- After the first row-means stretch the row-mean buffer holds the masked mean of the per-token buffer. -/
theorem B_v15 (W : Valuation τ sig (Elt F)) :
    after opsB W (Proc.devRef .tc main_v15)
      = meanOf (F := F) (W (Proc.devRef .tc main_v3)) (W (Proc.devRef .tc main_v7)) := by
  simp only [opsB, where0Ops, List.cons_append, List.nil_append]
  after_results_simp <;> (try simp only [TRef.ofBuf, TRef.toBuf, cast_eq]) <;> rfl

attribute [local irreducible] Host.reduce Host.reduceAdd Host.gather in
set_option maxRecDepth 8192 in
set_option maxHeartbeats 1000000 in
/-- After the second mask-and-index stretch the second mask buffer holds the mask of the labels. -/
theorem C2_v19 (W : Valuation τ sig (Elt F)) :
    after opsC2 W (Proc.devRef .tc main_v19) = maskOf (F := F) (W (Proc.devRef .tc main_arg2)) := by
  simp only [opsC2, whereOps, List.cons_append, List.nil_append]
  after_results_simp <;> (try simp only [TRef.ofBuf, TRef.toBuf, cast_eq]) <;> rfl

attribute [local irreducible] Host.reduce Host.reduceAdd Host.gather in
set_option maxRecDepth 8192 in
set_option maxHeartbeats 1000000 in
/-- After the second mask-and-index stretch the second index buffer holds the label, 0 where it is ignored. -/
theorem C2_v21 (W : Valuation τ sig (Elt F)) :
    after opsC2 W (Proc.devRef .tc main_v21)
      = broadcastInDim S8x512x1 ![0, 1] bcast_S8x512_S8x512x1_0_1
          (select (maskOf (F := F) (W (Proc.devRef .tc main_arg2))) (W (Proc.devRef .tc main_arg2) : C F S8x512 .i32)
            (broadcastInDim S8x512 ![] bcast_S_S8x512 (id (constantI S_ 32 0#32)))) := by
  simp only [opsC2, whereOps, List.cons_append, List.nil_append]
  after_results_simp <;> (try simp only [TRef.ofBuf, TRef.toBuf, cast_eq]) <;> rfl

attribute [local irreducible] Host.reduce Host.reduceAdd Host.gather in
set_option maxRecDepth 8192 in
set_option maxHeartbeats 1000000 in
/-- After the second gather stretch the second per-token buffer holds the gathered entries, one per token. -/
theorem C3_v23 (W : Valuation τ sig (Elt F)) :
    after opsC3 W (Proc.devRef .tc main_v23)
      = shapeCast S8x512 (takeOf (F := F) (W (Proc.devRef .tc main_v17)) (W (Proc.devRef .tc main_v21)))
          shapeCasts_S8x512x1_S8x512 := by
  simp only [opsC3, takeOps, List.cons_append, List.nil_append]
  after_results_simp <;> (try simp only [TRef.ofBuf, TRef.toBuf, cast_eq]) <;> rfl

attribute [local irreducible] Host.reduce Host.reduceAdd in
set_option maxRecDepth 8192 in
set_option maxHeartbeats 1000000 in
/-- After the second row-means stretch the second row-mean buffer holds the masked mean of the second per-token buffer. -/
theorem D_v31 (W : Valuation τ sig (Elt F)) :
    after opsD W (Proc.devRef .tc main_v31)
      = meanOf (F := F) (W (Proc.devRef .tc main_v19)) (W (Proc.devRef .tc main_v23)) := by
  simp only [opsD, where0Ops, List.cons_append, List.nil_append]
  after_results_simp <;> (try simp only [TRef.ofBuf, TRef.toBuf, cast_eq]) <;> rfl

attribute [local irreducible] Host.reduce Host.reduceAdd in
set_option maxRecDepth 8192 in
set_option maxHeartbeats 1000000 in
/-- After the loss stretch the result buffer holds the loss of the two row means. -/
theorem E_v44 (W : Valuation τ sig (Elt F)) :
    after opsE W (Proc.devRef .tc main_v44)
      = lossOf (F := F) (W (Proc.devRef .tc main_v15)) (W (Proc.devRef .tc main_v31)) := by
  simp only [opsE, softplusOps, logSigmoidOps, List.cons_append, List.nil_append]
  after_results_simp <;> (try simp only [TRef.ofBuf, TRef.toBuf, cast_eq]) <;> rfl

/-! ## The whole line -/

/-- The line's fold is the stretches' folds, one after the other. -/
theorem after_ops (V : Valuation τ sig (Elt F)) :
    after ops V = after opsE (after opsD (after opsC3 (after opsC2 (after opsC1 (after opsB (after opsA3 (after opsA2
      (after opsA1 V)))))))) := by
  simp only [ops, after_append]

/-- The result buffer after the whole line: the loss term of the arguments. Each read is taken back through the
    stretches to the one that wrote it, and an argument's to the launch contents. -/
theorem out_eq (V : Valuation τ sig (Elt F)) :
    after ops V (Proc.devRef .tc main_v44)
      = tailOf (F := F) (maskOf (F := F) (V (Proc.devRef .tc main_arg2)))
          (refTok (F := F) (V (Proc.devRef .tc main_arg0)) (V (Proc.devRef .tc main_arg3)) (V (Proc.devRef .tc main_arg2)))
          (refTok (F := F) (V (Proc.devRef .tc main_arg1)) (V (Proc.devRef .tc main_arg4)) (V (Proc.devRef .tc main_arg2))) := by
  rw [after_ops, E_v44,
    D_keep _ main_v15 (by decide), C3_keep _ main_v15 (by decide), C2_keep _ main_v15 (by decide),
    C1_keep _ main_v15 (by decide), B_v15,
    A3_keep _ main_v3 (by decide), A2_v3, A3_v7, A2_keep _ main_v1 (by decide), A1_v1, A2_v5,
    D_v31, C3_keep _ main_v19 (by decide), C2_v19, C3_v23, C2_keep _ main_v17 (by decide), C1_v17, C2_v21,
    C1_keep _ main_arg2 (by decide), B_keep _ main_arg2 (by decide), A3_keep _ main_arg2 (by decide),
    A2_keep _ main_arg2 (by decide), A1_keep _ main_arg2 (by decide),
    B_keep _ main_arg1 (by decide), A3_keep _ main_arg1 (by decide), A2_keep _ main_arg1 (by decide),
    A1_keep _ main_arg1 (by decide),
    B_keep _ main_arg4 (by decide), A3_keep _ main_arg4 (by decide), A2_keep _ main_arg4 (by decide),
    A1_keep _ main_arg4 (by decide),
    toBuf_v1_eq, ofBuf_v0_eq, toBuf_v17_eq, ofBuf_v16_eq]
  rfl

/-- A buffer no stretch writes keeps its contents through the whole line. -/
theorem keep_eq (V : Valuation τ sig (Elt F)) (r : Ref sig .tc) (hA1 : r ∉ opsA1_W) (hA2 : r ∉ opsA2_W) (hA3 : r ∉ opsA3_W)
    (hB : r ∉ opsB_W) (hC1 : r ∉ opsC1_W) (hC2 : r ∉ opsC2_W) (hC3 : r ∉ opsC3_W) (hD : r ∉ opsD_W) (hE : r ∉ opsE_W) :
    after ops V (Proc.devRef .tc r) = V (Proc.devRef .tc r) := by
  rw [after_ops, E_keep _ r hE, D_keep _ r hD, C3_keep _ r hC3, C2_keep _ r hC2, C1_keep _ r hC1, B_keep _ r hB,
    A3_keep _ r hA3, A2_keep _ r hA2, A1_keep _ r hA1]

/-- On every device, for any float values, from any memory with zero counters: every weakly fair execution of @main
    terminates with the result at the loss term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v44)
        = tailOf (F := F) (maskOf (F := F) (m ((c.tc : Thread nD τ).loc main_arg2)))
            (refTok (F := F) (m ((c.tc : Thread nD τ).loc main_arg0)) (m ((c.tc : Thread nD τ).loc main_arg3))
              (m ((c.tc : Thread nD τ).loc main_arg2)))
            (refTok (F := F) (m ((c.tc : Thread nD τ).loc main_arg1)) (m ((c.tc : Thread nD τ).loc main_arg4))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v44).trans (out_eq _),
      (h c main_arg0).trans (keep_eq _ main_arg0 (by decide) (by decide) (by decide) (by decide) (by decide) (by decide)
        (by decide) (by decide) (by decide)),
      (h c main_arg1).trans (keep_eq _ main_arg1 (by decide) (by decide) (by decide) (by decide) (by decide) (by decide)
        (by decide) (by decide) (by decide)),
      (h c main_arg2).trans (keep_eq _ main_arg2 (by decide) (by decide) (by decide) (by decide) (by decide) (by decide)
        (by decide) (by decide) (by decide)),
      (h c main_arg3).trans (keep_eq _ main_arg3 (by decide) (by decide) (by decide) (by decide) (by decide) (by decide)
        (by decide) (by decide) (by decide)),
      (h c main_arg4).trans (keep_eq _ main_arg4 (by decide) (by decide) (by decide) (by decide) (by decide) (by decide)
        (by decide) (by decide) (by decide))⟩)
    (run_seq scopedRefs_eq scopedSems_eq defs main (fun _ => ops) main_eq (fun _ => ops_sub) m ρ (fun _ => ops_fresh))

end Cert.ReferenceIdeal.Hand

end
-- ==== Proof.Spec.lean ====
/-
  The mathematical content both programs compute, stated once over the extended reals and over literal shapes.
  A token (b, t) of the batch has a hidden row x[b, t, ·] and a label y; its logit against vocabulary row j is the
  inner product of that row with W[j, ·]; its log-probability is the label's logit minus the logarithm of the sum of the
  exponentials of all 32000 logits. The fused kernel accumulates that sum of exponentials and the label's logit over 25
  vocabulary tiles of 1280 columns; the reference subtracts the row maximum first (log_softmax) and gathers afterwards.
-/
import Idealize.ShloMosaic.PureOps.Ideal
import Idealize.ShloMosaic.Lib.ValueIdx

noncomputable section

open scoped BigOperators

namespace Cert.Spec

open Idealize.ShloMosaic Idealize.ShloMosaic.ValueIdx

/-- The hidden states as the entry point receives them, [8, 512, 2048]. -/
abbrev SX : Shape := ⟨3, ![8, 512, 2048]⟩
/-- The projection matrix, [32000, 2048]. -/
abbrev SW : Shape := ⟨2, ![32000, 2048]⟩
/-- The labels and the per-token results, [8, 512]. -/
abbrev SY : Shape := ⟨2, ![8, 512]⟩

/-- The logit of token (b, t) against vocabulary row j: the inner product over the 2048 hidden coordinates. -/
def logit (x : SX.Idx → EReal) (w : SW.Idx → EReal) (b : Fin 8) (t : Fin 512) (j : Fin 32000) : EReal :=
  ∑ k : Fin 2048, x (ix3 b t k) * w (ix2 j k)

/-- The sum of the exponentials of a token's 32000 logits. -/
def sumExp (x : SX.Idx → EReal) (w : SW.Idx → EReal) (b : Fin 8) (t : Fin 512) : EReal :=
  ∑ j : Fin 32000, Ideal.exp (logit x w b t j)

/-- The log-probability of class j for token (b, t): its logit minus the log-sum-exp of the token's logits. -/
def tokLogp (x : SX.Idx → EReal) (w : SW.Idx → EReal) (b : Fin 8) (t : Fin 512) (j : Fin 32000) : EReal :=
  logit x w b t j - Ideal.log (sumExp x w b t)

/-- A label is admissible when it is the ignore marker -100 or a class index below 32000. -/
def LabelOk (y : BitVec 32) : Prop := y = 4294967196#32 ∨ y.toNat < 32000

end Cert.Spec

end
-- ==== Proof.LibKeepdims.lean ====
/-
  Column layouts read at an index: a vector [a] viewed as a column [a, 1], a column [a, 1] viewed as a
  vector [a], and a column [a, 1] broadcast along rows to [a, b] (what a reduction with kept dimensions
  produces and consumes). Each reads the operand at the row coordinate, the unit coordinate being 0.
-/
import Idealize.ShloMosaic.Lib.ValueIdx
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPay.lean ====
/-
  The kernel body's arithmetic read at an index, at the extended reals. Per kernel: the logit tile is the block product of the
  hidden rows with the projection rows; the two scratch columns gain, per vocabulary tile of 1280 lanes, the label's logit (the
  lane whose number is the label less the tile's base) and the sum of the exponentials of the tile's logits; the result column is
  the label's logit less the logarithm of the sum of exponentials. Both kernels have the same body.
-/
import proofs.«407363_j58059367907835_3_alg».proof.Proof.Gen.KernelIdeal.Skeleton
import proofs.«407363_j58059367907835_3_alg».proof.Proof.Spec
import proofs.«407363_j58059367907835_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- Every index of a [2048, 1] column is (row, 0). -/
theorem eq_ix2_col (j : S2048x1.Idx) : j = ix2 (j 0) 0 := by
  funext a
  match a with
  | ⟨0, _⟩ => rfl
  | ⟨1, _⟩ => exact Fin.ext (by have := idx2_lt1 (n0 := 2048) (n1 := 1) j; show (j 1).val = 0; omega)

/-- The product's left operand index: its row is the output's row … -/
theorem lhs_dot_0 (j : S2048x1280.Idx) (k : dot_S2048x2048_S1280x2048_S2048x1280_1_1_0_0_n_n.contr.Idx) :
    ((dot_S2048x2048_S1280x2048_S2048x1280_1_1_0_0_n_n.lhsIdx j k) 0 : ℕ) = (j 0 : ℕ) := by
  unfold DotDims.lhsIdx
  rw [dif_neg (show ¬(0 : Fin S2048x2048.rank) ∈ dot_S2048x2048_S1280x2048_S2048x1280_1_1_0_0_n_n.lhsBatch by decide),
    dif_pos (show (0 : Fin S2048x2048.rank) ∈ dot_S2048x2048_S1280x2048_S2048x1280_1_1_0_0_n_n.lhsNonContracting by decide)]
  rfl

/-- … and its column is the contraction position. -/
theorem lhs_dot_1 (j : S2048x1280.Idx) (k : dot_S2048x2048_S1280x2048_S2048x1280_1_1_0_0_n_n.contr.Idx) :
    ((dot_S2048x2048_S1280x2048_S2048x1280_1_1_0_0_n_n.lhsIdx j k) 1 : ℕ) = (k ⟨0, by decide⟩ : ℕ) :=
  dot_S2048x2048_S1280x2048_S2048x1280_1_1_0_0_n_n.lhsIdx_val_of_single (cl := 1) rfl j k

/-- The product's right operand index: its row is the output's column … -/
theorem rhs_dot_0 (j : S2048x1280.Idx) (k : dot_S2048x2048_S1280x2048_S2048x1280_1_1_0_0_n_n.contr.Idx) :
    ((dot_S2048x2048_S1280x2048_S2048x1280_1_1_0_0_n_n.rhsIdx j k) 0 : ℕ) = (j 1 : ℕ) := by
  unfold DotDims.rhsIdx
  rw [dif_neg (show ¬(0 : Fin S1280x2048.rank) ∈ dot_S2048x2048_S1280x2048_S2048x1280_1_1_0_0_n_n.rhsBatch by decide),
    dif_pos (show (0 : Fin S1280x2048.rank) ∈ dot_S2048x2048_S1280x2048_S2048x1280_1_1_0_0_n_n.rhsNonContracting by decide)]
  rfl

/-- … and its column is the contraction position. -/
theorem rhs_dot_1 (j : S2048x1280.Idx) (k : dot_S2048x2048_S1280x2048_S2048x1280_1_1_0_0_n_n.contr.Idx) :
    ((dot_S2048x2048_S1280x2048_S2048x1280_1_1_0_0_n_n.rhsIdx j k) 1 : ℕ) = (k ⟨0, by decide⟩ : ℕ) :=
  dot_S2048x2048_S1280x2048_S2048x1280_1_1_0_0_n_n.rhsIdx_val_of_single (cr := 1) rfl j k

/-- The source index of the lane sum over row `q` at lane `c`. -/
theorem lift_row (q : Fin 2048) (c : Fin 1280) :
    (reduces_S2048x1280_S2048).lift (ix1 q) c = ix2 q c := by
  funext a
  apply Fin.ext
  match a with
  | ⟨0, h0⟩ =>
    show (reduces_S2048x1280_S2048).liftVal (ix1 q) c.val ⟨0, h0⟩ = q.val
    simp [Shape.Reduces.liftVal]
  | ⟨1, h1⟩ =>
    show (reduces_S2048x1280_S2048).liftVal (ix1 q) c.val ⟨1, h1⟩ = c.val
    simp [Shape.Reduces.liftVal]

/-- A select on the bit of an equality test is the choice by that equality. -/
theorem select_cmpi_eq {α : Type} (u v : BitVec 32) (A B : α) :
    Scalar.select (IntOp.cmpi .eq u v) A B = if u = v then A else B := by
  unfold Scalar.select IntOp.cmpi
  by_cases h : u = v
  · subst h; simp
  · have hb : (u == v) = false := by simpa using h
    simp [hb, h]

/-- A column's lane sum: the sum over the 1280 lanes of row `q`. -/
theorem rowsum_apply (v : FVec Ideal S2048x1280 .f32) (hφ : FKind.Formats .f32)
    (hacc : (0x00000000#32 : BitVec 32) = 0x00000000#32) (q : Fin 2048) :
    shapeCast S2048x1 (multiReduction (F := Ideal) .add [1] S2048 v 0x00000000#32 reduces_S2048x1280_S2048 hφ hacc)
      shapeCasts_S2048_S2048x1 (ix2 q 0) = ∑ c : Fin 1280, v (ix2 q c) := by
  refine (shapeCast_a_a1_apply _ _ q 0).trans ?_
  refine (Ideal.multiReduction_add_single v 0x00000000#32 reduces_S2048x1280_S2048 hφ hacc (ix1 q)).trans ?_
  exact Finset.sum_congr rfl fun c _ => congrArg v (lift_row q c)

/-- The lane test in arithmetic: label word `y`, tile `v` of 25, lane `c` of 1280 — the test holds exactly when the label is
    class `v * 1280 + c` (for every word `y`: a word below the tile's base wraps far above every lane). -/
theorem tile_cond_iff (y : BitVec 32) (v c : ℕ) (hv : v < 25) (hc : c < 1280) :
    y - BitVec.ofNat 32 v * 1280#32 = BitVec.ofNat 32 c ↔ y.toNat = v * 1280 + c := by
  have hy := y.isLt
  rw [← BitVec.toNat_inj, BitVec.toNat_sub, BitVec.toNat_mul]
  simp only [BitVec.toNat_ofNat]
  omega

/-! ## Kernel 0 -/

/-- Kernel 0's logit tile: entry (q, c) is the inner product of row `q` of the hidden block with row `c` of the projection block. -/
theorem pay4_apply (w : Vec Ideal S1280x2048 .f32) (x : Vec Ideal S2048x2048 .bf16) (q : Fin 2048) (c : Fin 1280) :
    k0_pay4 (F := Ideal) w x (ix2 q c) = ∑ k : Fin 2048, x (ix2 q k) * w (ix2 c k) := by
  unfold k0_pay4
  simp only [matmul]
  rw [Ideal.matmul_constant_zero_apply, ← Equiv.sum_comp (contrEquiv1 dot_S2048x2048_S1280x2048_S2048x1280_1_1_0_0_n_n 2048 rfl rfl).symm]
  refine Finset.sum_congr rfl fun k _ => ?_
  have hl : dot_S2048x2048_S1280x2048_S2048x1280_1_1_0_0_n_n.lhsIdx (ix2 q c) ((contrEquiv1 dot_S2048x2048_S1280x2048_S2048x1280_1_1_0_0_n_n 2048 rfl rfl).symm k) = ix2 q k := by
    funext a
    apply Fin.ext
    match a with
    | ⟨0, _⟩ => exact lhs_dot_0 _ _
    | ⟨1, _⟩ => exact (lhs_dot_1 _ _).trans (contrEquiv1_symm_val dot_S2048x2048_S1280x2048_S2048x1280_1_1_0_0_n_n 2048 rfl rfl k)
  have hr : dot_S2048x2048_S1280x2048_S2048x1280_1_1_0_0_n_n.rhsIdx (ix2 q c) ((contrEquiv1 dot_S2048x2048_S1280x2048_S2048x1280_1_1_0_0_n_n 2048 rfl rfl).symm k) = ix2 c k := by
    funext a
    apply Fin.ext
    match a with
    | ⟨0, _⟩ => exact rhs_dot_0 _ _
    | ⟨1, _⟩ => exact (rhs_dot_1 _ _).trans (contrEquiv1_symm_val dot_S2048x2048_S1280x2048_S2048x1280_1_1_0_0_n_n 2048 rfl rfl k)
  rw [hl, hr, shapeCast_self, truncf_apply]

/-- Kernel 0's label-logit column after a tile: the previous column plus the lanes of row `q` whose number is the label less the tile's base. -/
theorem pay5_apply (i : grid0.Coords) (w : Vec Ideal S1280x2048 .f32) (x : Vec Ideal S2048x2048 .bf16)
    (y : Vec Ideal S2048x1 .i32) (t : Vec Ideal S2048x1 .f32) (q : Fin 2048) :
    k0_pay5 (F := Ideal) i w x y t (ix2 q 0) = t (ix2 q 0) + ∑ c : Fin 1280,
      (if y (ix2 q 0) - BitVec.ofNat 32 (i 1).val * 1280#32 = BitVec.ofNat 32 c.val then k0_pay4 (F := Ideal) w x (ix2 q c) else 0) := by
  unfold k0_pay5
  dsimp only
  rw [shapeCast_self, addf_apply]
  refine congrArg (t (ix2 q 0) + ·) ((rowsum_apply _ _ _ q).trans (Finset.sum_congr rfl fun c _ => ?_))
  rw [select_apply]
  show Scalar.select (IntOp.cmpi .eq _ _) _ _ = _
  rw [select_cmpi_eq, broadcastTo_a1_ab_apply, broadcastTo_1b_ab_apply, iota_single_apply, broadcast_apply]
  show (if IntOp.subi (shapeCast S2048x1 y shapeCasts_S2048x1_S2048x1 (ix2 q 0)) (Scalar.muli (BitVec.ofNat 32 (i 1).val) 1280#32) = BitVec.ofNat 32 c.val then _ else Ideal.ofBits .f32 0x00000000#32) = _
  rw [shapeCast_self, Ideal.ofBits_zero_f32]
  rfl

/-- Kernel 0's sum-of-exponentials column after a tile: the previous column plus the sum of the exponentials of row `q`'s 1280 logits. -/
theorem pay6_apply (w : Vec Ideal S1280x2048 .f32) (x : Vec Ideal S2048x2048 .bf16) (l : Vec Ideal S2048x1 .f32) (q : Fin 2048) :
    k0_pay6 (F := Ideal) w x l (ix2 q 0) = l (ix2 q 0) + ∑ c : Fin 1280, Ideal.exp (k0_pay4 (F := Ideal) w x (ix2 q c)) := by
  unfold k0_pay6
  dsimp only
  rw [shapeCast_self, addf_apply]
  exact congrArg (l (ix2 q 0) + ·) (rowsum_apply _ _ _ q)

/-- Kernel 0's result column: the label's logit less the logarithm of the sum of exponentials. -/
theorem pay1_apply (t l : Vec Ideal S2048x1 .f32) (q : Fin 2048) :
    k0_pay1 (F := Ideal) t l (ix2 q 0) = t (ix2 q 0) - Ideal.log (l (ix2 q 0)) := by
  unfold k0_pay1
  rw [subf_apply]
  rfl

/-- Kernel 0's first zero column. -/
theorem pay2_apply (q : Fin 2048) : k0_pay2 (F := Ideal) (ix2 q 0) = 0 := by
  unfold k0_pay2
  rw [shapeCast_self, broadcast_apply]
  exact Ideal.ofBits_zero_f32

/-- Kernel 0's second zero column. -/
theorem pay3_apply (q : Fin 2048) : k0_pay3 (F := Ideal) (ix2 q 0) = 0 := by
  unfold k0_pay3
  rw [shapeCast_self, broadcast_apply]
  exact Ideal.ofBits_zero_f32

/-! ## Kernel 1 (the same body) -/

/-- Kernel 1's logit tile: entry (q, c) is the inner product of row `q` of the hidden block with row `c` of the projection block. -/
theorem k1_pay4_apply (w : Vec Ideal S1280x2048 .f32) (x : Vec Ideal S2048x2048 .bf16) (q : Fin 2048) (c : Fin 1280) :
    k1_pay4 (F := Ideal) w x (ix2 q c) = ∑ k : Fin 2048, x (ix2 q k) * w (ix2 c k) := by
  unfold k1_pay4
  simp only [matmul]
  rw [Ideal.matmul_constant_zero_apply, ← Equiv.sum_comp (contrEquiv1 dot_S2048x2048_S1280x2048_S2048x1280_1_1_0_0_n_n 2048 rfl rfl).symm]
  refine Finset.sum_congr rfl fun k _ => ?_
  have hl : dot_S2048x2048_S1280x2048_S2048x1280_1_1_0_0_n_n.lhsIdx (ix2 q c) ((contrEquiv1 dot_S2048x2048_S1280x2048_S2048x1280_1_1_0_0_n_n 2048 rfl rfl).symm k) = ix2 q k := by
    funext a
    apply Fin.ext
    match a with
    | ⟨0, _⟩ => exact lhs_dot_0 _ _
    | ⟨1, _⟩ => exact (lhs_dot_1 _ _).trans (contrEquiv1_symm_val dot_S2048x2048_S1280x2048_S2048x1280_1_1_0_0_n_n 2048 rfl rfl k)
  have hr : dot_S2048x2048_S1280x2048_S2048x1280_1_1_0_0_n_n.rhsIdx (ix2 q c) ((contrEquiv1 dot_S2048x2048_S1280x2048_S2048x1280_1_1_0_0_n_n 2048 rfl rfl).symm k) = ix2 c k := by
    funext a
    apply Fin.ext
    match a with
    | ⟨0, _⟩ => exact rhs_dot_0 _ _
    | ⟨1, _⟩ => exact (rhs_dot_1 _ _).trans (contrEquiv1_symm_val dot_S2048x2048_S1280x2048_S2048x1280_1_1_0_0_n_n 2048 rfl rfl k)
  rw [hl, hr, shapeCast_self, truncf_apply]

/-- Kernel 1's label-logit column after a tile: the previous column plus the lanes of row `q` whose number is the label less the tile's base. -/
theorem k1_pay5_apply (i : grid1.Coords) (w : Vec Ideal S1280x2048 .f32) (x : Vec Ideal S2048x2048 .bf16)
    (y : Vec Ideal S2048x1 .i32) (t : Vec Ideal S2048x1 .f32) (q : Fin 2048) :
    k1_pay5 (F := Ideal) i w x y t (ix2 q 0) = t (ix2 q 0) + ∑ c : Fin 1280,
      (if y (ix2 q 0) - BitVec.ofNat 32 (i 1).val * 1280#32 = BitVec.ofNat 32 c.val then k1_pay4 (F := Ideal) w x (ix2 q c) else 0) := by
  unfold k1_pay5
  dsimp only
  rw [shapeCast_self, addf_apply]
  refine congrArg (t (ix2 q 0) + ·) ((rowsum_apply _ _ _ q).trans (Finset.sum_congr rfl fun c _ => ?_))
  rw [select_apply]
  show Scalar.select (IntOp.cmpi .eq _ _) _ _ = _
  rw [select_cmpi_eq, broadcastTo_a1_ab_apply, broadcastTo_1b_ab_apply, iota_single_apply, broadcast_apply]
  show (if IntOp.subi (shapeCast S2048x1 y shapeCasts_S2048x1_S2048x1 (ix2 q 0)) (Scalar.muli (BitVec.ofNat 32 (i 1).val) 1280#32) = BitVec.ofNat 32 c.val then _ else Ideal.ofBits .f32 0x00000000#32) = _
  rw [shapeCast_self, Ideal.ofBits_zero_f32]
  rfl

/-- Kernel 1's sum-of-exponentials column after a tile: the previous column plus the sum of the exponentials of row `q`'s 1280 logits. -/
theorem k1_pay6_apply (w : Vec Ideal S1280x2048 .f32) (x : Vec Ideal S2048x2048 .bf16) (l : Vec Ideal S2048x1 .f32) (q : Fin 2048) :
    k1_pay6 (F := Ideal) w x l (ix2 q 0) = l (ix2 q 0) + ∑ c : Fin 1280, Ideal.exp (k1_pay4 (F := Ideal) w x (ix2 q c)) := by
  unfold k1_pay6
  dsimp only
  rw [shapeCast_self, addf_apply]
  exact congrArg (l (ix2 q 0) + ·) (rowsum_apply _ _ _ q)

/-- Kernel 1's result column: the label's logit less the logarithm of the sum of exponentials. -/
theorem k1_pay1_apply (t l : Vec Ideal S2048x1 .f32) (q : Fin 2048) :
    k1_pay1 (F := Ideal) t l (ix2 q 0) = t (ix2 q 0) - Ideal.log (l (ix2 q 0)) := by
  unfold k1_pay1
  rw [subf_apply]
  rfl

/-- Kernel 1's first zero column. -/
theorem k1_pay2_apply (q : Fin 2048) : k1_pay2 (F := Ideal) (ix2 q 0) = 0 := by
  unfold k1_pay2
  rw [shapeCast_self, broadcast_apply]
  exact Ideal.ofBits_zero_f32

/-- Kernel 1's second zero column. -/
theorem k1_pay3_apply (q : Fin 2048) : k1_pay3 (F := Ideal) (ix2 q 0) = 0 := by
  unfold k1_pay3
  rw [shapeCast_self, broadcast_apply]
  exact Ideal.ofBits_zero_f32

end Cert.KernelIdeal.Hand

end
-- ==== Proof.KTok.lean ====
/-
  The per-row value one kernel region leaves in its output column, in closed form over the region's three arrays:
  the hidden rows X [4096, 2048], the vocabulary matrix W [32000, 2048] and the label column Ys [4096, 1].
  Row r's logit against vocabulary row j is the inner product of X[r, ·] and W[j, ·]. The region accumulates, over the 25
  vocabulary tiles, the logits whose column index equals the row's label — one of them if the label is below 32000,
  none otherwise — and the exponentials of all of them, and stores the first sum minus the logarithm of the second.
-/
import proofs.«407363_j58059367907835_3_alg».proof.Proof.Spec

noncomputable section

open scoped BigOperators

namespace Cert.Spec

open Idealize.ShloMosaic Idealize.ShloMosaic.ValueIdx

/-- The flattened hidden rows, [4096, 2048]. -/
abbrev SXf : Shape := ⟨2, ![4096, 2048]⟩
/-- The label column and the output column, [4096, 1]. -/
abbrev SC : Shape := ⟨2, ![4096, 1]⟩

/-- Row r's logit against vocabulary row j. -/
def rowLogit (X : SXf.Idx → EReal) (W : SW.Idx → EReal) (r : Fin 4096) (j : Fin 32000) : EReal :=
  ∑ k : Fin 2048, X (ix2 r k) * W (ix2 j k)

/-- What a kernel region leaves at row r of its output column. -/
def kTok (X : SXf.Idx → EReal) (W : SW.Idx → EReal) (Ys : SC.Idx → BitVec 32) (r : Fin 4096) : EReal :=
  (if h : (Ys (ix2 r 0)).toNat < 32000 then rowLogit X W r ⟨(Ys (ix2 r 0)).toNat, h⟩ else 0)
    - Ideal.log (∑ j : Fin 32000, Ideal.exp (rowLogit X W r j))

end Cert.Spec

end
-- ==== Proof.KBlocks.lean ====
/-
  The blocks of a kernel region's three input arrays that one grid point works on: a row block of 2048 hidden rows,
  a vocabulary tile of 1280 rows of the matrix, a row block of the label column.
-/
import proofs.«407363_j58059367907835_3_alg».proof.Proof.Gen.KernelIdeal.Skeleton
import proofs.«407363_j58059367907835_3_alg».proof.Proof.KTok

noncomputable section

namespace Cert.KernelIdeal.Hand

open Cert.KernelIdeal Cert.KernelIdeal.Gen
open Idealize.ShloMosaic Idealize.ShloMosaic.ValueIdx

/-- Row block rb of the hidden rows: rows rb * 2048 … rb * 2048 + 2047. -/
def xblk (X : Cert.Spec.SXf.Idx → EReal) (rb : ℕ) (hrb : rb < 2) : Vec Ideal S2048x2048 .bf16 :=
  fun j => X (ix2 ⟨rb * 2048 + (j 0).val, by have := (j 0).isLt; have : (j 0).val < 2048 := this; omega⟩ ⟨(j 1).val, (j 1).isLt⟩)
/-- Vocabulary tile v: rows v * 1280 … v * 1280 + 1279 of the matrix. -/
def wblk (W : Cert.Spec.SW.Idx → EReal) (v : ℕ) (hv : v < 25) : Vec Ideal S1280x2048 .f32 :=
  fun j => W (ix2 ⟨v * 1280 + (j 0).val, by have : (j 0).val < 1280 := (j 0).isLt; omega⟩ ⟨(j 1).val, (j 1).isLt⟩)
/-- Row block rb of the label column. -/
def yblk (Ys : Cert.Spec.SC.Idx → BitVec 32) (rb : ℕ) (hrb : rb < 2) : Vec Ideal S2048x1 .i32 :=
  fun j => Ys (ix2 ⟨rb * 2048 + (j 0).val, by have : (j 0).val < 2048 := (j 0).isLt; omega⟩ 0)

end Cert.KernelIdeal.Hand

end
-- ==== Proof.KAccDefs0.lean ====
/-
  Kernel region 0, one row block's sweep over the 25 vocabulary tiles as a recursion on the tile: the row block's
  hidden rows, the tile's 1280 vocabulary rows and the row block's label column as blocks of the region's arrays,
  and the two accumulator columns after tiles 0 … n — tile 0 adds to zero columns, every later tile adds to what
  the tile before left.
-/
import proofs.«407363_j58059367907835_3_alg».proof.Proof.Gen.KernelIdeal.Skeleton
import proofs.«407363_j58059367907835_3_alg».proof.Proof.KTok
import proofs.«407363_j58059367907835_3_alg».proof.Proof.KBlocks

noncomputable section

open scoped BigOperators

namespace Cert.KernelIdeal.Hand

open Cert.KernelIdeal Cert.KernelIdeal.Gen
open Idealize.ShloMosaic Idealize.ShloMosaic.ValueIdx

/-- The sum-of-exponentials column after tiles 0 … n of a row block (wv n is tile n's block of the matrix). -/
def accL0 (x : Vec Ideal S2048x2048 .bf16) (wv : ℕ → Vec Ideal S1280x2048 .f32) : ℕ → Vec Ideal S2048x1 .f32
  | 0 => k0_pay6 (F := Ideal) (wv 0) x (k0_pay2 (F := Ideal))
  | n + 1 => k0_pay6 (F := Ideal) (wv (n + 1)) x (accL0 x wv n)

/-- The label-logit column after tiles 0 … n of a row block (iv n is tile n's grid point). -/
def accT0 (x : Vec Ideal S2048x2048 .bf16) (wv : ℕ → Vec Ideal S1280x2048 .f32) (y : Vec Ideal S2048x1 .i32) (iv : ℕ → grid0.Coords) : ℕ → Vec Ideal S2048x1 .f32
  | 0 => k0_pay5 (F := Ideal) (iv 0) (wv 0) x y (k0_pay3 (F := Ideal))
  | n + 1 => k0_pay5 (F := Ideal) (iv (n + 1)) (wv (n + 1)) x y (accT0 x wv y iv n)

end Cert.KernelIdeal.Hand

end
-- ==== Proof.KAcc0.lean ====
/-
  Kernel region 0, one row block's sweep over the 25 vocabulary tiles in closed form. After tiles 0 … n the sum-of-exponentials
  column holds, at row q, the sum over those tiles' lanes of the exponentials of the row's logits, and the label-logit column the
  sum of the logits at the lanes whose number is the label less the tile's base. A class number j below 32000 is tile j / 1280,
  lane j % 1280, so after the last tile the first is the sum over all 32000 classes and the second the label's logit (or zero
  when the label is no class); the stored result is the closed form of the row.
-/
import proofs.«407363_j58059367907835_3_alg».proof.Proof.KAccDefs0
import proofs.«407363_j58059367907835_3_alg».proof.Proof.KPay
import Mathlib.Algebra.BigOperators.Fin
import Mathlib.Algebra.BigOperators.Group.Finset.Basic
import Mathlib.Data.Fintype.BigOperators

noncomputable section

open scoped BigOperators

namespace Cert.KernelIdeal.Hand

open Cert.KernelIdeal Cert.KernelIdeal.Gen
open Idealize.ShloMosaic Idealize.ShloMosaic.ValueIdx

/-! ## Classes as tiles and lanes -/

/-- A class number below 32000 is a tile of 25 and a lane of 1280. -/
def tileEquiv : Fin 25 × Fin 1280 ≃ Fin 32000 where
  toFun p := ⟨p.1.val * 1280 + p.2.val, by have := p.1.isLt; have := p.2.isLt; omega⟩
  invFun j := (⟨j.val / 1280, by have := j.isLt; omega⟩, ⟨j.val % 1280, Nat.mod_lt _ (by decide)⟩)
  left_inv p := by
    have h1 := p.1.isLt
    have h2 := p.2.isLt
    refine Prod.ext (Fin.ext ?_) (Fin.ext ?_)
    · show (p.1.val * 1280 + p.2.val) / 1280 = p.1.val
      omega
    · show (p.1.val * 1280 + p.2.val) % 1280 = p.2.val
      omega
  right_inv j := by
    refine Fin.ext ?_
    show j.val / 1280 * 1280 + j.val % 1280 = j.val
    omega

/-- A sum over the tiles and their lanes is the sum over the classes. -/
theorem sum_tiles {M : Type*} [AddCommMonoid M] (g : Fin 32000 → M) :
    ∑ v : Fin 25, ∑ c : Fin 1280, g ⟨v.val * 1280 + c.val, by have := v.isLt; have := c.isLt; omega⟩ = ∑ j : Fin 32000, g j := by
  rw [← Equiv.sum_comp tileEquiv g, Fintype.sum_prod_type]
  rfl

/-- The sum over the classes of the terms at the class equal to `m`: that term, or zero when `m` is no class. -/
theorem pick_label (f : Fin 32000 → EReal) (m : ℕ) :
    (∑ j : Fin 32000, if m = j.val then f j else 0) = if h : m < 32000 then f ⟨m, h⟩ else 0 := by
  by_cases h : m < 32000
  · rw [dif_pos h, Finset.sum_eq_single (⟨m, h⟩ : Fin 32000)]
    · exact if_pos rfl
    · intro j _ hj
      exact if_neg fun e => hj (Fin.ext e.symm)
    · intro hn
      exact absurd (Finset.mem_univ _) hn
  · rw [dif_neg h]
    exact Finset.sum_eq_zero fun j _ => if_neg (by have := j.isLt; omega)

/-! ## Kernel 0's sweep -/

/-- A tile's logit at (q, c) is the row's logit against class `v * 1280 + c`. -/
theorem tile_logit0 (X : Cert.Spec.SXf.Idx → EReal) (W : Cert.Spec.SW.Idx → EReal) (rb : ℕ) (hrb : rb < 2) (v : ℕ) (hv : v < 25)
    (q : Fin 2048) (c : Fin 1280) :
    k0_pay4 (F := Ideal) (wblk W v hv) (xblk X rb hrb) (ix2 q c)
      = Cert.Spec.rowLogit X W ⟨rb * 2048 + q.val, by omega⟩ ⟨v * 1280 + c.val, by omega⟩ := by
  rw [pay4_apply]
  rfl

/-- The sum-of-exponentials column after tiles 0 … n. -/
theorem accL0_apply (x : Vec Ideal S2048x2048 .bf16) (wv : ℕ → Vec Ideal S1280x2048 .f32) (n : ℕ) (q : Fin 2048) :
    accL0 x wv n (ix2 q 0)
      = ∑ v ∈ Finset.range (n + 1), ∑ c : Fin 1280, Ideal.exp (k0_pay4 (F := Ideal) (wv v) x (ix2 q c)) := by
  induction n with
  | zero =>
    rw [Finset.sum_range_one]
    show k0_pay6 (F := Ideal) (wv 0) x (k0_pay2 (F := Ideal)) (ix2 q 0) = _
    rw [pay6_apply, pay2_apply, zero_add]
  | succ n ih =>
    rw [Finset.sum_range_succ, ← ih]
    show k0_pay6 (F := Ideal) (wv (n + 1)) x (accL0 x wv n) (ix2 q 0) = _
    rw [pay6_apply]

/-- The label-logit column after tiles 0 … n. -/
theorem accT0_apply (x : Vec Ideal S2048x2048 .bf16) (wv : ℕ → Vec Ideal S1280x2048 .f32) (y : Vec Ideal S2048x1 .i32)
    (iv : ℕ → grid0.Coords) (n : ℕ) (q : Fin 2048) :
    accT0 x wv y iv n (ix2 q 0)
      = ∑ v ∈ Finset.range (n + 1), ∑ c : Fin 1280,
          (if y (ix2 q 0) - BitVec.ofNat 32 ((iv v) 1).val * 1280#32 = BitVec.ofNat 32 c.val
            then k0_pay4 (F := Ideal) (wv v) x (ix2 q c) else 0) := by
  induction n with
  | zero =>
    rw [Finset.sum_range_one]
    show k0_pay5 (F := Ideal) (iv 0) (wv 0) x y (k0_pay3 (F := Ideal)) (ix2 q 0) = _
    rw [pay5_apply, pay3_apply, zero_add]
  | succ n ih =>
    rw [Finset.sum_range_succ, ← ih]
    show k0_pay5 (F := Ideal) (iv (n + 1)) (wv (n + 1)) x y (accT0 x wv y iv n) (ix2 q 0) = _
    rw [pay5_apply]

/-- After the last tile the stored result at row q of row block rb is the closed form of row `rb * 2048 + q`. -/
theorem acc0_final (X : Cert.Spec.SXf.Idx → EReal) (W : Cert.Spec.SW.Idx → EReal) (Ys : Cert.Spec.SC.Idx → BitVec 32) (rb : ℕ) (hrb : rb < 2)
    (wv : ℕ → Vec Ideal S1280x2048 .f32) (hwv : ∀ v (hv : v < 25), wv v = wblk W v hv)
    (iv : ℕ → grid0.Coords) (hiv : ∀ v, v < 25 → ((iv v) 1).val = v) (q : Fin 2048) :
    k0_pay1 (F := Ideal) (accT0 (xblk X rb hrb) wv (yblk Ys rb hrb) iv 24) (accL0 (xblk X rb hrb) wv 24) (ix2 q 0)
      = Cert.Spec.kTok X W Ys ⟨rb * 2048 + q.val, by omega⟩ := by
  have hr : rb * 2048 + q.val < 4096 := by omega
  have hL : accL0 (xblk X rb hrb) wv 24 (ix2 q 0)
      = ∑ j : Fin 32000, Ideal.exp (Cert.Spec.rowLogit X W ⟨rb * 2048 + q.val, hr⟩ j) := by
    rw [accL0_apply, Finset.sum_range, ← sum_tiles]
    refine Finset.sum_congr rfl fun v _ => Finset.sum_congr rfl fun c _ => ?_
    rw [hwv v.val v.isLt, tile_logit0]
  have hT : accT0 (xblk X rb hrb) wv (yblk Ys rb hrb) iv 24 (ix2 q 0)
      = if h : (Ys (ix2 ⟨rb * 2048 + q.val, hr⟩ 0)).toNat < 32000
          then Cert.Spec.rowLogit X W ⟨rb * 2048 + q.val, hr⟩ ⟨(Ys (ix2 ⟨rb * 2048 + q.val, hr⟩ 0)).toNat, h⟩ else 0 := by
    rw [accT0_apply, Finset.sum_range, ← pick_label, ← sum_tiles]
    refine Finset.sum_congr rfl fun v _ => Finset.sum_congr rfl fun c _ => ?_
    rw [hwv v.val v.isLt, hiv v.val v.isLt, tile_logit0]
    exact if_congr (tile_cond_iff (Ys (ix2 ⟨rb * 2048 + q.val, hr⟩ 0)) v.val c.val v.isLt c.isLt) rfl rfl
  rw [pay1_apply, hT, hL]
  rfl

end Cert.KernelIdeal.Hand

end
-- ==== Proof.KValue0.lean ====
/-
  The value kernel region 0 leaves in its output column. Each control case of the body leaves, in the two accumulator
  columns and in the output column, the body's arithmetic applied to the blocks it loads; a point's blocks are a row
  block of the hidden rows, a vocabulary tile of the matrix and a row block of the label column; by induction on the
  tile the accumulator columns after tile v of a row block are the recursion's columns after tiles 0 … v; at the
  last tile the stored column is the closed form of each row, and the two row blocks' write-backs cover the array.
-/
import proofs.«407363_j58059367907835_3_alg».proof.Proof.R0Frame
import proofs.«407363_j58059367907835_3_alg».proof.Proof.KPay
import proofs.«407363_j58059367907835_3_alg».proof.Proof.KAccDefs0
import proofs.«407363_j58059367907835_3_alg».proof.Proof.KBlocks
import proofs.«407363_j58059367907835_3_alg».proof.Proof.KAcc0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

theorem hz0 : (![0, 0] : Fin 2 → Nat) = fun _ => 0 := funext fun a => by fin_cases a <;> rfl

/-! ## What each control case leaves, as the body's arithmetic on the blocks it loads -/

/-- At a row block's first tile the sum-of-exponentials column is the tile's sum added to the zero column. -/
theorem sval0_A_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) :
    sout0_A_0 c i arg2 harg2 arg3 harg3 arg4 harg4 arg5 harg5 arg6 harg6 arg7 harg7 hc0 hc1 x0 x1 x2 = k0_pay6 x1 x0 k0_pay2 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz0]
  simp only [View.readAt_eq_ld, harg2.read_unread, harg3.read_unread, harg4.read_unread, harg6.read_unread, harg7.read_unread, View.ld_unit_zero (S := S2048x2048) hz0, View.ld_unit_zero (S := S1280x2048) hz0, View.ld_unit_zero (S := S2048x1) hz0, View.readCov_unit_zero (S := S2048x1) _ hz0]

/-- At a row block's first tile the label-logit column is the tile's label logit added to the zero column. -/
theorem sval0_A_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond0_0 i) (hc1 : ¬cond0_1 i) (x0 : Vec F S2048x2048 .bf16) (x1 : Vec F S1280x2048 .f32) (x2 : Vec F S2048x1 .i32) :
    sout0_A_1 c i arg2 harg2 arg3 harg3 arg4 harg4 arg5 harg5 arg6 harg6 arg7 harg7 hc0 hc1 x0 x1 x2 = k0_pay5 i x1 x0 x2 k0_pay3 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S2048x1) hz0]
  simp only [View.readAt_eq_ld, harg2.read_unread, harg3.read_unread, harg4.read_unread, harg6.read_unread, harg7.read_unread, View.ld_unit_zero (S := S2048x2048) hz0, View.ld_unit_zero (S := S1280x2048) hz0, View.ld_unit_zero (S := S2048x1) hz0, View.readCov_unit_zero (S := S2048x1) _ hz0]

/-- At a middle tile the sum-of-exponentials column gains the tile's sum. -/
theorem sval0_B_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) :
    sout0_B_0 c i arg2 harg2 arg3 harg3 arg4 harg4 arg5 harg5 arg6 harg6 arg7 harg7 hc0 hc1 x0 x1 x2 xs0 xs1 = k0_pay6 x1 x0 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz0]
  simp only [View.readAt_eq_ld, harg2.read_unread, harg3.read_unread, harg4.read_unread, harg6.read_unread, harg7.read_unread, View.ld_unit_zero (S := S2048x2048) hz0, View.ld_unit_zero (S := S1280x2048) hz0, View.ld_unit_zero (S := S2048x1) hz0, View.readCov_unit_zero (S := S2048x1) _ hz0]

/-- At a middle tile the label-logit column gains the tile's label logit. -/
theorem sval0_B_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : ¬cond0_1 i) (x0 : Vec F S2048x2048 .bf16) (x1 : Vec F S1280x2048 .f32) (x2 : Vec F S2048x1 .i32) (xs0 xs1 : Vec F S2048x1 .f32) :
    sout0_B_1 c i arg2 harg2 arg3 harg3 arg4 harg4 arg5 harg5 arg6 harg6 arg7 harg7 hc0 hc1 x0 x1 x2 xs0 xs1 = k0_pay5 i x1 x0 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz0]
  simp only [View.readAt_eq_ld, harg2.read_unread, harg3.read_unread, harg4.read_unread, harg6.read_unread, harg7.read_unread, View.ld_unit_zero (S := S2048x2048) hz0, View.ld_unit_zero (S := S1280x2048) hz0, View.ld_unit_zero (S := S2048x1) hz0, View.readCov_unit_zero (S := S2048x1) _ hz0]

/-- At a row block's last tile the sum-of-exponentials column gains the tile's sum. -/
theorem sval0_C_0 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) :
    sout0_C_0 c i arg2 harg2 arg3 harg3 arg4 harg4 arg5 harg5 arg6 harg6 arg7 harg7 hc0 hc1 x0 x1 x2 xs0 xs1 = k0_pay6 x1 x0 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz0]
  simp only [View.readAt_eq_ld, harg2.read_unread, harg3.read_unread, harg4.read_unread, harg6.read_unread, harg7.read_unread, View.ld_unit_zero (S := S2048x2048) hz0, View.ld_unit_zero (S := S1280x2048) hz0, View.ld_unit_zero (S := S2048x1) hz0, View.readCov_unit_zero (S := S2048x1) _ hz0]

/-- At a row block's last tile the label-logit column gains the tile's label logit. -/
theorem sval0_C_1 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) :
    sout0_C_1 c i arg2 harg2 arg3 harg3 arg4 harg4 arg5 harg5 arg6 harg6 arg7 harg7 hc0 hc1 x0 x1 x2 xs0 xs1 = k0_pay5 i x1 x0 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz0]
  simp only [View.readAt_eq_ld, harg2.read_unread, harg3.read_unread, harg4.read_unread, harg6.read_unread, harg7.read_unread, View.ld_unit_zero (S := S2048x2048) hz0, View.ld_unit_zero (S := S1280x2048) hz0, View.ld_unit_zero (S := S2048x1) hz0, View.readCov_unit_zero (S := S2048x1) _ hz0]

/-- At a row block's last tile the output column is the final label logit less the logarithm of the final sum of exponentials. -/
theorem oval0_C_3 (c : Dev nD) (i : grid0.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond0_0 i) (hc1 : cond0_1 i) (x0 : Vec F S2048x2048 .bf16) (x1 : Vec F S1280x2048 .f32) (x2 : Vec F S2048x1 .i32) (xs0 xs1 : Vec F S2048x1 .f32) :
    out0_C_3 c i arg2 harg2 arg3 harg3 arg4 harg4 arg5 harg5 arg6 harg6 arg7 harg7 hc0 hc1 x0 x1 x2 xs0 xs1 = k0_pay1 (k0_pay5 i x1 x0 x2 xs1) (k0_pay6 x1 x0 xs0) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz0]
  simp only [View.readAt_eq_ld, harg2.read_unread, harg3.read_unread, harg4.read_unread, harg6.read_unread, harg7.read_unread, View.ld_unit_zero (S := S2048x2048) hz0, View.ld_unit_zero (S := S1280x2048) hz0, View.ld_unit_zero (S := S2048x1) hz0, View.readCov_unit_zero (S := S2048x1) _ hz0]

/-! ## The blocks a point works on, over the extended reals -/

section Value
variable (V : (c : Dev nD) → (b : Ref sig .tc) → Buf (Elt Ideal) ((c : Thread nD τ).loc b))

/-- Point t is row block t / 25 and vocabulary tile t % 25: the windows' block indices and the tile coordinate. -/
theorem idx0_0 : ∀ t : Fin cfg0.N, win0_0.index t 0 = t.val / 25 ∧ win0_0.index t 1 = 0 :=
  (by decide +kernel : ∀ t : Fin grid0.N, win0_0.index t 0 = t.val / 25 ∧ win0_0.index t 1 = 0)
theorem idx0_1 : ∀ t : Fin cfg0.N, win0_1.index t 0 = t.val % 25 ∧ win0_1.index t 1 = 0 :=
  (by decide +kernel : ∀ t : Fin grid0.N, win0_1.index t 0 = t.val % 25 ∧ win0_1.index t 1 = 0)
theorem idx0_2 : ∀ t : Fin cfg0.N, win0_2.index t 0 = t.val / 25 ∧ win0_2.index t 1 = 0 :=
  (by decide +kernel : ∀ t : Fin grid0.N, win0_2.index t 0 = t.val / 25 ∧ win0_2.index t 1 = 0)
theorem idx0_3 : ∀ t : Fin cfg0.N, win0_3.index t 0 = t.val / 25 ∧ win0_3.index t 1 = 0 :=
  (by decide +kernel : ∀ t : Fin grid0.N, win0_3.index t 0 = t.val / 25 ∧ win0_3.index t 1 = 0)
theorem coord0_1 : ∀ t : Fin cfg0.N, ((grid0.coords t) 1).val = t.val % 25 :=
  (by decide +kernel : ∀ t : Fin grid0.N, ((grid0.coords t) 1).val = t.val % 25)

theorem lt2_point0 (t : Fin cfg0.N) : t.val / 25 < 2 := by
  have h := t.isLt; have hN : cfg0.N = 50 := N_0; omega

/-- The hidden rows' block at point t is row block t / 25. -/
theorem iblk0_0_eq (c : Dev nD) (t : Fin cfg0.N) :
    iblk0 (F := Ideal) V c 0 t = xblk (V c main_v6) (t.val / 25) (lt2_point0 t) := by
  funext j
  unfold iblk0 xblk
  rw [View.read_apply]
  show V c main_v6 _ = V c main_v6 _
  refine congrArg (V c main_v6) ?_
  funext a
  apply Fin.ext
  match a with
  | ⟨0, _⟩ =>
    show win0_0.index t 0 * 2048 + 1 * (j 0).val = t.val / 25 * 2048 + (j 0).val
    rw [(idx0_0 t).1]; omega
  | ⟨1, _⟩ =>
    show win0_0.index t 1 * 2048 + 1 * (j 1).val = (j 1).val
    rw [(idx0_0 t).2]; omega

/-- The matrix's block at point t is vocabulary tile t % 25. -/
theorem iblk0_1_eq (c : Dev nD) (t : Fin cfg0.N) :
    iblk0 (F := Ideal) V c 1 t = wblk (V c main_arg3) (t.val % 25) (Nat.mod_lt _ (by decide)) := by
  funext j
  unfold iblk0 wblk
  rw [View.read_apply]
  show V c main_arg3 _ = V c main_arg3 _
  refine congrArg (V c main_arg3) ?_
  funext a
  apply Fin.ext
  match a with
  | ⟨0, _⟩ =>
    show win0_1.index t 0 * 1280 + 1 * (j 0).val = t.val % 25 * 1280 + (j 0).val
    rw [(idx0_1 t).1]; omega
  | ⟨1, _⟩ =>
    show win0_1.index t 1 * 2048 + 1 * (j 1).val = (j 1).val
    rw [(idx0_1 t).2]; omega

/-- The labels' block at point t is row block t / 25 of the label column. -/
theorem iblk0_2_eq (c : Dev nD) (t : Fin cfg0.N) :
    iblk0 (F := Ideal) V c 2 t = yblk (V c main_v7) (t.val / 25) (lt2_point0 t) := by
  funext j
  unfold iblk0 yblk
  rw [View.read_apply]
  show V c main_v7 _ = V c main_v7 _
  refine congrArg (V c main_v7) ?_
  funext a
  apply Fin.ext
  match a with
  | ⟨0, _⟩ =>
    show win0_2.index t 0 * 2048 + 1 * (j 0).val = t.val / 25 * 2048 + (j 0).val
    rw [(idx0_2 t).1]; omega
  | ⟨1, _⟩ =>
    show win0_2.index t 1 * 1 + 1 * (j 1).val = 0
    have : (j 1).val < 1 := (j 1).isLt
    rw [(idx0_2 t).2]; omega

/-! ## The two accumulator columns after each point -/

/-- Tile v's block of the matrix (tile 0's for a number that is no tile). -/
def wv0 (c : Dev nD) (v : ℕ) : Vec Ideal S1280x2048 .f32 :=
  if hv : v < 25 then wblk (V c main_arg3) v hv else wblk (V c main_arg3) 0 (by decide)

theorem wv0_eq (c : Dev nD) (v : ℕ) (hv : v < 25) : wv0 V c v = wblk (V c main_arg3) v hv := dif_pos hv

/-- The grid point of row block rb's tile v. -/
def iv0 (rb v : ℕ) : grid0.Coords :=
  grid0.coords ⟨(rb * 25 + v) % 50, lt_of_lt_of_eq (Nat.mod_lt _ (by decide)) N_0.symm⟩

theorem iv0_1 (rb v : ℕ) (hv : v < 25) : ((iv0 rb v) 1).val = v := by
  unfold iv0
  rw [coord0_1]
  show (rb * 25 + v) % 50 % 25 = v
  omega

theorem point_coords0 (t : Fin cfg0.N) (rb v : ℕ) (e : t.val = rb * 25 + v) : grid0.coords t = iv0 rb v := by
  unfold iv0
  refine congrArg grid0.coords (Fin.ext ?_)
  show t.val = (rb * 25 + v) % 50
  have h := t.isLt
  have hN : cfg0.N = 50 := N_0
  omega

theorem xblk_congr0 (X : Cert.Spec.SXf.Idx → EReal) {a b : ℕ} (h : a = b) (ha : a < 2) (hb : b < 2) : xblk X a ha = xblk X b hb := by
  subst h; rfl
theorem wblk_congr0 (W : Cert.Spec.SW.Idx → EReal) {a b : ℕ} (h : a = b) (ha : a < 25) (hb : b < 25) : wblk W a ha = wblk W b hb := by
  subst h; rfl
theorem yblk_congr0 (Ys : Cert.Spec.SC.Idx → BitVec 32) {a b : ℕ} (h : a = b) (ha : a < 2) (hb : b < 2) : yblk Ys a ha = yblk Ys b hb := by
  subst h; rfl

/-- The blocks at the point of row block rb's tile v. -/
theorem blocks_at0 (c : Dev nD) (rb : ℕ) (hrb : rb < 2) (v : ℕ) (hv : v < 25) (t : Fin cfg0.N) (e : t.val = rb * 25 + v) :
    iblk0 (F := Ideal) V c 0 t = xblk (V c main_v6) rb hrb ∧ iblk0 (F := Ideal) V c 1 t = wv0 V c v
      ∧ iblk0 (F := Ideal) V c 2 t = yblk (V c main_v7) rb hrb := by
  have hq : t.val / 25 = rb := by omega
  have hm : t.val % 25 = v := by omega
  exact ⟨(iblk0_0_eq V c t).trans (xblk_congr0 (V c main_v6) hq _ hrb),
    (iblk0_1_eq V c t).trans ((wblk_congr0 (V c main_arg3) hm _ hv).trans (wv0_eq V c v hv).symm),
    (iblk0_2_eq V c t).trans (yblk_congr0 (V c main_v7) hq _ hrb)⟩

/-- After the point of row block rb's tile v the two accumulator columns hold the recursion's columns after tiles 0 … v. -/
theorem inv0 (c : Dev nD) (rb : ℕ) (hrb : rb < 2) : ∀ (v : ℕ) (hv : v < 25) (t : Fin cfg0.N), t.val = rb * 25 + v →
    (outsAt0 V c t.val t.isLt).2.1 = accL0 (xblk (V c main_v6) rb hrb) (wv0 V c) v
      ∧ (outsAt0 V c t.val t.isLt).2.2 = accT0 (xblk (V c main_v6) rb hrb) (wv0 V c) (yblk (V c main_v7) rb hrb) (iv0 rb) v
  | 0, hv, t, e => by
    have h0 : t.val % 25 = 0 := by omega
    obtain ⟨e0, e1, e2⟩ := blocks_at0 V c rb hrb 0 hv t e
    have ei := point_coords0 t rb 0 e
    rw [outsAt0_A V c t h0]
    dsimp only
    constructor
    · refine (sval0_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t)).trans ?_
      rw [e0, e1]
      rfl
    · refine (sval0_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (r0_nc1_of_c0 t h0) (iblk0 V c 0 t) (iblk0 V c 1 t) (iblk0 V c 2 t)).trans ?_
      rw [e0, e1, e2, ei]
      rfl
  | v + 1, hv, t, e => by
    have h0 : ¬t.val % 25 = 0 := by omega
    have hp : t.val - 1 < cfg0.N := Nat.lt_of_le_of_lt (Nat.sub_le _ _) t.isLt
    have ih := inv0 c rb hrb v (by omega) ⟨t.val - 1, hp⟩ (by show t.val - 1 = rb * 25 + v; omega)
    have ihL : (outsAt0 V c (t.val - 1) (Nat.lt_of_le_of_lt (Nat.sub_le _ _) t.isLt)).2.1
        = accL0 (xblk (V c main_v6) rb hrb) (wv0 V c) v := ih.1
    have ihT : (outsAt0 V c (t.val - 1) (Nat.lt_of_le_of_lt (Nat.sub_le _ _) t.isLt)).2.2
        = accT0 (xblk (V c main_v6) rb hrb) (wv0 V c) (yblk (V c main_v7) rb hrb) (iv0 rb) v := ih.2
    obtain ⟨e0, e1, e2⟩ := blocks_at0 V c rb hrb (v + 1) hv t e
    have ei := point_coords0 t rb (v + 1) e
    by_cases h1 : t.val % 25 = 24
    · rw [outsAt0_C V c t h0 h1]
      dsimp only
      constructor
      · refine (sval0_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).trans ?_
        rw [e0, e1, ihL]
        rfl
      · refine (sval0_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).trans ?_
        rw [e0, e1, e2, ei, ihT]
        rfl
    · rw [outsAt0_B V c t h0 h1]
      dsimp only
      constructor
      · refine (sval0_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).trans ?_
        rw [e0, e1, ihL]
        rfl
      · refine (sval0_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) (r0_nc1_of_n1 t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).trans ?_
        rw [e0, e1, e2, ei, ihT]
        rfl

/-- At a row block's last tile the output column's staging buffer holds the final label logit less the logarithm of
    the final sum of exponentials. -/
theorem out0_last (c : Dev nD) (rb : ℕ) (hrb : rb < 2) (t : Fin cfg0.N) (e : t.val = rb * 25 + 24) :
    (outsAt0 V c t.val t.isLt).1
      = k0_pay1 (F := Ideal) (accT0 (xblk (V c main_v6) rb hrb) (wv0 V c) (yblk (V c main_v7) rb hrb) (iv0 rb) 24)
          (accL0 (xblk (V c main_v6) rb hrb) (wv0 V c) 24) := by
  have h0 : ¬t.val % 25 = 0 := by omega
  have h1 : t.val % 25 = 24 := by omega
  have hp : t.val - 1 < cfg0.N := Nat.lt_of_le_of_lt (Nat.sub_le _ _) t.isLt
  have ih := inv0 V c rb hrb 23 (by decide) ⟨t.val - 1, hp⟩ (by show t.val - 1 = rb * 25 + 23; omega)
  have ihL : (outsAt0 V c (t.val - 1) (Nat.lt_of_le_of_lt (Nat.sub_le _ _) t.isLt)).2.1
      = accL0 (xblk (V c main_v6) rb hrb) (wv0 V c) 23 := ih.1
  have ihT : (outsAt0 V c (t.val - 1) (Nat.lt_of_le_of_lt (Nat.sub_le _ _) t.isLt)).2.2
      = accT0 (xblk (V c main_v6) rb hrb) (wv0 V c) (yblk (V c main_v7) rb hrb) (iv0 rb) 23 := ih.2
  obtain ⟨e0, e1, e2⟩ := blocks_at0 V c rb hrb 24 (by decide) t e
  have ei := point_coords0 t rb 24 e
  rw [outsAt0_C V c t h0 h1]
  dsimp only
  refine (oval0_C_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (r0_nc0_of_n0 t h0) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2).trans ?_
  rw [e0, e1, e2, ei, ihL, ihT]
  rfl

/-! ## The output column as the region leaves it -/

/-- Row r of the output column: the closed form of row r over the region's three arrays. -/
def res0 (c : Dev nD) : S4096x1.Idx → EReal :=
  fun i => Cert.Spec.kTok (V c main_v6) (V c main_arg3) (V c main_v7) ⟨(i 0).val, (i 0).isLt⟩

/-- What a row block's last point writes back is that row block of the closed form. -/
theorem flushed0_eq (c : Dev nD) (t : Fin cfg0.N) (hf : (cfg0.win 3).flush t = true) :
    (dat0 (F := Ideal) V c).flushed 3 t = ((cfg0.win 3).blk t).view.read (Elt Ideal) (res0 V c) := by
  have h24 : t.val % 25 = 24 := (flush0_3 t).mp hf
  have hrb : t.val / 25 < 2 := lt2_point0 t
  show (cfg0.win 3).cut (grid0.coords t) ((dat0 (F := Ideal) V c).after 3 t) = _
  rw [after0_3, out0_last V c (t.val / 25) hrb t (by omega)]
  funext j
  obtain ⟨q, rfl⟩ : ∃ q : Fin 2048, j = ix2 q 0 := ⟨j 0, eq_ix2_col j⟩
  rw [View.read_apply]
  show k0_pay1 (F := Ideal) (accT0 (xblk (V c main_v6) (t.val / 25) hrb) (wv0 V c) (yblk (V c main_v7) (t.val / 25) hrb) (iv0 (t.val / 25)) 24)
      (accL0 (xblk (V c main_v6) (t.val / 25) hrb) (wv0 V c) 24) (ix2 q 0) = res0 V c _
  refine (acc0_final (V c main_v6) (V c main_arg3) (V c main_v7) (t.val / 25) hrb (wv0 V c) (fun v hv => wv0_eq V c v hv)
    (iv0 (t.val / 25)) (fun v hv => iv0_1 (t.val / 25) v hv) q).trans ?_
  unfold res0
  refine congrArg (Cert.Spec.kTok (V c main_v6) (V c main_arg3) (V c main_v7)) (Fin.ext ?_)
  show t.val / 25 * 2048 + q.val = win0_3.index t 0 * 2048 + 1 * q.val
  rw [(idx0_3 t).1]
  omega

/-- The two row blocks' last points cover the output column. -/
theorem cover0_3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 4096 := (i 0).isLt
  have h1 : (i 1 : Nat) < 1 := (i 1).isLt
  have ht : (i 0 : Nat) / 2048 * 25 + 24 < cfg0.N := by rw [show cfg0.N = 50 from N_0]; omega
  refine ⟨⟨(i 0 : Nat) / 2048 * 25 + 24, ht⟩, (flush0_3 _).mpr (by show ((i 0 : Nat) / 2048 * 25 + 24) % 25 = 24; omega), ?_⟩
  show i ∈ ((View.whole main_v8).slice (win0_3.rect ⟨(i 0 : Nat) / 2048 * 25 + 24, ht⟩)).set
  rw [View.set_slice_whole, Rect.mem_set_unit]
  intro a
  match a with
  | ⟨0, _⟩ =>
    show win0_3.index ⟨(i 0 : Nat) / 2048 * 25 + 24, ht⟩ 0 * 2048 ≤ (i 0 : Nat)
      ∧ (i 0 : Nat) < win0_3.index ⟨(i 0 : Nat) / 2048 * 25 + 24, ht⟩ 0 * 2048 + 2048
    rw [(idx0_3 _).1]
    show ((i 0 : Nat) / 2048 * 25 + 24) / 25 * 2048 ≤ (i 0 : Nat) ∧ (i 0 : Nat) < ((i 0 : Nat) / 2048 * 25 + 24) / 25 * 2048 + 2048
    omega
  | ⟨1, _⟩ =>
    show win0_3.index ⟨(i 0 : Nat) / 2048 * 25 + 24, ht⟩ 1 * 1 ≤ (i 1 : Nat)
      ∧ (i 1 : Nat) < win0_3.index ⟨(i 0 : Nat) / 2048 * 25 + 24, ht⟩ 1 * 1 + 1
    rw [(idx0_3 _).2]
    omega

/-- THE VALUE: after the region, row r of its output column holds the closed form of row r over the region's arrays. -/
theorem arr0_value (c : Dev nD) (r : Fin 4096) :
    (dat0 (F := Ideal) V c).arrAt 3 cfg0.N (ix2 r 0)
      = Cert.Spec.kTok (V c main_v6) (V c main_arg3) (V c main_v7) r :=
  (congrFun ((dat0 (F := Ideal) V c).arrAt_eq_of_cover 3 (res0 V c) (flushed0_eq V c) (cover0_3 c)) (ix2 r 0)).trans rfl

end Value

end Cert.KernelIdeal.Hand

end
-- ==== Proof.KAccDefs1.lean ====
/-
  kernel region 1, one row block's sweep over the 25 vocabulary tiles as a recursion on the tile: the row block's
  hidden rows, the tile's 1280 vocabulary rows and the row block's label column as blocks of the region's arrays,
  and the two accumulator columns after tiles 0 … n — tile 0 adds to zero columns, every later tile adds to what
  the tile before left.
-/
import proofs.«407363_j58059367907835_3_alg».proof.Proof.Gen.KernelIdeal.Skeleton
import proofs.«407363_j58059367907835_3_alg».proof.Proof.KTok
import proofs.«407363_j58059367907835_3_alg».proof.Proof.KBlocks

noncomputable section

open scoped BigOperators

namespace Cert.KernelIdeal.Hand

open Cert.KernelIdeal Cert.KernelIdeal.Gen
open Idealize.ShloMosaic Idealize.ShloMosaic.ValueIdx

/-- The sum-of-exponentials column after tiles 0 … n of a row block (wv n is tile n's block of the matrix). -/
def accL1 (x : Vec Ideal S2048x2048 .bf16) (wv : ℕ → Vec Ideal S1280x2048 .f32) : ℕ → Vec Ideal S2048x1 .f32
  | 0 => k1_pay6 (F := Ideal) (wv 0) x (k1_pay2 (F := Ideal))
  | n + 1 => k1_pay6 (F := Ideal) (wv (n + 1)) x (accL1 x wv n)

/-- The label-logit column after tiles 0 … n of a row block (iv n is tile n's grid point). -/
def accT1 (x : Vec Ideal S2048x2048 .bf16) (wv : ℕ → Vec Ideal S1280x2048 .f32) (y : Vec Ideal S2048x1 .i32) (iv : ℕ → grid1.Coords) : ℕ → Vec Ideal S2048x1 .f32
  | 0 => k1_pay5 (F := Ideal) (iv 0) (wv 0) x y (k1_pay3 (F := Ideal))
  | n + 1 => k1_pay5 (F := Ideal) (iv (n + 1)) (wv (n + 1)) x y (accT1 x wv y iv n)

end Cert.KernelIdeal.Hand

end
-- ==== Proof.KAcc1.lean ====
/-
  Kernel region 1, one row block's sweep over the 25 vocabulary tiles in closed form. After tiles 0 … n the sum-of-exponentials
  column holds, at row q, the sum over those tiles' lanes of the exponentials of the row's logits, and the label-logit column the
  sum of the logits at the lanes whose number is the label less the tile's base. A class number j below 32000 is tile j / 1280,
  lane j % 1280, so after the last tile the first is the sum over all 32000 classes and the second the label's logit (or zero
  when the label is no class); the stored result is the closed form of the row.
-/
import proofs.«407363_j58059367907835_3_alg».proof.Proof.KAccDefs1
import proofs.«407363_j58059367907835_3_alg».proof.Proof.KPay
import Mathlib.Algebra.BigOperators.Fin
import Mathlib.Algebra.BigOperators.Group.Finset.Basic
import Mathlib.Data.Fintype.BigOperators
import proofs.«407363_j58059367907835_3_alg».proof.Proof.KAcc0

noncomputable section

open scoped BigOperators

namespace Cert.KernelIdeal.Hand

open Cert.KernelIdeal Cert.KernelIdeal.Gen
open Idealize.ShloMosaic Idealize.ShloMosaic.ValueIdx

/-! ## Kernel 1's sweep -/

/-- A tile's logit at (q, c) is the row's logit against class `v * 1280 + c`. -/
theorem tile_logit1 (X : Cert.Spec.SXf.Idx → EReal) (W : Cert.Spec.SW.Idx → EReal) (rb : ℕ) (hrb : rb < 2) (v : ℕ) (hv : v < 25)
    (q : Fin 2048) (c : Fin 1280) :
    k1_pay4 (F := Ideal) (wblk W v hv) (xblk X rb hrb) (ix2 q c)
      = Cert.Spec.rowLogit X W ⟨rb * 2048 + q.val, by omega⟩ ⟨v * 1280 + c.val, by omega⟩ := by
  rw [k1_pay4_apply]
  rfl

/-- The sum-of-exponentials column after tiles 0 … n. -/
theorem accL1_apply (x : Vec Ideal S2048x2048 .bf16) (wv : ℕ → Vec Ideal S1280x2048 .f32) (n : ℕ) (q : Fin 2048) :
    accL1 x wv n (ix2 q 0)
      = ∑ v ∈ Finset.range (n + 1), ∑ c : Fin 1280, Ideal.exp (k1_pay4 (F := Ideal) (wv v) x (ix2 q c)) := by
  induction n with
  | zero =>
    rw [Finset.sum_range_one]
    show k1_pay6 (F := Ideal) (wv 0) x (k1_pay2 (F := Ideal)) (ix2 q 0) = _
    rw [k1_pay6_apply, k1_pay2_apply, zero_add]
  | succ n ih =>
    rw [Finset.sum_range_succ, ← ih]
    show k1_pay6 (F := Ideal) (wv (n + 1)) x (accL1 x wv n) (ix2 q 0) = _
    rw [k1_pay6_apply]

/-- The label-logit column after tiles 0 … n. -/
theorem accT1_apply (x : Vec Ideal S2048x2048 .bf16) (wv : ℕ → Vec Ideal S1280x2048 .f32) (y : Vec Ideal S2048x1 .i32)
    (iv : ℕ → grid1.Coords) (n : ℕ) (q : Fin 2048) :
    accT1 x wv y iv n (ix2 q 0)
      = ∑ v ∈ Finset.range (n + 1), ∑ c : Fin 1280,
          (if y (ix2 q 0) - BitVec.ofNat 32 ((iv v) 1).val * 1280#32 = BitVec.ofNat 32 c.val
            then k1_pay4 (F := Ideal) (wv v) x (ix2 q c) else 0) := by
  induction n with
  | zero =>
    rw [Finset.sum_range_one]
    show k1_pay5 (F := Ideal) (iv 0) (wv 0) x y (k1_pay3 (F := Ideal)) (ix2 q 0) = _
    rw [k1_pay5_apply, k1_pay3_apply, zero_add]
  | succ n ih =>
    rw [Finset.sum_range_succ, ← ih]
    show k1_pay5 (F := Ideal) (iv (n + 1)) (wv (n + 1)) x y (accT1 x wv y iv n) (ix2 q 0) = _
    rw [k1_pay5_apply]

/-- After the last tile the stored result at row q of row block rb is the closed form of row `rb * 2048 + q`. -/
theorem acc1_final (X : Cert.Spec.SXf.Idx → EReal) (W : Cert.Spec.SW.Idx → EReal) (Ys : Cert.Spec.SC.Idx → BitVec 32) (rb : ℕ) (hrb : rb < 2)
    (wv : ℕ → Vec Ideal S1280x2048 .f32) (hwv : ∀ v (hv : v < 25), wv v = wblk W v hv)
    (iv : ℕ → grid1.Coords) (hiv : ∀ v, v < 25 → ((iv v) 1).val = v) (q : Fin 2048) :
    k1_pay1 (F := Ideal) (accT1 (xblk X rb hrb) wv (yblk Ys rb hrb) iv 24) (accL1 (xblk X rb hrb) wv 24) (ix2 q 0)
      = Cert.Spec.kTok X W Ys ⟨rb * 2048 + q.val, by omega⟩ := by
  have hr : rb * 2048 + q.val < 4096 := by omega
  have hL : accL1 (xblk X rb hrb) wv 24 (ix2 q 0)
      = ∑ j : Fin 32000, Ideal.exp (Cert.Spec.rowLogit X W ⟨rb * 2048 + q.val, hr⟩ j) := by
    rw [accL1_apply, Finset.sum_range, ← sum_tiles]
    refine Finset.sum_congr rfl fun v _ => Finset.sum_congr rfl fun c _ => ?_
    rw [hwv v.val v.isLt, tile_logit1]
  have hT : accT1 (xblk X rb hrb) wv (yblk Ys rb hrb) iv 24 (ix2 q 0)
      = if h : (Ys (ix2 ⟨rb * 2048 + q.val, hr⟩ 0)).toNat < 32000
          then Cert.Spec.rowLogit X W ⟨rb * 2048 + q.val, hr⟩ ⟨(Ys (ix2 ⟨rb * 2048 + q.val, hr⟩ 0)).toNat, h⟩ else 0 := by
    rw [accT1_apply, Finset.sum_range, ← pick_label, ← sum_tiles]
    refine Finset.sum_congr rfl fun v _ => Finset.sum_congr rfl fun c _ => ?_
    rw [hwv v.val v.isLt, hiv v.val v.isLt, tile_logit1]
    exact if_congr (tile_cond_iff (Ys (ix2 ⟨rb * 2048 + q.val, hr⟩ 0)) v.val c.val v.isLt c.isLt) rfl rfl
  rw [k1_pay1_apply, hT, hL]
  rfl

end Cert.KernelIdeal.Hand

end
-- ==== Proof.KValue1.lean ====
/-
  The value kernel region 1 leaves in its output column. Each control case of the body leaves, in the two accumulator
  columns and in the output column, the body's arithmetic applied to the blocks it loads; a point's blocks are a row
  block of the hidden rows, a vocabulary tile of the matrix and a row block of the label column; by induction on the
  tile the accumulator columns after tile v of a row block are the recursion's columns after tiles 0 … v; at the
  last tile the stored column is the closed form of each row, and the two row blocks' write-backs cover the array.
-/
import proofs.«407363_j58059367907835_3_alg».proof.Proof.R1Frame
import proofs.«407363_j58059367907835_3_alg».proof.Proof.KPay
import proofs.«407363_j58059367907835_3_alg».proof.Proof.KAccDefs1
import proofs.«407363_j58059367907835_3_alg».proof.Proof.KBlocks
import proofs.«407363_j58059367907835_3_alg».proof.Proof.KAcc1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

theorem hz1 : (![0, 0] : Fin 2 → Nat) = fun _ => 0 := funext fun a => by fin_cases a <;> rfl

/-! ## What each control case leaves, as the body's arithmetic on the blocks it loads -/

/-- At a row block's first tile the sum-of-exponentials column is the tile's sum added to the zero column. -/
theorem sval1_A_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) :
    sout1_A_0 c i arg2 harg2 arg3 harg3 arg4 harg4 arg5 harg5 arg6 harg6 arg7 harg7 hc0 hc1 x0 x1 x2 = k1_pay6 x1 x0 k1_pay2 := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_words
  rw [View.canon_cons_unit_zero (S := S2048x1) hz1]
  simp only [View.readAt_eq_ld, harg2.read_unread, harg3.read_unread, harg4.read_unread, harg6.read_unread, harg7.read_unread, View.ld_unit_zero (S := S2048x2048) hz1, View.ld_unit_zero (S := S1280x2048) hz1, View.ld_unit_zero (S := S2048x1) hz1, View.readCov_unit_zero (S := S2048x1) _ hz1]

/-- At a row block's first tile the label-logit column is the tile's label logit added to the zero column. -/
theorem sval1_A_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : cond1_0 i) (hc1 : ¬cond1_1 i) (x0 : Vec F S2048x2048 .bf16) (x1 : Vec F S1280x2048 .f32) (x2 : Vec F S2048x1 .i32) :
    sout1_A_1 c i arg2 harg2 arg3 harg3 arg4 harg4 arg5 harg5 arg6 harg6 arg7 harg7 hc0 hc1 x0 x1 x2 = k1_pay5 i x1 x0 x2 k1_pay3 := by
  unfold sout1_A_1
  rw [View.read_writes_eq_canon _ _ _ (scover1_A_1 c i arg2 harg2 arg3 harg3 arg4 harg4 arg5 harg5 arg6 harg6 arg7 harg7 hc0 hc1 x0 x1 x2)]
  unfold kernelRun1_A
  dsimp only
  sl_unfold_words
  rw [View.canon_cons_unit_zero (S := S2048x1) hz1]
  simp only [View.readAt_eq_ld, harg2.read_unread, harg3.read_unread, harg4.read_unread, harg6.read_unread, harg7.read_unread, View.ld_unit_zero (S := S2048x2048) hz1, View.ld_unit_zero (S := S1280x2048) hz1, View.ld_unit_zero (S := S2048x1) hz1, View.readCov_unit_zero (S := S2048x1) _ hz1]

/-- At a middle tile the sum-of-exponentials column gains the tile's sum. -/
theorem sval1_B_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) :
    sout1_B_0 c i arg2 harg2 arg3 harg3 arg4 harg4 arg5 harg5 arg6 harg6 arg7 harg7 hc0 hc1 x0 x1 x2 xs0 xs1 = k1_pay6 x1 x0 xs0 := by
  unfold sout1_B_0
  rw [View.read_writes_eq_canon _ _ _ (scover1_B_0 c i arg2 harg2 arg3 harg3 arg4 harg4 arg5 harg5 arg6 harg6 arg7 harg7 hc0 hc1 x0 x1 x2 xs0 xs1)]
  unfold kernelRun1_B
  dsimp only
  sl_unfold_words
  rw [View.canon_unit_zero hz1]
  simp only [View.readAt_eq_ld, harg2.read_unread, harg3.read_unread, harg4.read_unread, harg6.read_unread, harg7.read_unread, View.ld_unit_zero (S := S2048x2048) hz1, View.ld_unit_zero (S := S1280x2048) hz1, View.ld_unit_zero (S := S2048x1) hz1, View.readCov_unit_zero (S := S2048x1) _ hz1]

/-- At a middle tile the label-logit column gains the tile's label logit. -/
theorem sval1_B_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : ¬cond1_1 i) (x0 : Vec F S2048x2048 .bf16) (x1 : Vec F S1280x2048 .f32) (x2 : Vec F S2048x1 .i32) (xs0 xs1 : Vec F S2048x1 .f32) :
    sout1_B_1 c i arg2 harg2 arg3 harg3 arg4 harg4 arg5 harg5 arg6 harg6 arg7 harg7 hc0 hc1 x0 x1 x2 xs0 xs1 = k1_pay5 i x1 x0 x2 xs1 := by
  unfold sout1_B_1
  rw [View.read_writes_eq_canon _ _ _ (scover1_B_1 c i arg2 harg2 arg3 harg3 arg4 harg4 arg5 harg5 arg6 harg6 arg7 harg7 hc0 hc1 x0 x1 x2 xs0 xs1)]
  unfold kernelRun1_B
  dsimp only
  sl_unfold_words
  rw [View.canon_unit_zero hz1]
  simp only [View.readAt_eq_ld, harg2.read_unread, harg3.read_unread, harg4.read_unread, harg6.read_unread, harg7.read_unread, View.ld_unit_zero (S := S2048x2048) hz1, View.ld_unit_zero (S := S1280x2048) hz1, View.ld_unit_zero (S := S2048x1) hz1, View.readCov_unit_zero (S := S2048x1) _ hz1]

/-- At a row block's last tile the sum-of-exponentials column gains the tile's sum. -/
theorem sval1_C_0 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) :
    sout1_C_0 c i arg2 harg2 arg3 harg3 arg4 harg4 arg5 harg5 arg6 harg6 arg7 harg7 hc0 hc1 x0 x1 x2 xs0 xs1 = k1_pay6 x1 x0 xs0 := by
  unfold sout1_C_0
  rw [View.read_writes_eq_canon _ _ _ (scover1_C_0 c i arg2 harg2 arg3 harg3 arg4 harg4 arg5 harg5 arg6 harg6 arg7 harg7 hc0 hc1 x0 x1 x2 xs0 xs1)]
  unfold kernelRun1_C
  dsimp only
  sl_unfold_words
  rw [View.canon_unit_zero hz1]
  simp only [View.readAt_eq_ld, harg2.read_unread, harg3.read_unread, harg4.read_unread, harg6.read_unread, harg7.read_unread, View.ld_unit_zero (S := S2048x2048) hz1, View.ld_unit_zero (S := S1280x2048) hz1, View.ld_unit_zero (S := S2048x1) hz1, View.readCov_unit_zero (S := S2048x1) _ hz1]

/-- At a row block's last tile the label-logit column gains the tile's label logit. -/
theorem sval1_C_1 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) :
    sout1_C_1 c i arg2 harg2 arg3 harg3 arg4 harg4 arg5 harg5 arg6 harg6 arg7 harg7 hc0 hc1 x0 x1 x2 xs0 xs1 = k1_pay5 i x1 x0 x2 xs1 := by
  unfold sout1_C_1
  rw [View.read_writes_eq_canon _ _ _ (scover1_C_1 c i arg2 harg2 arg3 harg3 arg4 harg4 arg5 harg5 arg6 harg6 arg7 harg7 hc0 hc1 x0 x1 x2 xs0 xs1)]
  unfold kernelRun1_C
  dsimp only
  sl_unfold_words
  rw [View.canon_unit_zero hz1]
  simp only [View.readAt_eq_ld, harg2.read_unread, harg3.read_unread, harg4.read_unread, harg6.read_unread, harg7.read_unread, View.ld_unit_zero (S := S2048x2048) hz1, View.ld_unit_zero (S := S1280x2048) hz1, View.ld_unit_zero (S := S2048x1) hz1, View.readCov_unit_zero (S := S2048x1) _ hz1]

/-- At a row block's last tile the output column is the final label logit less the logarithm of the final sum of exponentials. -/
theorem oval1_C_3 (c : Dev nD) (i : grid1.Coords) (arg2 : Memref sig .tc .vmem S2048x2048 .bf16) (harg2 : arg2.IsWhole) (arg3 : Memref sig .tc .vmem S1280x2048 .f32) (harg3 : arg3.IsWhole) (arg4 : Memref sig .tc .vmem S2048x1 .i32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x1 .f32) (harg7 : arg7.IsWhole) (hc0 : ¬cond1_0 i) (hc1 : cond1_1 i) (x0 : Vec F S2048x2048 .bf16) (x1 : Vec F S1280x2048 .f32) (x2 : Vec F S2048x1 .i32) (xs0 xs1 : Vec F S2048x1 .f32) :
    out1_C_3 c i arg2 harg2 arg3 harg3 arg4 harg4 arg5 harg5 arg6 harg6 arg7 harg7 hc0 hc1 x0 x1 x2 xs0 xs1 = k1_pay1 (k1_pay5 i x1 x0 x2 xs1) (k1_pay6 x1 x0 xs0) := by
  unfold out1_C_3
  rw [View.read_writes_eq_canon _ _ _ (cover1_C_3 c i arg2 harg2 arg3 harg3 arg4 harg4 arg5 harg5 arg6 harg6 arg7 harg7 hc0 hc1 x0 x1 x2 xs0 xs1)]
  unfold kernelRun1_C
  dsimp only
  sl_unfold_words
  rw [View.canon_unit_zero hz1]
  simp only [View.readAt_eq_ld, harg2.read_unread, harg3.read_unread, harg4.read_unread, harg6.read_unread, harg7.read_unread, View.ld_unit_zero (S := S2048x2048) hz1, View.ld_unit_zero (S := S1280x2048) hz1, View.ld_unit_zero (S := S2048x1) hz1, View.readCov_unit_zero (S := S2048x1) _ hz1]

/-! ## The blocks a point works on, over the extended reals -/

section Value
variable (V : (c : Dev nD) → (b : Ref sig .tc) → Buf (Elt Ideal) ((c : Thread nD τ).loc b))

/-- Point t is row block t / 25 and vocabulary tile t % 25: the windows' block indices and the tile coordinate. -/
theorem idx1_0 : ∀ t : Fin cfg1.N, win1_0.index t 0 = t.val / 25 ∧ win1_0.index t 1 = 0 :=
  (by decide +kernel : ∀ t : Fin grid1.N, win1_0.index t 0 = t.val / 25 ∧ win1_0.index t 1 = 0)
theorem idx1_1 : ∀ t : Fin cfg1.N, win1_1.index t 0 = t.val % 25 ∧ win1_1.index t 1 = 0 :=
  (by decide +kernel : ∀ t : Fin grid1.N, win1_1.index t 0 = t.val % 25 ∧ win1_1.index t 1 = 0)
theorem idx1_2 : ∀ t : Fin cfg1.N, win1_2.index t 0 = t.val / 25 ∧ win1_2.index t 1 = 0 :=
  (by decide +kernel : ∀ t : Fin grid1.N, win1_2.index t 0 = t.val / 25 ∧ win1_2.index t 1 = 0)
theorem idx1_3 : ∀ t : Fin cfg1.N, win1_3.index t 0 = t.val / 25 ∧ win1_3.index t 1 = 0 :=
  (by decide +kernel : ∀ t : Fin grid1.N, win1_3.index t 0 = t.val / 25 ∧ win1_3.index t 1 = 0)
theorem coord1_1 : ∀ t : Fin cfg1.N, ((grid1.coords t) 1).val = t.val % 25 :=
  (by decide +kernel : ∀ t : Fin grid1.N, ((grid1.coords t) 1).val = t.val % 25)

theorem lt2_point1 (t : Fin cfg1.N) : t.val / 25 < 2 := by
  have h := t.isLt; have hN : cfg1.N = 50 := N_1; omega

/-- The hidden rows' block at point t is row block t / 25. -/
theorem iblk1_0_eq (c : Dev nD) (t : Fin cfg1.N) :
    iblk1 (F := Ideal) V c 0 t = xblk (V c main_v11) (t.val / 25) (lt2_point1 t) := by
  funext j
  unfold iblk1 xblk
  rw [View.read_apply]
  show V c main_v11 _ = V c main_v11 _
  refine congrArg (V c main_v11) ?_
  funext a
  apply Fin.ext
  match a with
  | ⟨0, _⟩ =>
    show win1_0.index t 0 * 2048 + 1 * (j 0).val = t.val / 25 * 2048 + (j 0).val
    rw [(idx1_0 t).1]; omega
  | ⟨1, _⟩ =>
    show win1_0.index t 1 * 2048 + 1 * (j 1).val = (j 1).val
    rw [(idx1_0 t).2]; omega

/-- The matrix's block at point t is vocabulary tile t % 25. -/
theorem iblk1_1_eq (c : Dev nD) (t : Fin cfg1.N) :
    iblk1 (F := Ideal) V c 1 t = wblk (V c main_arg4) (t.val % 25) (Nat.mod_lt _ (by decide)) := by
  funext j
  unfold iblk1 wblk
  rw [View.read_apply]
  show V c main_arg4 _ = V c main_arg4 _
  refine congrArg (V c main_arg4) ?_
  funext a
  apply Fin.ext
  match a with
  | ⟨0, _⟩ =>
    show win1_1.index t 0 * 1280 + 1 * (j 0).val = t.val % 25 * 1280 + (j 0).val
    rw [(idx1_1 t).1]; omega
  | ⟨1, _⟩ =>
    show win1_1.index t 1 * 2048 + 1 * (j 1).val = (j 1).val
    rw [(idx1_1 t).2]; omega

/-- The labels' block at point t is row block t / 25 of the label column. -/
theorem iblk1_2_eq (c : Dev nD) (t : Fin cfg1.N) :
    iblk1 (F := Ideal) V c 2 t = yblk (V c main_v12) (t.val / 25) (lt2_point1 t) := by
  funext j
  unfold iblk1 yblk
  rw [View.read_apply]
  show V c main_v12 _ = V c main_v12 _
  refine congrArg (V c main_v12) ?_
  funext a
  apply Fin.ext
  match a with
  | ⟨0, _⟩ =>
    show win1_2.index t 0 * 2048 + 1 * (j 0).val = t.val / 25 * 2048 + (j 0).val
    rw [(idx1_2 t).1]; omega
  | ⟨1, _⟩ =>
    show win1_2.index t 1 * 1 + 1 * (j 1).val = 0
    have : (j 1).val < 1 := (j 1).isLt
    rw [(idx1_2 t).2]; omega

/-! ## The two accumulator columns after each point -/

/-- Tile v's block of the matrix (tile 0's for a number that is no tile). -/
def wv1 (c : Dev nD) (v : ℕ) : Vec Ideal S1280x2048 .f32 :=
  if hv : v < 25 then wblk (V c main_arg4) v hv else wblk (V c main_arg4) 0 (by decide)

theorem wv1_eq (c : Dev nD) (v : ℕ) (hv : v < 25) : wv1 V c v = wblk (V c main_arg4) v hv := dif_pos hv

/-- The grid point of row block rb's tile v. -/
def iv1 (rb v : ℕ) : grid1.Coords :=
  grid1.coords ⟨(rb * 25 + v) % 50, lt_of_lt_of_eq (Nat.mod_lt _ (by decide)) N_1.symm⟩

theorem iv1_1 (rb v : ℕ) (hv : v < 25) : ((iv1 rb v) 1).val = v := by
  unfold iv1
  rw [coord1_1]
  show (rb * 25 + v) % 50 % 25 = v
  omega

theorem point_coords1 (t : Fin cfg1.N) (rb v : ℕ) (e : t.val = rb * 25 + v) : grid1.coords t = iv1 rb v := by
  unfold iv1
  refine congrArg grid1.coords (Fin.ext ?_)
  show t.val = (rb * 25 + v) % 50
  have h := t.isLt
  have hN : cfg1.N = 50 := N_1
  omega

theorem xblk_congr1 (X : Cert.Spec.SXf.Idx → EReal) {a b : ℕ} (h : a = b) (ha : a < 2) (hb : b < 2) : xblk X a ha = xblk X b hb := by
  subst h; rfl
theorem wblk_congr1 (W : Cert.Spec.SW.Idx → EReal) {a b : ℕ} (h : a = b) (ha : a < 25) (hb : b < 25) : wblk W a ha = wblk W b hb := by
  subst h; rfl
theorem yblk_congr1 (Ys : Cert.Spec.SC.Idx → BitVec 32) {a b : ℕ} (h : a = b) (ha : a < 2) (hb : b < 2) : yblk Ys a ha = yblk Ys b hb := by
  subst h; rfl

/-- The blocks at the point of row block rb's tile v. -/
theorem blocks_at1 (c : Dev nD) (rb : ℕ) (hrb : rb < 2) (v : ℕ) (hv : v < 25) (t : Fin cfg1.N) (e : t.val = rb * 25 + v) :
    iblk1 (F := Ideal) V c 0 t = xblk (V c main_v11) rb hrb ∧ iblk1 (F := Ideal) V c 1 t = wv1 V c v
      ∧ iblk1 (F := Ideal) V c 2 t = yblk (V c main_v12) rb hrb := by
  have hq : t.val / 25 = rb := by omega
  have hm : t.val % 25 = v := by omega
  exact ⟨(iblk1_0_eq V c t).trans (xblk_congr1 (V c main_v11) hq _ hrb),
    (iblk1_1_eq V c t).trans ((wblk_congr1 (V c main_arg4) hm _ hv).trans (wv1_eq V c v hv).symm),
    (iblk1_2_eq V c t).trans (yblk_congr1 (V c main_v12) hq _ hrb)⟩

/-- After the point of row block rb's tile v the two accumulator columns hold the recursion's columns after tiles 0 … v. -/
theorem inv1 (c : Dev nD) (rb : ℕ) (hrb : rb < 2) : ∀ (v : ℕ) (hv : v < 25) (t : Fin cfg1.N), t.val = rb * 25 + v →
    (outsAt1 V c t.val t.isLt).2.1 = accL1 (xblk (V c main_v11) rb hrb) (wv1 V c) v
      ∧ (outsAt1 V c t.val t.isLt).2.2 = accT1 (xblk (V c main_v11) rb hrb) (wv1 V c) (yblk (V c main_v12) rb hrb) (iv1 rb) v
  | 0, hv, t, e => by
    have h0 : t.val % 25 = 0 := by omega
    obtain ⟨e0, e1, e2⟩ := blocks_at1 V c rb hrb 0 hv t e
    have ei := point_coords1 t rb 0 e
    rw [outsAt1_A V c t h0]
    dsimp only
    constructor
    · refine (sval1_A_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t)).trans ?_
      rw [e0, e1]
      rfl
    · refine (sval1_A_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (r1_nc1_of_c0 t h0) (iblk1 V c 0 t) (iblk1 V c 1 t) (iblk1 V c 2 t)).trans ?_
      rw [e0, e1, e2, ei]
      rfl
  | v + 1, hv, t, e => by
    have h0 : ¬t.val % 25 = 0 := by omega
    have hp : t.val - 1 < cfg1.N := Nat.lt_of_le_of_lt (Nat.sub_le _ _) t.isLt
    have ih := inv1 c rb hrb v (by omega) ⟨t.val - 1, hp⟩ (by show t.val - 1 = rb * 25 + v; omega)
    have ihL : (outsAt1 V c (t.val - 1) (Nat.lt_of_le_of_lt (Nat.sub_le _ _) t.isLt)).2.1
        = accL1 (xblk (V c main_v11) rb hrb) (wv1 V c) v := ih.1
    have ihT : (outsAt1 V c (t.val - 1) (Nat.lt_of_le_of_lt (Nat.sub_le _ _) t.isLt)).2.2
        = accT1 (xblk (V c main_v11) rb hrb) (wv1 V c) (yblk (V c main_v12) rb hrb) (iv1 rb) v := ih.2
    obtain ⟨e0, e1, e2⟩ := blocks_at1 V c rb hrb (v + 1) hv t e
    have ei := point_coords1 t rb (v + 1) e
    by_cases h1 : t.val % 25 = 24
    · rw [outsAt1_C V c t h0 h1]
      dsimp only
      constructor
      · refine (sval1_C_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans ?_
        rw [e0, e1, ihL]
        rfl
      · refine (sval1_C_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans ?_
        rw [e0, e1, e2, ei, ihT]
        rfl
    · rw [outsAt1_B V c t h0 h1]
      dsimp only
      constructor
      · refine (sval1_B_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans ?_
        rw [e0, e1, ihL]
        rfl
      · refine (sval1_B_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) (r1_nc1_of_n1 t h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans ?_
        rw [e0, e1, e2, ei, ihT]
        rfl

/-- At a row block's last tile the output column's staging buffer holds the final label logit less the logarithm of
    the final sum of exponentials. -/
theorem out1_last (c : Dev nD) (rb : ℕ) (hrb : rb < 2) (t : Fin cfg1.N) (e : t.val = rb * 25 + 24) :
    (outsAt1 V c t.val t.isLt).1
      = k1_pay1 (F := Ideal) (accT1 (xblk (V c main_v11) rb hrb) (wv1 V c) (yblk (V c main_v12) rb hrb) (iv1 rb) 24)
          (accL1 (xblk (V c main_v11) rb hrb) (wv1 V c) 24) := by
  have h0 : ¬t.val % 25 = 0 := by omega
  have h1 : t.val % 25 = 24 := by omega
  have hp : t.val - 1 < cfg1.N := Nat.lt_of_le_of_lt (Nat.sub_le _ _) t.isLt
  have ih := inv1 V c rb hrb 23 (by decide) ⟨t.val - 1, hp⟩ (by show t.val - 1 = rb * 25 + 23; omega)
  have ihL : (outsAt1 V c (t.val - 1) (Nat.lt_of_le_of_lt (Nat.sub_le _ _) t.isLt)).2.1
      = accL1 (xblk (V c main_v11) rb hrb) (wv1 V c) 23 := ih.1
  have ihT : (outsAt1 V c (t.val - 1) (Nat.lt_of_le_of_lt (Nat.sub_le _ _) t.isLt)).2.2
      = accT1 (xblk (V c main_v11) rb hrb) (wv1 V c) (yblk (V c main_v12) rb hrb) (iv1 rb) 23 := ih.2
  obtain ⟨e0, e1, e2⟩ := blocks_at1 V c rb hrb 24 (by decide) t e
  have ei := point_coords1 t rb 24 e
  rw [outsAt1_C V c t h0 h1]
  dsimp only
  refine (oval1_C_3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) (r1_nc0_of_n0 t h0) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2).trans ?_
  rw [e0, e1, e2, ei, ihL, ihT]
  rfl

/-! ## The output column as the region leaves it -/

/-- Row r of the output column: the closed form of row r over the region's three arrays. -/
def res1 (c : Dev nD) : S4096x1.Idx → EReal :=
  fun i => Cert.Spec.kTok (V c main_v11) (V c main_arg4) (V c main_v12) ⟨(i 0).val, (i 0).isLt⟩

/-- What a row block's last point writes back is that row block of the closed form. -/
theorem flushed1_eq (c : Dev nD) (t : Fin cfg1.N) (hf : (cfg1.win 3).flush t = true) :
    (dat1 (F := Ideal) V c).flushed 3 t = ((cfg1.win 3).blk t).view.read (Elt Ideal) (res1 V c) := by
  have h24 : t.val % 25 = 24 := (flush1_3 t).mp hf
  have hrb : t.val / 25 < 2 := lt2_point1 t
  show (cfg1.win 3).cut (grid1.coords t) ((dat1 (F := Ideal) V c).after 3 t) = _
  rw [after1_3, out1_last V c (t.val / 25) hrb t (by omega)]
  funext j
  obtain ⟨q, rfl⟩ : ∃ q : Fin 2048, j = ix2 q 0 := ⟨j 0, eq_ix2_col j⟩
  rw [View.read_apply]
  show k1_pay1 (F := Ideal) (accT1 (xblk (V c main_v11) (t.val / 25) hrb) (wv1 V c) (yblk (V c main_v12) (t.val / 25) hrb) (iv1 (t.val / 25)) 24)
      (accL1 (xblk (V c main_v11) (t.val / 25) hrb) (wv1 V c) 24) (ix2 q 0) = res1 V c _
  refine (acc1_final (V c main_v11) (V c main_arg4) (V c main_v12) (t.val / 25) hrb (wv1 V c) (fun v hv => wv1_eq V c v hv)
    (iv1 (t.val / 25)) (fun v hv => iv1_1 (t.val / 25) v hv) q).trans ?_
  unfold res1
  refine congrArg (Cert.Spec.kTok (V c main_v11) (V c main_arg4) (V c main_v12)) (Fin.ext ?_)
  show t.val / 25 * 2048 + q.val = win1_3.index t 0 * 2048 + 1 * q.val
  rw [(idx1_3 t).1]
  omega

/-- The two row blocks' last points cover the output column. -/
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0 : Nat) < 4096 := (i 0).isLt
  have h1 : (i 1 : Nat) < 1 := (i 1).isLt
  have ht : (i 0 : Nat) / 2048 * 25 + 24 < cfg1.N := by rw [show cfg1.N = 50 from N_1]; omega
  refine ⟨⟨(i 0 : Nat) / 2048 * 25 + 24, ht⟩, (flush1_3 _).mpr (by show ((i 0 : Nat) / 2048 * 25 + 24) % 25 = 24; omega), ?_⟩
  show i ∈ ((View.whole main_v13).slice (win1_3.rect ⟨(i 0 : Nat) / 2048 * 25 + 24, ht⟩)).set
  rw [View.set_slice_whole, Rect.mem_set_unit]
  intro a
  match a with
  | ⟨0, _⟩ =>
    show win1_3.index ⟨(i 0 : Nat) / 2048 * 25 + 24, ht⟩ 0 * 2048 ≤ (i 0 : Nat)
      ∧ (i 0 : Nat) < win1_3.index ⟨(i 0 : Nat) / 2048 * 25 + 24, ht⟩ 0 * 2048 + 2048
    rw [(idx1_3 _).1]
    show ((i 0 : Nat) / 2048 * 25 + 24) / 25 * 2048 ≤ (i 0 : Nat) ∧ (i 0 : Nat) < ((i 0 : Nat) / 2048 * 25 + 24) / 25 * 2048 + 2048
    omega
  | ⟨1, _⟩ =>
    show win1_3.index ⟨(i 0 : Nat) / 2048 * 25 + 24, ht⟩ 1 * 1 ≤ (i 1 : Nat)
      ∧ (i 1 : Nat) < win1_3.index ⟨(i 0 : Nat) / 2048 * 25 + 24, ht⟩ 1 * 1 + 1
    rw [(idx1_3 _).2]
    omega

/-- THE VALUE: after the region, row r of its output column holds the closed form of row r over the region's arrays. -/
theorem arr1_value (c : Dev nD) (r : Fin 4096) :
    (dat1 (F := Ideal) V c).arrAt 3 cfg1.N (ix2 r 0)
      = Cert.Spec.kTok (V c main_v11) (V c main_arg4) (V c main_v12) r :=
  (congrFun ((dat1 (F := Ideal) V c).arrAt_eq_of_cover 3 (res1 V c) (flushed1_eq V c) (cover1_3 c)) (ix2 r 0)).trans rfl

end Value

end Cert.KernelIdeal.Hand

end
-- ==== Proof.KHost.lean ====
/-
  What the host operations of the kernel's entry point compute around its two fused regions: the label mask, the
  hidden states flattened to [4096, 2048] and rounded to bf16, the labels with the ignore marker replaced by class 0
  as a column [4096, 1], a region's per-token column folded back to [8, 512], and the scalar tail (masked means per
  sequence, the difference of the chosen and rejected margins scaled by 0.1, minus the mean of its log-sigmoid).
-/
import proofs.«407363_j58059367907835_3_alg».proof.Proof.Gen.KernelIdeal.Regions
import Idealize.ShloMosaic.Lib.StableHlo.Run
import Idealize.ShloMosaic.Lib.Pipeline.Value
import Idealize.ShloMosaic.Lib.ValueIdx

noncomputable section

namespace Cert.KernelIdeal.Hand

open Idealize.ShloMosaic Idealize.ShloMosaic.TcCoe
open Idealize.SL.Sem
open Cert.KernelIdeal Cert.KernelIdeal.Gen

variable {F : FTy → Type} [FloatOps F]

/-! ## The functions -/

/-- The label mask: true where the label is not the ignore marker -100. -/
def maskOf (y : (⟨S8x512, .i32⟩ : BufTy).Contents (Elt F)) : (⟨S8x512, .i1⟩ : BufTy).Contents (Elt F) :=
  cmpi .ne y (broadcastInDim S8x512 ![] bcast_S_S8x512 (constantI S_ 32 4294967196#32))

/-- The labels with the ignore marker replaced by class 0. -/
def safeOf (y : (⟨S8x512, .i32⟩ : BufTy).Contents (Elt F)) : (⟨S8x512, .i32⟩ : BufTy).Contents (Elt F) :=
  select (maskOf y) y (broadcastInDim S8x512 ![] bcast_S_S8x512 (id (constantI S_ 32 0#32)))

/-- The safe labels flattened to [4096]. -/
def ysFlat (y : (⟨S8x512, .i32⟩ : BufTy).Contents (Elt F)) : (⟨S4096, .i32⟩ : BufTy).Contents (Elt F) :=
  shapeCast S4096 (safeOf y) shapeCasts_S8x512_S4096

/-- The safe labels as a column [4096, 1]. -/
def ysOf (y : (⟨S8x512, .i32⟩ : BufTy).Contents (Elt F)) : (⟨S4096x1, .i32⟩ : BufTy).Contents (Elt F) :=
  broadcastInDim S4096x1 ![0] bcast_S4096_S4096x1_0 (ysFlat y)

/-- The hidden states flattened to [4096, 2048]. -/
def xFlat (x : (⟨S8x512x2048, .f32⟩ : BufTy).Contents (Elt F)) : (⟨S4096x2048, .f32⟩ : BufTy).Contents (Elt F) :=
  shapeCast S4096x2048 x shapeCasts_S8x512x2048_S4096x2048

/-- The hidden states flattened to [4096, 2048] and rounded to bf16. -/
def xOf (x : (⟨S8x512x2048, .f32⟩ : BufTy).Contents (Elt F)) : (⟨S4096x2048, .bf16⟩ : BufTy).Contents (Elt F) :=
  truncf .bf16 (xFlat x) bitsLt_bf16_f32

/-- A region's per-token column [4096, 1] folded back to [8, 512]. -/
def tokOf (o : (⟨S4096x1, .f32⟩ : BufTy).Contents (Elt F)) : (⟨S8x512, .f32⟩ : BufTy).Contents (Elt F) :=
  shapeCast S8x512 (shapeCast S4096 o shapeCasts_S4096x1_S4096) shapeCasts_S4096_S8x512

/-- The per-token values kept where the mask holds, a scalar elsewhere. -/
def whereOf (mask : (⟨S8x512, .i1⟩ : BufTy).Contents (Elt F)) (v : (⟨S8x512, .f32⟩ : BufTy).Contents (Elt F))
    (z : (⟨S_, .f32⟩ : BufTy).Contents (Elt F)) : (⟨S8x512, .f32⟩ : BufTy).Contents (Elt F) :=
  select mask v (broadcastInDim S8x512 ![] bcast_S_S8x512 (id z))

/-- The number of kept tokens of each sequence, at least 1, as a float. -/
def countOf (mask : (⟨S8x512, .i1⟩ : BufTy).Contents (Elt F)) : (⟨S8, .f32⟩ : BufTy).Contents (Elt F) :=
  sitofp .f32 (maxsi (Host.reduce IntOp.addi (extui 32 mask natLt_1_32) (constantI S_ 32 0#32) reducesTo_S8x512_S8_d1 h_S_)
    (broadcastInDim S8 ![] bcast_S_S8 (constantI S_ 32 1#32)))

/-- The mean of the kept per-token values of each sequence. -/
def meanOf (mask : (⟨S8x512, .i1⟩ : BufTy).Contents (Elt F)) (v : (⟨S8x512, .f32⟩ : BufTy).Contents (Elt F)) :
    (⟨S8, .f32⟩ : BufTy).Contents (Elt F) :=
  Host.divf (Host.reduceAdd (whereOf mask v (constant S_ .f32 0x00000000#32)) (constant S_ .f32 0x00000000#32) reducesTo_S8x512_S8_d1 h_S_)
    (countOf mask)

/-- 0.1 times the chosen-minus-rejected margin of the policy less that of the reference model. -/
def marginOf (a b : (⟨S8, .f32⟩ : BufTy).Contents (Elt F)) : (⟨S4, .f32⟩ : BufTy).Contents (Elt F) :=
  mulf (broadcastInDim S4 ![] bcast_S_S4 (constant S_ .f32 0x3DCCCCCD#32))
    (subf (subf (extractStridedSlice S4 ![0] a slices_S8_S4_0) (extractStridedSlice S4 ![0] b slices_S8_S4_0))
      (subf (extractStridedSlice S4 ![4] a slices_S8_S4_4) (extractStridedSlice S4 ![4] b slices_S8_S4_4)))

/-- The softplus as printed: max(u, 0) + log1p(exp(-|u - 0|)), u + 0 where u - 0 is not a number. -/
def softplusOf (u : (⟨S4, .f32⟩ : BufTy).Contents (Elt F)) : (⟨S4, .f32⟩ : BufTy).Contents (Elt F) :=
  select (cmpf .une (subf u (broadcastInDim S4 ![] bcast_S_S4 (constant S_ .f32 0x00000000#32)))
      (subf u (broadcastInDim S4 ![] bcast_S_S4 (constant S_ .f32 0x00000000#32))))
    (addf u (broadcastInDim S4 ![] bcast_S_S4 (constant S_ .f32 0x00000000#32)))
    (addf (maximumf u (broadcastInDim S4 ![] bcast_S_S4 (constant S_ .f32 0x00000000#32)))
      (Host.log1p (Host.exp (Host.negf (Host.absf (subf u (broadcastInDim S4 ![] bcast_S_S4 (constant S_ .f32 0x00000000#32))))))))

/-- The log-sigmoid as printed: minus the softplus of the negation. -/
def logSigmoidOf (z : (⟨S4, .f32⟩ : BufTy).Contents (Elt F)) : (⟨S4, .f32⟩ : BufTy).Contents (Elt F) :=
  Host.negf (softplusOf (Host.negf z))

/-- The scalar the entry point returns, from the label mask and the two regions' per-token results. -/
def tailOf (mask : (⟨S8x512, .i1⟩ : BufTy).Contents (Elt F)) (tp tr : (⟨S8x512, .f32⟩ : BufTy).Contents (Elt F)) :
    (⟨S_, .f32⟩ : BufTy).Contents (Elt F) :=
  Host.divf (Host.negf (Host.reduceAdd (logSigmoidOf (marginOf (meanOf mask tp) (meanOf mask tr))) (constant S_ .f32 0x00000000#32)
    reducesTo_S4_S_d0 h_S_)) (constant S_ .f32 0x40800000#32)

/-! ## Each stretch of host operations, from any contents -/

section Stretches
variable (W : Valuation τ sig (Elt F))

theorem ops0_v1 : StableHlo.after hostOps0 W (Proc.devRef .tc main_v1) = maskOf (W (Proc.devRef .tc main_arg2)) := by
  after_results <;> rfl
theorem ops0_c0 : StableHlo.after hostOps0 W (Proc.devRef .tc main_c_0) = constantI S_ 32 0#32 := by
  after_results <;> rfl
theorem ops01_v2 : StableHlo.after hostOps0_1 W (Proc.devRef .tc main_v2)
    = select (W (Proc.devRef .tc main_v1)) (W (Proc.devRef .tc main_arg2)) (broadcastInDim S8x512 ![] bcast_S_S8x512 (id (W (Proc.devRef .tc main_c_0)))) := by
  after_results <;> rfl
theorem ops02_v3 : StableHlo.after hostOps0_2 W (Proc.devRef .tc main_v3) = shapeCast S4096 (W (Proc.devRef .tc main_v2)) shapeCasts_S8x512_S4096 := by
  after_results <;> rfl
theorem ops02_v5 : StableHlo.after hostOps0_2 W (Proc.devRef .tc main_v5) = xFlat (W (Proc.devRef .tc main_arg1)) := by
  after_results <;> rfl
theorem ops02_v6 : StableHlo.after hostOps0_2 W (Proc.devRef .tc main_v6) = xOf (W (Proc.devRef .tc main_arg0)) := by
  after_results <;> rfl
theorem ops02_v7 : StableHlo.after hostOps0_2 W (Proc.devRef .tc main_v7)
    = broadcastInDim S4096x1 ![0] bcast_S4096_S4096x1_0 (shapeCast S4096 (W (Proc.devRef .tc main_v2)) shapeCasts_S8x512_S4096) := by
  after_results <;> rfl
theorem ops1_v10 : StableHlo.after hostOps1 W (Proc.devRef .tc main_v10) = tokOf (W (Proc.devRef .tc main_v8)) := by
  after_results <;> rfl
theorem ops1_v11 : StableHlo.after hostOps1 W (Proc.devRef .tc main_v11) = truncf .bf16 (W (Proc.devRef .tc main_v5)) bitsLt_bf16_f32 := by
  after_results <;> rfl
theorem ops1_v12 : StableHlo.after hostOps1 W (Proc.devRef .tc main_v12)
    = broadcastInDim S4096x1 ![0] bcast_S4096_S4096x1_0 (W (Proc.devRef .tc main_v3)) := by
  after_results <;> rfl
theorem ops2_v15 : StableHlo.after hostOps2 W (Proc.devRef .tc main_v15) = tokOf (W (Proc.devRef .tc main_v13)) := by
  after_results <;> rfl
theorem ops2_cst : StableHlo.after hostOps2 W (Proc.devRef .tc main_cst) = constant S_ .f32 0x00000000#32 := by
  after_results <;> rfl
theorem ops21_v16 : StableHlo.after hostOps2_1 W (Proc.devRef .tc main_v16)
    = whereOf (W (Proc.devRef .tc main_v1)) (W (Proc.devRef .tc main_v10)) (W (Proc.devRef .tc main_cst)) := by
  after_results <;> rfl
theorem ops22_cst1 : StableHlo.after hostOps2_2 W (Proc.devRef .tc main_cst_1) = constant S_ .f32 0x00000000#32 := by
  after_results <;> rfl
theorem ops23_v17 : StableHlo.after hostOps2_3 W (Proc.devRef .tc main_v17)
    = whereOf (W (Proc.devRef .tc main_v1)) (W (Proc.devRef .tc main_v15)) (W (Proc.devRef .tc main_cst_1)) := by
  after_results <;> rfl

end Stretches

section Tail
variable (W : Valuation τ sig (Elt F))

theorem ops24_v36 : StableHlo.after hostOps2_4 W (Proc.devRef .tc main_v36)
    = marginOf
        (Host.divf (Host.reduceAdd (W (Proc.devRef .tc main_v16)) (constant S_ .f32 0x00000000#32) reducesTo_S8x512_S8_d1 h_S_) (countOf (W (Proc.devRef .tc main_v1))))
        (Host.divf (Host.reduceAdd (W (Proc.devRef .tc main_v17)) (constant S_ .f32 0x00000000#32) reducesTo_S8x512_S8_d1 h_S_) (countOf (W (Proc.devRef .tc main_v1)))) := by
  after_results_simp <;> rfl
theorem ops25_v37 : StableHlo.after hostOps2_5 W (Proc.devRef .tc main_v37) = logSigmoidOf (W (Proc.devRef .tc main_v36)) := by
  after_results_simp <;> (try simp only [StableHlo.TRef.ofBuf, StableHlo.TRef.toBuf, cast_eq]) <;> rfl
theorem ops26_v40 : StableHlo.after hostOps2_6 W (Proc.devRef .tc main_v40)
    = Host.divf (Host.negf (Host.reduceAdd (W (Proc.devRef .tc main_v37)) (constant S_ .f32 0x00000000#32) reducesTo_S4_S_d0 h_S_)) (constant S_ .f32 0x40800000#32) := by
  after_results <;> rfl

end Tail

/-! ## The valuations between the items -/

section Chain
variable (m : (ℓ : Loc nD τ sig) → Buf (Elt F) ℓ) (outs : Outs (F := F))

/-! ### Up to the first region -/

theorem V1_v1 (c : Dev nD) : V1 m c main_v1 = maskOf (m ((c : Thread nD τ).loc main_arg2)) := ops0_v1 (V0 m c)
theorem V1_c0 (c : Dev nD) : V1 m c main_c_0 = constantI S_ 32 0#32 := ops0_c0 (V0 m c)
theorem V1_arg2 (c : Dev nD) : V1 m c main_arg2 = m ((c : Thread nD τ).loc main_arg2) := (V1_of m c main_arg2 (by decide)).trans rfl

theorem V2_v2 (c : Dev nD) : V2 m c main_v2 = safeOf (m ((c : Thread nD τ).loc main_arg2)) := by
  refine (ops01_v2 (V1 m c)).trans ?_
  rw [V1_v1 m c, V1_c0 m c, V1_arg2 m c]; rfl
theorem V2_arg0 (c : Dev nD) : V2 m c main_arg0 = m ((c : Thread nD τ).loc main_arg0) :=
  (V2_of m c main_arg0 (by decide)).trans <| (V1_of m c main_arg0 (by decide)).trans rfl
theorem V2_arg1 (c : Dev nD) : V2 m c main_arg1 = m ((c : Thread nD τ).loc main_arg1) :=
  (V2_of m c main_arg1 (by decide)).trans <| (V1_of m c main_arg1 (by decide)).trans rfl

/-- The first region's hidden-state operand: the first argument flattened and rounded. -/
theorem V3_v6 (c : Dev nD) : V3 m c main_v6 = xOf (m ((c : Thread nD τ).loc main_arg0)) := by
  refine (ops02_v6 (V2 m c)).trans ?_
  rw [V2_arg0 m c]
/-- The first region's label operand: the safe labels as a column. -/
theorem V3_v7 (c : Dev nD) : V3 m c main_v7 = ysOf (m ((c : Thread nD τ).loc main_arg2)) := by
  refine (ops02_v7 (V2 m c)).trans ?_
  rw [V2_v2 m c]; rfl
/-- The first region's matrix operand: the fourth argument as launched. -/
theorem V3_arg3 (c : Dev nD) : V3 m c main_arg3 = m ((c : Thread nD τ).loc main_arg3) :=
  (V3_of m c main_arg3 (by decide)).trans <| (V2_of m c main_arg3 (by decide)).trans <| (V1_of m c main_arg3 (by decide)).trans rfl
theorem V3_v3 (c : Dev nD) : V3 m c main_v3 = ysFlat (m ((c : Thread nD τ).loc main_arg2)) := by
  refine (ops02_v3 (V2 m c)).trans ?_
  rw [V2_v2 m c]; rfl
theorem V3_v5 (c : Dev nD) : V3 m c main_v5 = xFlat (m ((c : Thread nD τ).loc main_arg1)) := by
  refine (ops02_v5 (V2 m c)).trans ?_
  rw [V2_arg1 m c]

/-! ### Between the regions -/

theorem V4_v8 (c : Dev nD) : V4 m outs c main_v8 = outs 4 main_v8 c := Function.update_self _ _ _

/-- The second region's hidden-state operand: the second argument flattened and rounded. -/
theorem V5_v11 (c : Dev nD) : V5 m outs c main_v11 = xOf (m ((c : Thread nD τ).loc main_arg1)) := by
  refine (ops1_v11 (V4 m outs c)).trans ?_
  rw [V4_of m outs c main_v5 (by decide), V3_v5 m c]; rfl
/-- The second region's label operand: the safe labels as a column. -/
theorem V5_v12 (c : Dev nD) : V5 m outs c main_v12 = ysOf (m ((c : Thread nD τ).loc main_arg2)) := by
  refine (ops1_v12 (V4 m outs c)).trans ?_
  rw [V4_of m outs c main_v3 (by decide), V3_v3 m c]; rfl
/-- The second region's matrix operand: the fifth argument as launched. -/
theorem V5_arg4 (c : Dev nD) : V5 m outs c main_arg4 = m ((c : Thread nD τ).loc main_arg4) :=
  (V5_of m outs c main_arg4 (by decide)).trans <| (V4_of m outs c main_arg4 (by decide)).trans <| (V3_of m c main_arg4 (by decide)).trans <|
    (V2_of m c main_arg4 (by decide)).trans <| (V1_of m c main_arg4 (by decide)).trans rfl
theorem V5_v10 (c : Dev nD) : V5 m outs c main_v10 = tokOf (outs 4 main_v8 c) := by
  refine (ops1_v10 (V4 m outs c)).trans ?_
  rw [V4_v8 m outs c]

/-! ### After the second region -/

theorem V6_v13 (c : Dev nD) : V6 m outs c main_v13 = outs 6 main_v13 c := Function.update_self _ _ _

/-- The mask is written once, by the first stretch, and read to the end. -/
theorem V6_v1 (c : Dev nD) : V6 m outs c main_v1 = maskOf (m ((c : Thread nD τ).loc main_arg2)) :=
  (V6_of m outs c main_v1 (by decide)).trans <| (V5_of m outs c main_v1 (by decide)).trans <| (V4_of m outs c main_v1 (by decide)).trans <|
    (V3_of m c main_v1 (by decide)).trans <| (V2_of m c main_v1 (by decide)).trans (V1_v1 m c)
theorem V7_v1 (c : Dev nD) : V7 m outs c main_v1 = maskOf (m ((c : Thread nD τ).loc main_arg2)) :=
  (V7_of m outs c main_v1 (by decide)).trans (V6_v1 m outs c)
theorem V9_v1 (c : Dev nD) : V9 m outs c main_v1 = maskOf (m ((c : Thread nD τ).loc main_arg2)) :=
  (V9_of m outs c main_v1 (by decide)).trans <| (V8_of m outs c main_v1 (by decide)).trans (V7_v1 m outs c)
theorem V10_v1 (c : Dev nD) : V10 m outs c main_v1 = maskOf (m ((c : Thread nD τ).loc main_arg2)) :=
  (V10_of m outs c main_v1 (by decide)).trans (V9_v1 m outs c)

theorem V7_v10 (c : Dev nD) : V7 m outs c main_v10 = tokOf (outs 4 main_v8 c) :=
  (V7_of m outs c main_v10 (by decide)).trans <| (V6_of m outs c main_v10 (by decide)).trans (V5_v10 m outs c)
theorem V7_v15 (c : Dev nD) : V7 m outs c main_v15 = tokOf (outs 6 main_v13 c) := by
  refine (ops2_v15 (V6 m outs c)).trans ?_
  rw [V6_v13 m outs c]
theorem V7_cst (c : Dev nD) : V7 m outs c main_cst = constant S_ .f32 0x00000000#32 := ops2_cst (V6 m outs c)

theorem V8_v16 (c : Dev nD) : V8 m outs c main_v16
    = whereOf (maskOf (m ((c : Thread nD τ).loc main_arg2))) (tokOf (outs 4 main_v8 c)) (constant S_ .f32 0x00000000#32) := by
  refine (ops21_v16 (V7 m outs c)).trans ?_
  rw [V7_v1 m outs c, V7_v10 m outs c, V7_cst m outs c]
theorem V9_cst1 (c : Dev nD) : V9 m outs c main_cst_1 = constant S_ .f32 0x00000000#32 := ops22_cst1 (V8 m outs c)
theorem V9_v15 (c : Dev nD) : V9 m outs c main_v15 = tokOf (outs 6 main_v13 c) :=
  (V9_of m outs c main_v15 (by decide)).trans <| (V8_of m outs c main_v15 (by decide)).trans (V7_v15 m outs c)
theorem V10_v17 (c : Dev nD) : V10 m outs c main_v17
    = whereOf (maskOf (m ((c : Thread nD τ).loc main_arg2))) (tokOf (outs 6 main_v13 c)) (constant S_ .f32 0x00000000#32) := by
  refine (ops23_v17 (V9 m outs c)).trans ?_
  rw [V9_v1 m outs c, V9_v15 m outs c, V9_cst1 m outs c]
theorem V10_v16 (c : Dev nD) : V10 m outs c main_v16
    = whereOf (maskOf (m ((c : Thread nD τ).loc main_arg2))) (tokOf (outs 4 main_v8 c)) (constant S_ .f32 0x00000000#32) :=
  (V10_of m outs c main_v16 (by decide)).trans <| (V9_of m outs c main_v16 (by decide)).trans (V8_v16 m outs c)

theorem V11_v36 (c : Dev nD) : V11 m outs c main_v36
    = marginOf (meanOf (maskOf (m ((c : Thread nD τ).loc main_arg2))) (tokOf (outs 4 main_v8 c)))
        (meanOf (maskOf (m ((c : Thread nD τ).loc main_arg2))) (tokOf (outs 6 main_v13 c))) := by
  refine (ops24_v36 (V10 m outs c)).trans ?_
  rw [V10_v1 m outs c, V10_v16 m outs c, V10_v17 m outs c]; rfl
theorem V12_v37 (c : Dev nD) : V12 m outs c main_v37
    = logSigmoidOf (marginOf (meanOf (maskOf (m ((c : Thread nD τ).loc main_arg2))) (tokOf (outs 4 main_v8 c)))
        (meanOf (maskOf (m ((c : Thread nD τ).loc main_arg2))) (tokOf (outs 6 main_v13 c)))) := by
  refine (ops25_v37 (V11 m outs c)).trans ?_
  rw [V11_v36 m outs c]

/-- The returned scalar: the tail applied to the label mask and the two regions' per-token results. -/
theorem V13_v40 (c : Dev nD) : V13 m outs c main_v40
    = tailOf (maskOf (m ((c : Thread nD τ).loc main_arg2))) (tokOf (outs 4 main_v8 c)) (tokOf (outs 6 main_v13 c)) := by
  refine (ops26_v40 (V12 m outs c)).trans ?_
  rw [V12_v37 m outs c]; rfl

end Chain

/-! ## Read at an index -/

section Apply
open Idealize.ShloMosaic.ValueIdx

/-- Keeping a label unless it is the marker `M`, class 0 otherwise, as the comparison and the selection compute it. -/
theorem select_ne_marker (v M : BitVec 32) :
    Scalar.select (IntOp.cmpi .ne v M) v (0#32) = if v = M then 0#32 else v := by
  by_cases h : v = M
  · rw [if_pos h]; subst h
    show (if BitVec.ofBool (v != v) = 1 then v else 0#32) = 0#32
    simp
  · rw [if_neg h]
    show (if BitVec.ofBool (v != M) = 1 then v else 0#32) = v
    rw [bne_iff_ne.mpr h]
    simp

/-- Row `r` of the flattened hidden states is token `(r / 512, r % 512)`; over the extended reals the rounding is the identity. -/
theorem xOf_apply (x : (⟨S8x512x2048, .f32⟩ : BufTy).Contents (Elt Ideal)) (r : Fin 4096) (k : Fin 2048) :
    xOf (F := Ideal) x (ix2 r k)
      = x (ix3 (⟨r.val / 512, by have := r.isLt; omega⟩ : Fin 8) (⟨r.val % 512, by omega⟩ : Fin 512) k) := by
  show shapeCast S4096x2048 x shapeCasts_S8x512x2048_S4096x2048 (ix2 r k) = _
  refine shapeCast_apply x _ _ _ ?_
  rw [Shape.rowMajor_val_three, Shape.rowMajor_val_two]
  show (r.val / 512 * 512 + r.val % 512) * 2048 + k.val = r.val * 2048 + k.val
  omega

/-- Row `r` of the label column is token `(r / 512, r % 512)`'s label, class 0 where that is the ignore marker. -/
theorem ysOf_apply (y : (⟨S8x512, .i32⟩ : BufTy).Contents (Elt F)) (r : Fin 4096) :
    ysOf y (ix2 r (0 : Fin 1))
      = (if y (ix2 (⟨r.val / 512, by have := r.isLt; omega⟩ : Fin 8) (⟨r.val % 512, by omega⟩ : Fin 512)) = 4294967196#32 then 0#32
          else y (ix2 (⟨r.val / 512, by have := r.isLt; omega⟩ : Fin 8) (⟨r.val % 512, by omega⟩ : Fin 512))) := by
  unfold ysOf
  refine (broadcastInDim_apply _ _ _ (ix2 r (0 : Fin 1)) (ix1 r) (fun a => match a with | ⟨0, _⟩ => rfl)).trans ?_
  unfold ysFlat
  refine (shapeCast_apply _ _ (ix1 r) (ix2 (⟨r.val / 512, by have := r.isLt; omega⟩ : Fin 8) (⟨r.val % 512, by omega⟩ : Fin 512)) ?_).trans ?_
  · rw [Shape.rowMajor_val_two, Shape.rowMajor_val_one]
    show r.val / 512 * 512 + r.val % 512 = r.val
    omega
  · exact select_ne_marker _ _

/-- Token `(b, t)` of a region's result folded back is row `b * 512 + t` of its column. -/
theorem tokOf_apply (o : (⟨S4096x1, .f32⟩ : BufTy).Contents (Elt F)) (b : Fin 8) (t : Fin 512) :
    tokOf o (ix2 b t) = o (ix2 (⟨b.val * 512 + t.val, by have := b.isLt; have := t.isLt; omega⟩ : Fin 4096) (0 : Fin 1)) := by
  unfold tokOf
  refine (shapeCast_apply _ _ (ix2 b t) (ix1 (⟨b.val * 512 + t.val, by have := b.isLt; have := t.isLt; omega⟩ : Fin 4096)) ?_).trans ?_
  · rw [Shape.rowMajor_val_one, Shape.rowMajor_val_two]
    rfl
  · refine shapeCast_apply _ _ _ _ ?_
    rw [Shape.rowMajor_val_two, Shape.rowMajor_val_one]
    show (b.val * 512 + t.val) * 1 + 0 = b.val * 512 + t.val
    omega

end Apply

end Cert.KernelIdeal.Hand

end
-- ==== Proof.LseMath.lean ====
/-
  The real-number mathematics behind the certificate, stated over the extended reals with the ideal operations.
  A token's log-probability may be computed after subtracting any real number M from every logit (the reference subtracts
  the row maximum): exp (a - M) = exp a / exp M, so the sum of the shifted exponentials is the unshifted sum divided by
  exp M, its logarithm is the unshifted logarithm minus M, and the two occurrences of M cancel. Every quantity involved is
  a real number (inner products, maxima and sums of real numbers are real), which is what makes the cancellation legal in
  the extended reals.
-/
import Idealize.ShloMosaic.PureOps.Ideal
import Mathlib.Data.EReal.Operations
import Mathlib.Analysis.SpecialFunctions.Log.Basic
import Mathlib.Algebra.BigOperators.Group.Finset.Piecewise
import Mathlib.Algebra.Order.BigOperators.Group.Finset
import proofs.«407363_j58059367907835_3_alg».proof.Proof.Spec

noncomputable section

open scoped BigOperators

namespace Cert.Spec

open Idealize.ShloMosaic Idealize.ShloMosaic.ValueIdx

/-- The coercion of a finite sum of real numbers is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of extended reals that are all real numbers is a real number. -/
theorem sum_real {ι : Type*} (s : Finset ι) (g : ι → EReal) (hg : ∀ i, ∃ r : ℝ, g i = r) :
    ∃ r : ℝ, ∑ i ∈ s, g i = r := by
  choose f hf using hg
  exact ⟨∑ i ∈ s, f i, by rw [coe_finset_sum]; exact Finset.sum_congr rfl fun i _ => hf i⟩

/-- The sum of the ideal exponentials of real numbers is the (real) sum of their real exponentials. -/
theorem sum_exp_coe {n : ℕ} (a : Fin n → ℝ) :
    ∑ j : Fin n, Ideal.exp (a j : EReal) = ((∑ j : Fin n, Real.exp (a j) : ℝ) : EReal) := by
  rw [coe_finset_sum]; rfl

/-- The ideal logarithm of a positive real number is its real logarithm. -/
theorem log_coe_of_pos {r : ℝ} (hr : 0 < r) : Ideal.log (r : EReal) = (Real.log r : EReal) := by
  rw [Ideal.log_coe, if_neg (not_le.mpr hr)]

/-- The shift law of log-sum-exp: subtracting a real M from every logit leaves the log-probability unchanged. -/
theorem lse_shift {n : ℕ} (a : Fin n → ℝ) (hn : 0 < n) (y : Fin n) (M : ℝ) :
    ((a y : EReal) - (M : EReal)) - Ideal.log (∑ j : Fin n, Ideal.exp ((a j : EReal) - (M : EReal)))
      = (a y : EReal) - Ideal.log (∑ j : Fin n, Ideal.exp (a j : EReal)) := by
  haveI : Nonempty (Fin n) := ⟨⟨0, hn⟩⟩
  have hS : 0 < ∑ j : Fin n, Real.exp (a j) :=
    Finset.sum_pos (fun j _ => Real.exp_pos (a j)) Finset.univ_nonempty
  have hS' : 0 < ∑ j : Fin n, Real.exp (a j - M) :=
    Finset.sum_pos (fun j _ => Real.exp_pos (a j - M)) Finset.univ_nonempty
  have hdiv : ∑ j : Fin n, Real.exp (a j - M) = (∑ j : Fin n, Real.exp (a j)) / Real.exp M := by
    rw [Finset.sum_div]; exact Finset.sum_congr rfl fun j _ => Real.exp_sub (a j) M
  have hlog : Real.log (∑ j : Fin n, Real.exp (a j - M)) = Real.log (∑ j : Fin n, Real.exp (a j)) - M := by
    rw [hdiv, Real.log_div hS.ne' (Real.exp_pos M).ne', Real.log_exp]
  have hshift : ∀ j : Fin n, (a j : EReal) - (M : EReal) = ((a j - M : ℝ) : EReal) := fun j => (EReal.coe_sub _ _).symm
  simp only [hshift]
  rw [sum_exp_coe (fun j => a j - M), sum_exp_coe a, log_coe_of_pos hS', log_coe_of_pos hS, hlog,
    ← EReal.coe_sub, ← EReal.coe_sub]
  congr 1
  ring

/-- A token's logit is a real number when the hidden states and the projection matrix are real. -/
theorem logit_real (x : SX.Idx → EReal) (w : SW.Idx → EReal) (hx : ∀ i, ∃ r : ℝ, x i = r) (hw : ∀ i, ∃ r : ℝ, w i = r)
    (b : Fin 8) (t : Fin 512) (j : Fin 32000) : ∃ r : ℝ, logit x w b t j = r := by
  unfold logit
  refine sum_real _ _ fun k => ?_
  obtain ⟨r, hr⟩ := hx (ix3 b t k)
  obtain ⟨r', hr'⟩ := hw (ix2 j k)
  exact ⟨r * r', by rw [hr, hr', EReal.coe_mul]⟩

/-- The maximum of two real numbers, as extended reals, is a real number. -/
theorem max_coe_coe (r r' : ℝ) : ∃ m : ℝ, max (r : EReal) (r' : EReal) = m := by
  rcases le_total r r' with h | h
  · exact ⟨r', max_eq_right (EReal.coe_le_coe_iff.mpr h)⟩
  · exact ⟨r, max_eq_left (EReal.coe_le_coe_iff.mpr h)⟩

/-- The maximum, folded from −∞, of real numbers over a nonempty finite set is a real number. -/
theorem fold_max_real {ι : Type*} (s : Finset ι) (g : ι → EReal) (hg : ∀ i, ∃ r : ℝ, g i = r) (hs : s.Nonempty) :
    ∃ r : ℝ, s.fold max (⊥ : EReal) g = r := by
  classical
  induction s using Finset.induction_on with
  | empty => exact absurd hs Finset.not_nonempty_empty
  | insert a s ha ih =>
    rw [Finset.fold_insert ha]
    obtain ⟨ra, hra⟩ := hg a
    rcases s.eq_empty_or_nonempty with he | hne
    · subst he
      exact ⟨ra, by rw [Finset.fold_empty, hra, max_bot_right]⟩
    · obtain ⟨r, hr⟩ := ih hne
      rw [hr, hra]
      exact max_coe_coe ra r

/-- The row maximum as the reference computes it — the fold of max from −∞ over the whole row, then once more the maximum
    with −∞ — of finitely many real numbers over a nonempty index range is a real number. -/
theorem max_real {n : ℕ} (g : Fin n → EReal) (hg : ∀ k, ∃ r : ℝ, g k = r) (hn : 0 < n) :
    ∃ r : ℝ, max (⊥ : EReal) ((Finset.univ : Finset (Fin n)).fold max (⊥ : EReal) g) = r := by
  haveI : Nonempty (Fin n) := ⟨⟨0, hn⟩⟩
  obtain ⟨r, hr⟩ := fold_max_real Finset.univ g hg Finset.univ_nonempty
  exact ⟨r, by rw [hr, max_bot_left]⟩

/-- A sum that keeps only the term at one index is that term. -/
theorem sum_pick {n : ℕ} (f : Fin n → EReal) (y : Fin n) : (∑ j : Fin n, if j = y then f j else 0) = f y := by
  rw [Finset.sum_ite_eq' Finset.univ y f, if_pos (Finset.mem_univ y)]

end Cert.Spec

end
-- ==== Proof.LibGatherBatchedLast.lean ====
/-
  A host gather along the LAST axis of a rank-3 operand [A, B, N] whose two leading axes are BATCHING axes: the start
  indices are an array [A, B, 1, 1] (batching axes 0 and 1, the index vector on axis 3, of length one), the result is
  [A, B, 1]. This is what taking one entry per row along the last axis lowers to. Read at (a, b, c), the result is the
  operand at (a, b, k) where k is the start index stored at (a, b, c, 0), read as a signed integer and clamped into
  [0, N − 1]: the two batching axes contribute the result's own coordinates, the collapsed axis contributes the start.
-/
import Idealize.ShloMosaic.Lib.ValueIdx

noncomputable section

namespace Idealize.ShloMosaic.ValueIdx

section GatherBatchedLast
variable {α : Type}

/-- The dimension numbers of that gather for an operand [A, B, N], start indices [A, B, 1, 1] and result [A, B, 1];
    their conditions are decided on a program's literal shapes. -/
abbrev batchedLastDims (A B N : Nat)
    (wf : GatherDims.WF ⟨3, ![A, B, N]⟩ ⟨4, ![A, B, 1, 1]⟩ ⟨3, ![A, B, 1]⟩ [] [2] [0, 1] [2] [0, 1] 3 ![1, 1, 1]) :
    GatherDims ⟨3, ![A, B, N]⟩ ⟨4, ![A, B, 1, 1]⟩ ⟨3, ![A, B, 1]⟩ where
  offsetDims := []
  collapsedSliceDims := [2]
  operandBatchingDims := [0, 1]
  startIndicesBatchingDims := [0, 1]
  startIndexMap := [2]
  indexVectorDim := 3
  sliceSizes := ![1, 1, 1]
  wf := wf

/-- THE GATHER READ AT (a, b, c): the operand's row (a, b) at the start index stored at (a, b, c, 0), read signed and
    clamped into [0, N − 1]. -/
theorem gather_batchedLast_apply {A B N w : Nat} (hN : 0 < N)
    (wf : GatherDims.WF ⟨3, ![A, B, N]⟩ ⟨4, ![A, B, 1, 1]⟩ ⟨3, ![A, B, 1]⟩ [] [2] [0, 1] [2] [0, 1] 3 ![1, 1, 1])
    (x : (⟨3, ![A, B, N]⟩ : Shape).Idx → α) (idx : IVec ⟨4, ![A, B, 1, 1]⟩ w) (a : Fin A) (b : Fin B) (c : Fin 1) :
    Host.gather (batchedLastDims A B N wf) x idx (ix3 a b c)
      = x (ix3 a b ⟨min (idx (ix4 a b c 0)).toInt.toNat (N - 1), by omega⟩) := by
  unfold Host.gather
  congr 1
  funext e
  refine Fin.ext ?_
  match e with
  | ⟨0, _⟩ =>
    show (batchedLastDims A B N wf).start (ix3 a b c) idx 0 + (batchedLastDims A B N wf).batchCoord (ix3 a b c) 0
      + (batchedLastDims A B N wf).offCoord (ix3 a b c) 0 = a.val
    have hb : (0 : Fin 3) ∈ (batchedLastDims A B N wf).operandBatchingDims :=
      show (0 : Fin 3) ∈ ([0, 1] : List (Fin 3)) by decide
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, _⟩ =>
    show (batchedLastDims A B N wf).start (ix3 a b c) idx 1 + (batchedLastDims A B N wf).batchCoord (ix3 a b c) 1
      + (batchedLastDims A B N wf).offCoord (ix3 a b c) 1 = b.val
    have hb : (1 : Fin 3) ∈ (batchedLastDims A B N wf).operandBatchingDims :=
      show (1 : Fin 3) ∈ ([0, 1] : List (Fin 3)) by decide
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨2, _⟩ =>
    show (batchedLastDims A B N wf).start (ix3 a b c) idx 2 + (batchedLastDims A B N wf).batchCoord (ix3 a b c) 2
      + (batchedLastDims A B N wf).offCoord (ix3 a b c) 2 = min (idx (ix4 a b c 0)).toInt.toNat (N - 1)
    have hnb : (2 : Fin 3) ∉ (batchedLastDims A B N wf).operandBatchingDims :=
      show (2 : Fin 3) ∉ ([0, 1] : List (Fin 3)) by decide
    rw [GatherDims.batchCoord_eq_zero _ _ _ hnb,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (batchedLastDims A B N wf).startIndexMap from List.mem_singleton.mpr rfl)]
    have hsi : (batchedLastDims A B N wf).siIdx (ix3 a b c)
        ⟨List.idxOf (2 : Fin 3) (batchedLastDims A B N wf).startIndexMap,
          List.idxOf_lt_length_iff.2 (List.mem_singleton.mpr rfl)⟩ = ix4 a b c 0 := by
      funext f; refine Fin.ext ?_
      match f with
      | ⟨0, _⟩ => rfl
      | ⟨1, _⟩ => rfl
      | ⟨2, _⟩ => rfl
      | ⟨3, _⟩ => rfl
    rw [hsi]
    rfl

end GatherBatchedLast

end Idealize.ShloMosaic.ValueIdx

end
-- ==== Proof.RefRead.lean ====
/-
  The reference's per-token term read at a token, at the ideal values.
  For a token (b, t) whose label is a class index below 32000 the reference's per-token array holds the token's
  log-probability of its label. The reading goes operation by operation. The reshape [8, 512, 1] → [8, 512] reads entry
  (b, t, 0). There the range test 0 ≤ index ≤ 31999 holds (the label is not the ignore marker, so the mask keeps it; it
  is non-negative as a signed word, so it is not wrapped by 32000), the fill value is not selected, and the gather along
  the vocabulary axis reads the log-softmax row at the label (the clamp into [0, 31999] is the identity on it). The
  log-softmax at (b, t, k) is the logit minus the row maximum, minus the logarithm of the sum of the exponentials of the
  row's logits each minus the row maximum; the logit at (b, t, j) is the inner product of the token's hidden row with
  vocabulary row j. Hidden states and projection matrix being real, the logits and their maximum are real numbers, and the
  shift law of log-sum-exp removes the maximum.
-/
import proofs.«407363_j58059367907835_3_alg».proof.Proof.RefTerm
import proofs.«407363_j58059367907835_3_alg».proof.Proof.Spec
import proofs.«407363_j58059367907835_3_alg».proof.Proof.LseMath
import proofs.«407363_j58059367907835_3_alg».proof.Proof.LibGatherBatchedLast
import Idealize.ShloMosaic.PureOps.Ideal.Laws
import Idealize.ShloMosaic.Lib.IdealHost
import Idealize.ShloMosaic.Lib.Pipeline.Value
import Idealize.ShloMosaic.Lib.ValueLayout
import Idealize.ShloMosaic.Lib.ValueIdx

noncomputable section

open scoped BigOperators

namespace Cert.ReferenceIdeal.Hand

open Cert.ReferenceIdeal Cert.ReferenceIdeal.Gen Idealize.ShloMosaic Idealize.ShloMosaic.ValueIdx

/-! ## Labels as signed 32-bit words -/

/-- A 32-bit word below 32000 is non-negative as a signed integer: its signed value is its unsigned value. -/
theorem toInt_small (v : BitVec 32) (hv : v.toNat < 32000) : v.toInt = (v.toNat : Int) :=
  BitVec.toInt_eq_toNat_of_lt (by omega)

/-- Such a word is not the ignore marker -100. -/
theorem cmpi_ne_ignore (v : BitVec 32) (hv : v.toNat < 32000) : IntOp.cmpi .ne v 4294967196#32 = 1#1 := by
  have hne : v ≠ 4294967196#32 := by
    intro h; rw [h] at hv; exact absurd hv (by decide)
  show BitVec.ofBool (v != 4294967196#32) = 1#1
  rw [show (v != 4294967196#32) = true from bne_iff_ne.mpr hne]
  rfl

/-- Such a word is not negative. -/
theorem cmpi_slt_zero (v : BitVec 32) (hv : v.toNat < 32000) : IntOp.cmpi .slt v 0#32 = 0#1 := by
  have h := toInt_small v hv
  have hn : ¬ (v.toInt < (0#32).toInt) := by rw [h, BitVec.toInt_zero]; omega
  show BitVec.ofBool (v.slt 0#32) = 0#1
  rw [show v.slt 0#32 = false from by rw [BitVec.slt_eq_decide]; exact decide_eq_false hn]
  rfl

/-- Such a word is at least zero … -/
theorem cmpi_sge_zero (v : BitVec 32) (hv : v.toNat < 32000) : IntOp.cmpi .sge v 0#32 = 1#1 := by
  have h := toInt_small v hv
  have hn : (0#32).toInt ≤ v.toInt := by rw [h, BitVec.toInt_zero]; omega
  show BitVec.ofBool ((0#32).sle v) = 1#1
  rw [show (0#32).sle v = true from BitVec.sle_iff_toInt_le.mpr hn]
  rfl

/-- … and at most 31999. -/
theorem cmpi_sle_last (v : BitVec 32) (hv : v.toNat < 32000) : IntOp.cmpi .sle v 31999#32 = 1#1 := by
  have h := toInt_small v hv
  have h9 : (31999#32 : BitVec 32).toInt = 31999 := by decide
  have hn : v.toInt ≤ (31999#32 : BitVec 32).toInt := by rw [h, h9]; omega
  show BitVec.ofBool (v.sle 31999#32) = 1#1
  rw [show v.sle 31999#32 = true from BitVec.sle_iff_toInt_le.mpr hn]
  rfl

/-- The clamped start index of such a word is the word's value. -/
theorem clamp_small (v : BitVec 32) (hv : v.toNat < 32000) : min v.toInt.toNat (32000 - 1) = v.toNat := by
  rw [toInt_small v hv, Int.toNat_natCast]; omega

/-! ## The log-softmax of a row -/

theorem red2 : S8x512x32000.Reduces [2] S8x512 := by decide

theorem lift2 (b : Fin 8) (t : Fin 512) (k : Fin 32000) : red2.lift (ix2 b t) k = ix3 b t k := by
  funext c; refine Fin.ext ?_
  match c with
  | ⟨0, _⟩ => rfl
  | ⟨1, _⟩ => rfl
  | ⟨2, _⟩ => rfl

theorem ofBits_neg_inf_f32 : Ideal.ofBits .f32 0xFF800000#32 = ⊥ := by simp [Ideal.ofBits, Ideal.ieee]

/-- The maximum of row (b, t), as the reference takes it. -/
def rowMax (z : FVec Ideal S8x512x32000 .f32) (b : Fin 8) (t : Fin 512) : EReal :=
  max (⊥ : EReal) ((Finset.univ : Finset (Fin 32000)).fold max (⊥ : EReal) (fun k => z (ix3 b t k)))

/-- The reduce-maximum over the vocabulary axis from minus infinity, read at (b, t). -/
theorem reduceMax_apply (z : FVec Ideal S8x512x32000 .f32) (b : Fin 8) (t : Fin 512) :
    Host.reduce FloatOps.maximumf z (constant (F := Ideal) S_ .f32 0xFF800000#32) reducesTo_S8x512x32000_S8x512_d2 h_S_ (ix2 b t)
      = (Finset.univ : Finset (Fin 32000)).fold max (⊥ : EReal) (fun k => z (ix3 b t k)) := by
  rw [Host.reduce_eq_fold_single FloatOps.maximumf z _ reducesTo_S8x512x32000_S8x512_d2 red2 h_S_ (ix2 b t)]
  rw [constant_apply, ofBits_neg_inf_f32]
  have hz : (z ∘ red2.lift (ix2 b t)) = fun k : Fin 32000 => z (ix3 b t k) := by
    funext k; exact congrArg z (lift2 b t k)
  rw [hz]
  rfl

/-- A scalar minus infinity broadcast over the tokens reads minus infinity. -/
theorem bcastNegInf_apply (b : Fin 8) (t : Fin 512) :
    broadcastInDim S8x512 ![] bcast_S_S8x512 (constant (F := Ideal) S_ .f32 0xFF800000#32) (ix2 b t) = ⊥ := by
  rw [broadcastInDim_scalar_apply, constant_apply, ofBits_neg_inf_f32]

/-- The shifted logits at (b, t, k): the logit minus the row's maximum. -/
theorem lsmShift_apply (z : FVec Ideal S8x512x32000 .f32) (b : Fin 8) (t : Fin 512) (k : Fin 32000) :
    lsmShift (F := Ideal) z (ix3 b t k) = z (ix3 b t k) - rowMax z b t := by
  unfold lsmShift rowMax
  rw [subf_apply,
    broadcastInDim_apply _ _ _ _ (ix3 b t (0 : Fin 1)) (by
      intro a; match a with | ⟨0, _⟩ => rfl | ⟨1, _⟩ => rfl | ⟨2, _⟩ => rfl),
    broadcastInDim_apply _ _ _ _ (ix2 b t) (by
      intro a; match a with | ⟨0, _⟩ => rfl | ⟨1, _⟩ => rfl),
    maximumf_apply, bcastNegInf_apply, reduceMax_apply]

/-- The sum of the exponentials of the shifted row, read at (b, t). -/
theorem reduceSumExp_apply (u : FVec Ideal S8x512x32000 .f32) (b : Fin 8) (t : Fin 512) :
    Host.reduceAdd (Host.exp u) (constant (F := Ideal) S_ .f32 0x00000000#32) reducesTo_S8x512x32000_S8x512_d2 h_S_ (ix2 b t)
      = ∑ j : Fin 32000, Ideal.exp (u (ix3 b t j)) := by
  rw [hostReduceAdd_apply, Ideal.hostReduceAdd_single reducesTo_S8x512x32000_S8x512_d2 red2, constant_apply,
    Ideal.ofBits_zero_f32, zero_add]
  show (∑ j : Fin 32000, Host.exp u (red2.lift (ix2 b t) j)) = ∑ j : Fin 32000, Ideal.exp (u (ix3 b t j))
  refine Finset.sum_congr rfl fun j _ => ?_
  rw [lift2]
  rfl

/-- The log-softmax at (b, t, k): the shifted logit minus the logarithm of the sum of the shifted row's exponentials. -/
theorem lsmOf_apply (z : FVec Ideal S8x512x32000 .f32) (b : Fin 8) (t : Fin 512) (k : Fin 32000) :
    lsmOf (F := Ideal) z (ix3 b t k)
      = (z (ix3 b t k) - rowMax z b t) - Ideal.log (∑ j : Fin 32000, Ideal.exp (z (ix3 b t j) - rowMax z b t)) := by
  unfold lsmOf
  rw [subf_apply, lsmShift_apply,
    broadcastInDim_apply _ _ _ _ (ix3 b t (0 : Fin 1)) (by
      intro a; match a with | ⟨0, _⟩ => rfl | ⟨1, _⟩ => rfl | ⟨2, _⟩ => rfl)]
  have hlog : ∀ (v : FVec Ideal S8x512x1 .f32) (i : S8x512x1.Idx), Host.log v i = Ideal.log (v i) := fun _ _ => rfl
  rw [hlog,
    broadcastInDim_apply _ _ _ _ (ix2 b t) (by
      intro a; match a with | ⟨0, _⟩ => rfl | ⟨1, _⟩ => rfl),
    reduceSumExp_apply]
  simp only [lsmShift_apply]

/-! ## The logits -/

theorem lhs_dot_0 (j : S8x512x32000.Idx) (k : dot_S8x512x2048_S32000x2048_S8x512x32000_2_1_01_0_n_n.contr.Idx) :
    (dot_S8x512x2048_S32000x2048_S8x512x32000_2_1_01_0_n_n.lhsIdx j k 0).val = (j 0).val := by
  unfold DotDims.lhsIdx
  rw [dif_neg (show ¬ (0 : Fin S8x512x2048.rank) ∈ dot_S8x512x2048_S32000x2048_S8x512x32000_2_1_01_0_n_n.lhsBatch from List.not_mem_nil),
    dif_pos (show (0 : Fin S8x512x2048.rank) ∈ dot_S8x512x2048_S32000x2048_S8x512x32000_2_1_01_0_n_n.lhsNonContracting from
      (show (0 : Fin 3) ∈ ([0, 1] : List (Fin 3)) by decide))]
  rfl

theorem lhs_dot_1 (j : S8x512x32000.Idx) (k : dot_S8x512x2048_S32000x2048_S8x512x32000_2_1_01_0_n_n.contr.Idx) :
    (dot_S8x512x2048_S32000x2048_S8x512x32000_2_1_01_0_n_n.lhsIdx j k 1).val = (j 1).val := by
  unfold DotDims.lhsIdx
  rw [dif_neg (show ¬ (1 : Fin S8x512x2048.rank) ∈ dot_S8x512x2048_S32000x2048_S8x512x32000_2_1_01_0_n_n.lhsBatch from List.not_mem_nil),
    dif_pos (show (1 : Fin S8x512x2048.rank) ∈ dot_S8x512x2048_S32000x2048_S8x512x32000_2_1_01_0_n_n.lhsNonContracting from
      (show (1 : Fin 3) ∈ ([0, 1] : List (Fin 3)) by decide))]
  rfl

theorem lhs_dot_2 (j : S8x512x32000.Idx) (k : dot_S8x512x2048_S32000x2048_S8x512x32000_2_1_01_0_n_n.contr.Idx) :
    (dot_S8x512x2048_S32000x2048_S8x512x32000_2_1_01_0_n_n.lhsIdx j k 2).val = (k ⟨0, by decide⟩).val :=
  DotDims.lhsIdx_val_of_single (d := dot_S8x512x2048_S32000x2048_S8x512x32000_2_1_01_0_n_n) (cl := 2) rfl j k

theorem rhs_dot_0 (j : S8x512x32000.Idx) (k : dot_S8x512x2048_S32000x2048_S8x512x32000_2_1_01_0_n_n.contr.Idx) :
    (dot_S8x512x2048_S32000x2048_S8x512x32000_2_1_01_0_n_n.rhsIdx j k 0).val = (j 2).val := by
  unfold DotDims.rhsIdx
  rw [dif_neg (show ¬ (0 : Fin S32000x2048.rank) ∈ dot_S8x512x2048_S32000x2048_S8x512x32000_2_1_01_0_n_n.rhsBatch from List.not_mem_nil),
    dif_pos (show (0 : Fin S32000x2048.rank) ∈ dot_S8x512x2048_S32000x2048_S8x512x32000_2_1_01_0_n_n.rhsNonContracting from
      (show (0 : Fin 2) ∈ ([0] : List (Fin 2)) by decide))]
  rfl

theorem rhs_dot_1 (j : S8x512x32000.Idx) (k : dot_S8x512x2048_S32000x2048_S8x512x32000_2_1_01_0_n_n.contr.Idx) :
    (dot_S8x512x2048_S32000x2048_S8x512x32000_2_1_01_0_n_n.rhsIdx j k 1).val = (k ⟨0, by decide⟩).val :=
  DotDims.rhsIdx_val_of_single (d := dot_S8x512x2048_S32000x2048_S8x512x32000_2_1_01_0_n_n) (cr := 1) rfl j k

/-- The logits at (b, t, j): the inner product of the token's hidden row with vocabulary row j. -/
theorem dot_apply (x : FVec Ideal S8x512x2048 .f32) (w : FVec Ideal S32000x2048 .f32) (b : Fin 8) (t : Fin 512) (j : Fin 32000) :
    Host.dotGeneral dot_S8x512x2048_S32000x2048_S8x512x32000_2_1_01_0_n_n none x w (ix3 b t j)
      = Cert.Spec.logit x w b t j := by
  simp only [Host.dotGeneral]
  rw [Ideal.dotGeneral_apply]
  unfold Cert.Spec.logit
  rw [← Equiv.sum_comp (contrEquiv1 dot_S8x512x2048_S32000x2048_S8x512x32000_2_1_01_0_n_n 2048 rfl rfl).symm]
  refine Finset.sum_congr rfl fun k _ => ?_
  have hl : dot_S8x512x2048_S32000x2048_S8x512x32000_2_1_01_0_n_n.lhsIdx (ix3 b t j)
      ((contrEquiv1 dot_S8x512x2048_S32000x2048_S8x512x32000_2_1_01_0_n_n 2048 rfl rfl).symm k) = ix3 b t k := by
    funext a; refine Fin.ext ?_
    match a with
    | ⟨0, _⟩ => exact lhs_dot_0 _ _
    | ⟨1, _⟩ => exact lhs_dot_1 _ _
    | ⟨2, _⟩ => exact (lhs_dot_2 _ _).trans (contrEquiv1_symm_val _ 2048 rfl rfl k)
  have hr : dot_S8x512x2048_S32000x2048_S8x512x32000_2_1_01_0_n_n.rhsIdx (ix3 b t j)
      ((contrEquiv1 dot_S8x512x2048_S32000x2048_S8x512x32000_2_1_01_0_n_n 2048 rfl rfl).symm k) = ix2 j k := by
    funext a; refine Fin.ext ?_
    match a with
    | ⟨0, _⟩ => exact rhs_dot_0 _ _
    | ⟨1, _⟩ => exact (rhs_dot_1 _ _).trans (contrEquiv1_symm_val _ 2048 rfl rfl k)
  rw [hl, hr]

/-! ## The gather at the label -/

theorem red3 : S8x512x1x1.Reduces [3] S8x512x1 := by decide

theorem lift3 (b : Fin 8) (t : Fin 512) (c : Fin 1) (k : Fin 1) : red3.lift (ix3 b t c) k = ix4 b t c k := by
  funext e; refine Fin.ext ?_
  match e with
  | ⟨0, _⟩ => rfl
  | ⟨1, _⟩ => rfl
  | ⟨2, _⟩ => rfl
  | ⟨3, _⟩ => rfl

/-- Integer vector operations at an index (definitional). -/
theorem cmpi_apply {s : Shape} {w : Nat} (p : CmpIPredicate) (x y : IVec s w) (i : s.Idx) :
    cmpi p x y i = IntOp.cmpi p (x i) (y i) := rfl
theorem andi_apply {s : Shape} {w : Nat} (x y : IVec s w) (i : s.Idx) : andi x y i = IntOp.andi (x i) (y i) := rfl

/-- The conjunction, from true, of a one-element family of bits that is true is true. -/
theorem fold_andi_fin_one (f : Fin 1 → BitVec 1) (h0 : f 0 = 1#1) :
    (Finset.univ : Finset (Fin 1)).fold IntOp.andi 1#1 f = 1#1 := by
  rw [show (Finset.univ : Finset (Fin 1)) = {0} from rfl, Finset.fold_singleton, h0]
  decide

/-- Where the label is a class index, the mask is set. -/
theorem maskOf_apply (y : IVec S8x512 32) (b : Fin 8) (t : Fin 512) (hy : (y (ix2 b t)).toNat < 32000) :
    maskOf (F := Ideal) y (ix2 b t) = 1#1 := by
  unfold maskOf
  rw [cmpi_apply, broadcastInDim_scalar_apply, constantI_apply]
  exact cmpi_ne_ignore _ hy

/-- Where the label is a class index, the index handed to the gather is the label. -/
theorem labelIdx_apply (y : IVec S8x512 32) (b : Fin 8) (t : Fin 512) (c : Fin 1) (hy : (y (ix2 b t)).toNat < 32000) :
    broadcastInDim S8x512x1 ![0, 1] bcast_S8x512_S8x512x1_0_1
        (select (maskOf (F := Ideal) y) y (broadcastInDim S8x512 ![] bcast_S_S8x512 (id (constantI S_ 32 0#32)))) (ix3 b t c)
      = y (ix2 b t) := by
  rw [broadcastInDim_apply _ _ _ _ (ix2 b t) (by
      intro a; match a with | ⟨0, _⟩ => rfl | ⟨1, _⟩ => rfl),
    select_apply, maskOf_apply y b t hy, select_one]

/-- A non-negative index is not wrapped: the gather's start index at (b, t, 0, 0) is the index itself. -/
theorem takeIdx_apply (i : IVec S8x512x1 32) (b : Fin 8) (t : Fin 512) (hi : (i (ix3 b t 0)).toNat < 32000) :
    takeIdx (F := Ideal) i (ix4 b t 0 0) = i (ix3 b t 0) := by
  unfold takeIdx
  rw [shapeCast_apply _ _ _ (ix3 b t (0 : Fin 1)) (by
      rw [Shape.rowMajor_val_three, Shape.rowMajor_val_four]
      show (b.val * 512 + t.val) * 1 + 0 = ((b.val * 512 + t.val) * 1 + 0) * 1 + 0
      omega),
    select_apply, cmpi_apply, broadcastInDim_scalar_apply, constantI_apply, cmpi_slt_zero _ hi, select_zero]

/-- The range test 0 ≤ index ≤ 31999 holds at (b, t, 0) for such an index. -/
theorem inRange_apply (i : IVec S8x512x1 32) (b : Fin 8) (t : Fin 512) (hi : (i (ix3 b t 0)).toNat < 32000) :
    Host.reduce IntOp.andi
      (andi (cmpi .sge (takeIdx (F := Ideal) i) (broadcastInDim S8x512x1x1 ![] bcast_S_S8x512x1x1 (constantI S_ 32 0#32)))
        (cmpi .sle (takeIdx (F := Ideal) i) (broadcastInDim S8x512x1x1 ![0, 1, 2, 3] bcast_S1x1x1x1_S8x512x1x1_0_1_2_3
          (broadcastInDim S1x1x1x1 ![3] bcast_S1_S1x1x1x1_3 (constantI S1 32 31999#32)))))
      (constantI S_ 1 1#1) reducesTo_S8x512x1x1_S8x512x1_d3 h_S_ (ix3 b t 0) = 1#1 := by
  have h9 : broadcastInDim S8x512x1x1 ![0, 1, 2, 3] bcast_S1x1x1x1_S8x512x1x1_0_1_2_3
      (broadcastInDim S1x1x1x1 ![3] bcast_S1_S1x1x1x1_3 (constantI S1 32 31999#32)) (ix4 b t 0 0) = 31999#32 := rfl
  have h0 : andi (cmpi .sge (takeIdx (F := Ideal) i) (broadcastInDim S8x512x1x1 ![] bcast_S_S8x512x1x1 (constantI S_ 32 0#32)))
      (cmpi .sle (takeIdx (F := Ideal) i) (broadcastInDim S8x512x1x1 ![0, 1, 2, 3] bcast_S1x1x1x1_S8x512x1x1_0_1_2_3
        (broadcastInDim S1x1x1x1 ![3] bcast_S1_S1x1x1x1_3 (constantI S1 32 31999#32)))) (ix4 b t 0 0) = 1#1 := by
    rw [andi_apply, cmpi_apply, cmpi_apply, takeIdx_apply i b t hi, broadcastInDim_scalar_apply, constantI_apply,
      cmpi_sge_zero _ hi, h9, cmpi_sle_last _ hi]
    decide
  rw [Host.reduce_eq_fold_single IntOp.andi _ _ reducesTo_S8x512x1x1_S8x512x1_d3 red3 h_S_ (ix3 b t 0), constantI_apply]
  refine fold_andi_fin_one _ ?_
  rw [← lift3 b t 0 0] at h0
  exact h0

/-- The gather of a row at a class index: the row's entry at that index. -/
theorem takeOf_apply (l : FVec Ideal S8x512x32000 .f32) (i : IVec S8x512x1 32) (b : Fin 8) (t : Fin 512) (v : BitVec 32)
    (hv : i (ix3 b t 0) = v) (hlt : v.toNat < 32000) :
    takeOf (F := Ideal) l i (ix3 b t 0) = l (ix3 b t ⟨v.toNat, hlt⟩) := by
  have hi : (i (ix3 b t 0)).toNat < 32000 := by rw [hv]; exact hlt
  unfold takeOf
  rw [select_apply, inRange_apply i b t hi, select_one]
  have hg := gather_batchedLast_apply (A := 8) (B := 512) (N := 32000) (by decide)
    gather_S8x512x32000_S8x512x1x1_S8x512x1_n_2_01_01_2_3_111_wf l (takeIdx (F := Ideal) i) b t 0
  refine hg.trans (congrArg (fun k => l (ix3 b t k)) (Fin.ext ?_))
  show min (takeIdx (F := Ideal) i (ix4 b t 0 0)).toInt.toNat (32000 - 1) = v.toNat
  rw [takeIdx_apply i b t hi, hv]
  exact clamp_small v hlt

/-! ## The per-token term -/

/-- THE REFERENCE'S PER-TOKEN TERM AT (b, t), for a label that is a class index: the token's log-probability of its
    label, the label's logit minus the log-sum-exp of the token's 32000 logits. -/
theorem refTok_apply (x : FVec Ideal S8x512x2048 .f32) (w : FVec Ideal S32000x2048 .f32) (y : IVec S8x512 32)
    (hx : ∀ i, ∃ r : ℝ, x i = r) (hw : ∀ i, ∃ r : ℝ, w i = r) (b : Fin 8) (t : Fin 512)
    (hy : (y (ix2 b t)).toNat < 32000) :
    refTok (F := Ideal) x w y (ix2 b t) = Cert.Spec.tokLogp x w b t ⟨(y (ix2 b t)).toNat, hy⟩ := by
  have hz : ∀ j : Fin 32000, Host.dotGeneral dot_S8x512x2048_S32000x2048_S8x512x32000_2_1_01_0_n_n none x w (ix3 b t j) = Cert.Spec.logit x w b t j :=
    fun j => dot_apply x w b t j
  unfold refTok
  rw [shapeCast_apply _ _ _ (ix3 b t (0 : Fin 1)) (by
      rw [Shape.rowMajor_val_three, Shape.rowMajor_val_two]
      show (b.val * 512 + t.val) * 1 + 0 = b.val * 512 + t.val
      omega),
    takeOf_apply _ _ b t (y (ix2 b t)) (labelIdx_apply y b t 0 hy) hy, lsmOf_apply]
  generalize Host.dotGeneral dot_S8x512x2048_S32000x2048_S8x512x32000_2_1_01_0_n_n none x w = z at hz ⊢
  unfold rowMax
  simp only [hz]
  obtain ⟨M, hM⟩ := Cert.Spec.max_real (fun k : Fin 32000 => Cert.Spec.logit x w b t k)
    (fun k => Cert.Spec.logit_real x w hx hw b t k) (by decide)
  rw [hM]
  choose a ha using fun k : Fin 32000 => Cert.Spec.logit_real x w hx hw b t k
  unfold Cert.Spec.tokLogp Cert.Spec.sumExp
  simp only [ha]
  exact Cert.Spec.lse_shift a (by decide) _ M

end Cert.ReferenceIdeal.Hand

end
-- ==== Proof.Bridge.lean ====
/-
  The glue between the two programs. Both entry points end with the same scalar tail (per sequence the masked mean of
  the per-token values, the chosen-minus-rejected margins of the policy less those of the reference model scaled by 0.1,
  minus the mean of the log-sigmoid over the four pairs) and start from the same label mask; the two spellings are equal
  as terms. The tail reads a per-token array only where the mask holds. And a kernel region's closed form at row
  b * 512 + t of the flattened hidden states and the safe label column is token (b, t)'s log-probability of its label,
  whenever that label is a class index below 32000 and not the ignore marker.
-/
import proofs.«407363_j58059367907835_3_alg».proof.Proof.KHost
import proofs.«407363_j58059367907835_3_alg».proof.Proof.RefTerm
import proofs.«407363_j58059367907835_3_alg».proof.Proof.KTok
import proofs.«407363_j58059367907835_3_alg».proof.Proof.Spec

noncomputable section

open scoped BigOperators

namespace Cert.Proof.Bridge

open Idealize.ShloMosaic Idealize.ShloMosaic.ValueIdx

/-! ## The two spellings of the mask and of the tail are one term -/

/-- The label mask of the reference program is that of the kernel's entry point. -/
theorem mask_eq (y : IVec Cert.KernelIdeal.S8x512 32) :
    Cert.ReferenceIdeal.Hand.maskOf (F := Ideal) y = Cert.KernelIdeal.Hand.maskOf (F := Ideal) y := by
  unfold Cert.ReferenceIdeal.Hand.maskOf Cert.KernelIdeal.Hand.maskOf
  rfl

/-- The masked mean per sequence, in both spellings. -/
theorem mean_eq (mask : IVec Cert.KernelIdeal.S8x512 1) (v : FVec Ideal Cert.KernelIdeal.S8x512 .f32) :
    Cert.ReferenceIdeal.Hand.meanOf (F := Ideal) mask v = Cert.KernelIdeal.Hand.meanOf (F := Ideal) mask v := by
  unfold Cert.ReferenceIdeal.Hand.meanOf Cert.KernelIdeal.Hand.meanOf Cert.KernelIdeal.Hand.whereOf
    Cert.KernelIdeal.Hand.countOf
  rfl

/-- The softplus of four values, in both spellings. -/
theorem softplus_eq (u : FVec Ideal Cert.KernelIdeal.S4 .f32) :
    Cert.ReferenceIdeal.Hand.softplusOf (F := Ideal) u = Cert.KernelIdeal.Hand.softplusOf (F := Ideal) u := by
  unfold Cert.ReferenceIdeal.Hand.softplusOf Cert.KernelIdeal.Hand.softplusOf
  rfl

/-- The scalar tail of the reference program is that of the kernel's entry point. -/
theorem tail_eq (mask : IVec Cert.KernelIdeal.S8x512 1) (tp tr : FVec Ideal Cert.KernelIdeal.S8x512 .f32) :
    Cert.ReferenceIdeal.Hand.tailOf (F := Ideal) mask tp tr = Cert.KernelIdeal.Hand.tailOf (F := Ideal) mask tp tr := by
  unfold Cert.ReferenceIdeal.Hand.tailOf Cert.KernelIdeal.Hand.tailOf
  rw [mean_eq, mean_eq]
  generalize Cert.KernelIdeal.Hand.meanOf (F := Ideal) mask tp = p
  generalize Cert.KernelIdeal.Hand.meanOf (F := Ideal) mask tr = r
  unfold Cert.ReferenceIdeal.Hand.lossOf Cert.KernelIdeal.Hand.logSigmoidOf Cert.KernelIdeal.Hand.marginOf
  rw [softplus_eq]

/-! ## The mask at a token, and what the tail reads -/

/-- The mask holds at a token exactly when its label is not the ignore marker. -/
theorem mask_apply (y : IVec Cert.KernelIdeal.S8x512 32) (i : Cert.KernelIdeal.S8x512.Idx) :
    Cert.KernelIdeal.Hand.maskOf (F := Ideal) y i = 1#1 ↔ y i ≠ 4294967196#32 := by
  unfold Cert.KernelIdeal.Hand.maskOf
  show IntOp.cmpi .ne (y i) 4294967196#32 = 1#1 ↔ _
  exact IntOp.cmpi_ne

/-- The values kept under the mask depend on the values only where the mask holds. -/
theorem where_congr (mask : IVec Cert.KernelIdeal.S8x512 1) (v v' : FVec Ideal Cert.KernelIdeal.S8x512 .f32)
    (z : FVec Ideal Cert.KernelIdeal.S_ .f32) (hv : ∀ i, mask i = 1#1 → v i = v' i) :
    Cert.KernelIdeal.Hand.whereOf (F := Ideal) mask v z = Cert.KernelIdeal.Hand.whereOf (F := Ideal) mask v' z := by
  unfold Cert.KernelIdeal.Hand.whereOf
  funext i
  show Scalar.select (mask i) (v i) _ = Scalar.select (mask i) (v' i) _
  unfold Scalar.select
  by_cases hm : mask i = 1
  · rw [if_pos hm, if_pos hm]; exact hv i hm
  · rw [if_neg hm, if_neg hm]

/-- The tail depends on the two per-token arrays only where the mask holds. -/
theorem tail_congr (mask : IVec Cert.KernelIdeal.S8x512 1) (tp tp' tr tr' : FVec Ideal Cert.KernelIdeal.S8x512 .f32)
    (hp : ∀ i, mask i = 1#1 → tp i = tp' i) (hr : ∀ i, mask i = 1#1 → tr i = tr' i) :
    Cert.KernelIdeal.Hand.tailOf (F := Ideal) mask tp tr = Cert.KernelIdeal.Hand.tailOf (F := Ideal) mask tp' tr' := by
  unfold Cert.KernelIdeal.Hand.tailOf Cert.KernelIdeal.Hand.meanOf
  rw [where_congr mask tp tp' _ hp, where_congr mask tr tr' _ hr]

/-! ## A region's row against the specification's token -/

/-- The quotient and the remainder of b * 512 + t by 512 are b and t. -/
theorem row_div (b : Fin 8) (t : Fin 512) (h : (b.val * 512 + t.val) / 512 < 8) :
    (⟨(b.val * 512 + t.val) / 512, h⟩ : Fin 8) = b := Fin.ext (by show (b.val * 512 + t.val) / 512 = b.val; omega)
theorem row_mod (b : Fin 8) (t : Fin 512) (h : (b.val * 512 + t.val) % 512 < 512) :
    (⟨(b.val * 512 + t.val) % 512, h⟩ : Fin 512) = t := Fin.ext (by show (b.val * 512 + t.val) % 512 = t.val; omega)

/-- Row b * 512 + t of the flattened hidden states has token (b, t)'s logits. -/
theorem rowLogit_glue (x : FVec Ideal Cert.KernelIdeal.S8x512x2048 .f32) (w : FVec Ideal Cert.KernelIdeal.S32000x2048 .f32)
    (b : Fin 8) (t : Fin 512) (j : Fin 32000) :
    Cert.Spec.rowLogit (Cert.KernelIdeal.Hand.xOf (F := Ideal) x) w ⟨b.val * 512 + t.val, by omega⟩ j
      = Cert.Spec.logit x w b t j := by
  unfold Cert.Spec.rowLogit Cert.Spec.logit
  refine Finset.sum_congr rfl fun k _ => ?_
  refine congrArg (· * w (ix2 j k)) ?_
  refine (Cert.KernelIdeal.Hand.xOf_apply x ⟨b.val * 512 + t.val, by omega⟩ k).trans ?_
  show x (ix3 ⟨(b.val * 512 + t.val) / 512, _⟩ ⟨(b.val * 512 + t.val) % 512, _⟩ k) = _
  rw [row_div b t, row_mod b t]

/-- Row b * 512 + t of the safe label column is token (b, t)'s label when that is not the ignore marker. -/
theorem ys_glue (y : IVec Cert.KernelIdeal.S8x512 32) (b : Fin 8) (t : Fin 512) (hne : y (ix2 b t) ≠ 4294967196#32) :
    Cert.KernelIdeal.Hand.ysOf (F := Ideal) y (ix2 (⟨b.val * 512 + t.val, by omega⟩ : Fin 4096) (0 : Fin 1)) = y (ix2 b t) := by
  refine (Cert.KernelIdeal.Hand.ysOf_apply (F := Ideal) y ⟨b.val * 512 + t.val, by omega⟩).trans ?_
  show (if y (ix2 ⟨(b.val * 512 + t.val) / 512, _⟩ ⟨(b.val * 512 + t.val) % 512, _⟩) = 4294967196#32 then 0#32
    else y (ix2 ⟨(b.val * 512 + t.val) / 512, _⟩ ⟨(b.val * 512 + t.val) % 512, _⟩)) = _
  rw [row_div b t, row_mod b t, if_neg hne]

/-- A region's closed form at row b * 512 + t is token (b, t)'s log-probability of its label. -/
theorem ktok_glue (x : FVec Ideal Cert.KernelIdeal.S8x512x2048 .f32) (w : FVec Ideal Cert.KernelIdeal.S32000x2048 .f32)
    (y : IVec Cert.KernelIdeal.S8x512 32) (b : Fin 8) (t : Fin 512) (hne : y (ix2 b t) ≠ 4294967196#32)
    (hlt : (y (ix2 b t)).toNat < 32000) :
    Cert.Spec.kTok (Cert.KernelIdeal.Hand.xOf (F := Ideal) x) w (Cert.KernelIdeal.Hand.ysOf (F := Ideal) y)
        ⟨b.val * 512 + t.val, by omega⟩
      = Cert.Spec.tokLogp x w b t ⟨(y (ix2 b t)).toNat, hlt⟩ := by
  have key : ∀ (v : BitVec 32) (hv : v = y (ix2 b t)),
      (if h : v.toNat < 32000 then
          Cert.Spec.rowLogit (Cert.KernelIdeal.Hand.xOf (F := Ideal) x) w ⟨b.val * 512 + t.val, by omega⟩ ⟨v.toNat, h⟩
        else 0)
        = Cert.Spec.logit x w b t ⟨(y (ix2 b t)).toNat, hlt⟩ := by
    intro v hv
    subst hv
    rw [dif_pos hlt]
    exact rowLogit_glue x w b t _
  have hsum : (∑ j : Fin 32000, Ideal.exp
        (Cert.Spec.rowLogit (Cert.KernelIdeal.Hand.xOf (F := Ideal) x) w ⟨b.val * 512 + t.val, by omega⟩ j))
      = ∑ j : Fin 32000, Ideal.exp (Cert.Spec.logit x w b t j) :=
    Finset.sum_congr rfl fun j _ => congrArg Ideal.exp (rowLogit_glue x w b t j)
  unfold Cert.Spec.kTok Cert.Spec.tokLogp Cert.Spec.sumExp
  exact congrArg₂ (· - ·) (key _ (ys_glue y b t hne)) (congrArg Ideal.log hsum)

end Cert.Proof.Bridge

end
-- ==== Proof.PreFacts.lean ====
/-
  The precondition, decoded. The printed predicate is the conjunction of five "all" reductions: for each of the four
  real-valued inputs, that every entry has absolute value below +∞; for the labels, that every entry is the ignore
  marker -100 or lies in [0, 32000) as a signed word. Over the extended reals |x| < +∞ says that x is a real number;
  a signed 32-bit word y with 0 ≤ y < 32000 has unsigned value below 32000.
-/
import proofs.«407363_j58059367907835_3_alg».proof.Pre_finite_inputs
import proofs.«407363_j58059367907835_3_alg».proof.Proof.Gen.Pre_finite_inputs
import Idealize.ShloMosaic.Lib.ReduceAll
import Idealize.ShloMosaic.Lib.StableHlo.Predicate
import Idealize.ShloMosaic.Lib.ValueIdx
import proofs.«407363_j58059367907835_3_alg».proof.Proof.Spec

noncomputable section

namespace Cert.Pre_finite_inputs.Hand

open Idealize.ShloMosaic

/-- The shape of a scalar has exactly one index. -/
instance : Subsingleton S_.Idx := ⟨fun a b => funext fun d => d.elim0⟩

/-- An extended real whose absolute value max x (-x) is strictly below +∞ is a real number. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  simp only [Ideal.cmp, StableHlo.Predicate.ofBool_eq_one_iff, decide_eq_true_eq] at h
  induction x using EReal.rec with
  | bot => simp at h
  | coe r => exact ⟨r, rfl⟩
  | top => simp at h

/-- A signed 32-bit word that equals -100, or is at least 0 and below 32000, is an admissible label. -/
theorem labelOk_of_word (y : BitVec 32)
    (h : IntOp.ori (IntOp.cmpi .eq y 4294967196#32)
          (IntOp.andi (IntOp.cmpi .sge y 0#32) (IntOp.cmpi .slt y 32000#32)) = 1#1) :
    Cert.Spec.LabelOk y := by
  rcases IntOp.ori_eq_one.1 h with h | h
  · exact Or.inl (IntOp.cmpi_eq.1 h)
  · obtain ⟨h1, h2⟩ := IntOp.andi_eq_one.1 h
    have h1' := IntOp.cmpi_sge.1 h1
    have h2' := IntOp.cmpi_slt.1 h2
    have e0 : (0#32 : BitVec 32).toInt = 0 := by decide
    have e1 : (32000#32 : BitVec 32).toInt = 32000 := by decide
    rw [e0] at h1'
    rw [e1] at h2'
    refine Or.inr ?_
    rw [BitVec.toInt_eq_toNat_cond] at h1' h2'
    split at h1' <;> omega

variable [Cert.Pre_finite_inputs.Facts]

/-- The precondition says: the four real-valued inputs hold real numbers and every label is admissible. -/
theorem decode (a0 a1 : FVec Ideal S8x512x2048 .f32) (a2 : IVec S8x512 32) (a3 a4 : FVec Ideal S32000x2048 .f32)
    (h : Cert.Pre_finite_inputs.fn (F := Ideal) a0 a1 a2 a3 a4 = (fun _ => 1#1)) :
    (∀ i, ∃ r : ℝ, a0 i = r) ∧ (∀ i, ∃ r : ℝ, a1 i = r) ∧ (∀ i, ∃ r : ℝ, a3 i = r) ∧ (∀ i, ∃ r : ℝ, a4 i = r)
      ∧ (∀ i, Cert.Spec.LabelOk (a2 i)) := by
  have h' := congrFun h ValueIdx.ix0
  dsimp only [Cert.Pre_finite_inputs.fn, Cert.Pre_finite_inputs.fn_part1, andi] at h'
  obtain ⟨h0123, hy⟩ := IntOp.andi_eq_one.1 h'
  obtain ⟨h013, h4⟩ := IntOp.andi_eq_one.1 h0123
  obtain ⟨h01, h3⟩ := IntOp.andi_eq_one.1 h013
  obtain ⟨h0, h1⟩ := IntOp.andi_eq_one.1 h01
  refine ⟨fun i => ?_, fun i => ?_, fun i => ?_, fun i => ?_, fun i => ?_⟩
  · exact real_of_abs_lt_top (a0 i) (Host.reduce_andi_all _ _ _ _ _ h0 i)
  · exact real_of_abs_lt_top (a1 i) (Host.reduce_andi_all _ _ _ _ _ h1 i)
  · exact real_of_abs_lt_top (a3 i) (Host.reduce_andi_all _ _ _ _ _ h3 i)
  · exact real_of_abs_lt_top (a4 i) (Host.reduce_andi_all _ _ _ _ _ h4 i)
  · exact labelOk_of_word (a2 i) (Host.reduce_andi_all _ _ _ _ _ hy i)

end Cert.Pre_finite_inputs.Hand

end
-- ==== Proof.Algebraic.lean ====
/-
  The two idealized programs end with equal results. Both end in the same scalar function of a label mask and two
  arrays of per-token log-probabilities (policy and reference model): per sequence the masked mean, the margin between
  the chosen and the rejected half, a log-sigmoid, a mean. So it is enough that the two programs' per-token arrays agree
  wherever the mask is set. There the label is a class index below 32000 (the precondition), the fused kernel leaves the
  label's logit minus the logarithm of the sum of the exponentials of the token's 32000 logits, and the reference's
  log_softmax followed by the gather is the same number: subtracting the row maximum before exponentiating cancels, all
  logits being real because the inputs are finite.
-/
import proofs.«407363_j58059367907835_3_alg».proof.Defs
import proofs.«407363_j58059367907835_3_alg».proof.Proof.KRun
import proofs.«407363_j58059367907835_3_alg».proof.Proof.KValue0
import proofs.«407363_j58059367907835_3_alg».proof.Proof.KValue1
import proofs.«407363_j58059367907835_3_alg».proof.Proof.KHost
import proofs.«407363_j58059367907835_3_alg».proof.Proof.RefRead
import proofs.«407363_j58059367907835_3_alg».proof.Proof.Bridge
import proofs.«407363_j58059367907835_3_alg».proof.Proof.PreFacts
import proofs.«407363_j58059367907835_3_alg».proof.Proof.Gen.KernelIdeal
import proofs.«407363_j58059367907835_3_alg».proof.Proof.Gen.ReferenceIdeal
import proofs.«407363_j58059367907835_3_alg».proof.Proof.Gen.Pre_finite_inputs

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ)

/-- The five argument arrays on core c, at their literal types. -/
abbrev A0 (c : Dev nD) : FVec Ideal S8x512x2048 .f32 := m ((c : Thread nD τ).loc main_arg0)
abbrev A1 (c : Dev nD) : FVec Ideal S8x512x2048 .f32 := m ((c : Thread nD τ).loc main_arg1)
abbrev A2 (c : Dev nD) : IVec S8x512 32 := m ((c : Thread nD τ).loc main_arg2)
abbrev A3 (c : Dev nD) : FVec Ideal S32000x2048 .f32 := m ((c : Thread nD τ).loc main_arg3)
abbrev A4 (c : Dev nD) : FVec Ideal S32000x2048 .f32 := m ((c : Thread nD τ).loc main_arg4)

/-- The policy pass: where the label is a class index, the kernel's token entry is the reference's. -/
theorem tok_pol (c : Dev nD)
    (hx : ∀ i, ∃ r : ℝ, A0 m c i = (r : EReal)) (hw : ∀ i, ∃ r : ℝ, A3 m c i = (r : EReal))
    (b : Fin 8) (t : Fin 512) (hne : A2 m c (ix2 b t) ≠ 4294967196#32)
    (hlt : (A2 m c (ix2 b t)).toNat < 32000) :
    tokOf (F := Ideal) (outsK m 4 main_v8 c) (ix2 b t)
      = Cert.ReferenceIdeal.Hand.refTok (F := Ideal) (A0 m c) (A3 m c) (A2 m c) (ix2 b t) := by
  rw [tokOf_apply, outsK_4]
  unfold o8
  rw [arr0_value (E3 m) c]
  show Cert.Spec.kTok (V3 m c main_v6) (V3 m c main_arg3) (V3 m c main_v7) _ = _
  rw [V3_v6, V3_arg3, V3_v7, Cert.Proof.Bridge.ktok_glue _ _ _ b t hne hlt]
  exact (Cert.ReferenceIdeal.Hand.refTok_apply _ _ _ hx hw b t hlt).symm

/-- The reference-model pass, likewise. -/
theorem tok_ref (c : Dev nD)
    (hx : ∀ i, ∃ r : ℝ, A1 m c i = (r : EReal)) (hw : ∀ i, ∃ r : ℝ, A4 m c i = (r : EReal))
    (b : Fin 8) (t : Fin 512) (hne : A2 m c (ix2 b t) ≠ 4294967196#32)
    (hlt : (A2 m c (ix2 b t)).toNat < 32000) :
    tokOf (F := Ideal) (outsK m 6 main_v13 c) (ix2 b t)
      = Cert.ReferenceIdeal.Hand.refTok (F := Ideal) (A1 m c) (A4 m c) (A2 m c) (ix2 b t) := by
  rw [tokOf_apply, outsK_6]
  unfold o13
  rw [arr1_value (E5 m) c]
  show Cert.Spec.kTok (V5 m (outs4 m) c main_v11) (V5 m (outs4 m) c main_arg4) (V5 m (outs4 m) c main_v12) _ = _
  rw [V5_v11, V5_arg4, V5_v12, Cert.Proof.Bridge.ktok_glue _ _ _ b t hne hlt]
  exact (Cert.ReferenceIdeal.Hand.refTok_apply _ _ _ hx hw b t hlt).symm

/-- The kernel's result is the reference's term of the same arguments. -/
theorem result_eq (c : Dev nD)
    (hpre : Cert.Pre_finite_inputs.fn (F := Ideal) (A0 m c) (A1 m c) (A2 m c) (A3 m c) (A4 m c) = (fun _ => 1#1)) :
    Cert.ReferenceIdeal.Hand.tailOf (F := Ideal) (Cert.ReferenceIdeal.Hand.maskOf (F := Ideal) (A2 m c))
        (Cert.ReferenceIdeal.Hand.refTok (F := Ideal) (A0 m c) (A3 m c) (A2 m c))
        (Cert.ReferenceIdeal.Hand.refTok (F := Ideal) (A1 m c) (A4 m c) (A2 m c))
      = V13 m (outsK m) c main_v40 := by
  obtain ⟨hx, hrx, hw, hrw, hy⟩ := Cert.Pre_finite_inputs.Hand.decode _ _ _ _ _ hpre
  rw [V13_v40, Cert.Proof.Bridge.mask_eq, Cert.Proof.Bridge.tail_eq]
  refine (Cert.Proof.Bridge.tail_congr _ _ _ _ _ ?_ ?_).symm
  · intro i hi
    obtain ⟨b, t, rfl⟩ : ∃ (b : Fin 8) (t : Fin 512), i = ix2 b t := ⟨i 0, i 1, eq_ix2 i⟩
    have hne := (Cert.Proof.Bridge.mask_apply _ _).mp hi
    exact tok_pol m c hx hw b t hne ((hy _).resolve_left hne)
  · intro i hi
    obtain ⟨b, t, rfl⟩ : ∃ (b : Fin 8) (t : Fin 512), i = ix2 b t := ⟨i 0, i 1, eq_ix2 i⟩
    have hne := (Cert.Proof.Bridge.mask_apply _ _).mp hi
    exact tok_ref m c hrx hrw b t hne ((hy _).resolve_left hne)

end Cert.Proof.Alg

end
-- ==== Proof.lean ====
/-
  The certificate: a fused linear layer + log-softmax + label gather, run once for the policy model and once for the
  reference model over 25 vocabulary tiles per row block with two accumulator columns, followed by the masked
  per-sequence means and the preference loss, computes the same scalar as the plain composition of a matrix product,
  log_softmax and take_along_axis — over the extended reals, for finite inputs and labels that are the ignore marker
  or a class index below 32000.
  The three frames: the kernel's program (at the word level and idealized) runs as host stretches around two
  pipelined kernel regions whose bodies are run case by case over the grid; the reference is a straight run of host
  operations. The idealization rewrote nothing, so it preserves trivially. The value: the regions' output columns are
  read off their pipelines' proof data row by row, the reference's term is read at an index, and the two agree on
  every unmasked token; the tail is one function of the masked token arrays on both sides.
-/
import proofs.«407363_j58059367907835_3_alg».proof.Defs
import proofs.«407363_j58059367907835_3_alg».proof.Proof.Gen.Kernel
import proofs.«407363_j58059367907835_3_alg».proof.Proof.Gen.KernelIdeal
import proofs.«407363_j58059367907835_3_alg».proof.Proof.Gen.ReferenceIdeal
import proofs.«407363_j58059367907835_3_alg».proof.Proof.Gen.Pre_finite_inputs
import proofs.«407363_j58059367907835_3_alg».proof.Proof.BKRun
import proofs.«407363_j58059367907835_3_alg».proof.Proof.KRun
import proofs.«407363_j58059367907835_3_alg».proof.Proof.RefRun
import proofs.«407363_j58059367907835_3_alg».proof.Proof.Algebraic
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments unchanged. -/
theorem frame_k : Cert.frame_Kernel (hKernel := Cert.Kernel.Gen.facts) (hPre_finite_inputs := Cert.Pre_finite_inputs.Gen.facts) :=
  fun m ρ _ => Cert.Kernel.Hand.frame_run (F := Bits) m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame_run (F := Ideal) m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run (F := Ideal) m ρ)

/-- From memories agreeing on the five arguments both idealized programs end with the same scalar. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.V13 m (Cert.KernelIdeal.Hand.outsK m) c Cert.KernelIdeal.main_v40, Cert.KernelIdeal.Hand.value_run (F := Ideal) m ρ, ?_⟩
  refine (θ_run Cert.ReferenceIdeal.defs _ _).mono (fun _ h c => ⟨(h c).1.trans ?_, (h c).2⟩) (Cert.ReferenceIdeal.Hand.run (F := Ideal) m' ρ')
  obtain ⟨e0, e1, e2, e3, e4⟩ := hagree c
  rw [e0, e1, e2, e3, e4]
  exact Cert.Proof.Alg.result_eq m c (hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
